-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S3200000 : Shape := ⟨1, ![3200000]⟩
abbrev S100000 : Shape := ⟨1, ![100000]⟩
abbrev S64x16 : Shape := ⟨2, ![64, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg6 : FVec F S16x16 .f32) (main_arg7 : FVec F S16 .f32) (main_arg8 : FVec F S16x2 .f32) (main_arg9 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x2 .f32 := Host.absf main_arg8
  let main_cst_10 : FVec F S_ .f32 := constant S_ .f32 0x7F800000#32
  let main_v30 : FVec F S16x2 .f32 := broadcastInDim S16x2 ![] bcast_S_S16x2 main_cst_10
  let main_v31 : IVec S16x2 1 := cmpf .olt main_v29 main_v30
  let main_c_11 : IVec S_ 1 := constantI S_ 1 1#1
  let main_v32 : IVec S_ 1 := (fun x v => Host.reduce IntOp.andi x v reducesTo_S16x2_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : IVec S2x3200000 32) (main_arg2 : FVec F S3200000 .f32) (main_arg3 : IVec S100000 32) (main_arg4 : FVec F S64x16 .f32) (main_arg5 : FVec F S16 .f32) (main_arg6 : FVec F S16x16 .f32) (main_arg7 : FVec F S16 .f32) (main_arg8 : FVec F S16x2 .f32) (main_arg9 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x16 .f32 := Host.absf main_arg4
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_v13 main_v16
-- ==== Kernel.lean ====
abbrev S100000x64 : Shape := ⟨2, ![100000, 64]⟩
abbrev S2x3200000 : Shape := ⟨2, ![2, 3200000]⟩
abbrev S3200000 : Shape := ⟨1, ![3200000]⟩
abbrev S100000 : Shape := ⟨1, ![100000]⟩
abbrev S64x16 : Shape := ⟨2, ![64, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x64 : Shape := ⟨2, ![10000, 64]⟩
abbrev S10000x16 : Shape := ⟨2, ![10000, 16]⟩
abbrev S3300000x16 : Shape := ⟨2, ![3300000, 16]⟩
abbrev S1x16 : Shape := ⟨2, ![1, 16]⟩
abbrev S100000x1 : Shape := ⟨2, ![100000, 1]⟩
abbrev S1x2 : Shape := ⟨2, ![1, 2]⟩
abbrev S512x2 : Shape := ⟨2, ![512, 2]⟩
abbrev S10000x1 : Shape := ⟨2, ![10000, 1]⟩
abbrev S512x16 : Shape := ⟨2, ![512, 16]⟩
abbrev S512x1 : Shape := ⟨2, ![512, 1]⟩
abbrev S1x512 : Shape := ⟨2, ![1, 512]⟩
abbrev S10000x512 : Shape := ⟨2, ![10000, 512]⟩
abbrev S512 : Shape := ⟨1, ![512]⟩

abbrev nBuf : Space → Nat
  | .hbm => 100
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .f32⟩
  | .hbm, ⟨3, _⟩ => ⟨S100000, .i32⟩
  | .hbm, ⟨4, _⟩ => ⟨S64x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x2, .f32⟩
  | .hbm, ⟨9, _⟩ => ⟨S2, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S100000, .i32⟩
  | .hbm, ⟨15, _⟩ => ⟨S3300000, .i32⟩
  | .hbm, ⟨16, _⟩ => ⟨S3300000, .i32⟩
  | .hbm, ⟨17, _⟩ => ⟨S_, .f32⟩
  | .hbm, ⟨18, _⟩ => ⟨S100000, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000, .f32⟩
  | .hbm, ⟨58, _⟩ => ⟨S3300000, .f32⟩
  | .hbm, ⟨59, _⟩ => ⟨S100000x16, .f32⟩
  | .hbm, ⟨60, _⟩ => ⟨S3300000x1, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x16, .f32⟩
  | .hbm, ⟨70, _⟩ => ⟨S3300000x16, .f32⟩
  | .hbm, ⟨71, _⟩ => ⟨S3300000x16, .f32⟩
  | .hbm, ⟨72, _⟩ => ⟨S_, .f32⟩
  | .hbm, ⟨73, _⟩ => ⟨S100000x16, .f32⟩
  | .hbm, ⟨74, _⟩ => ⟨S3300000x1, .i32⟩
  | .hbm, ⟨75, _⟩ => ⟨S100000x16, .f32⟩
  | .hbm, ⟨76, _⟩ => ⟨S1x16, .f32⟩
  | .hbm, ⟨77, _⟩ => ⟨S100000x16, .f32⟩
  | .hbm, ⟨78, _⟩ => ⟨S100000x16, .f32⟩
  | .hbm, ⟨79, _⟩ => ⟨S3300000x1, .f32⟩
  | .hbm, ⟨80, _⟩ => ⟨S_, .i32⟩
  | .hbm, ⟨81, _⟩ => ⟨S3300000, .i32⟩
  | .hbm, ⟨82, _⟩ => ⟨S3300000, .i1⟩
  | .hbm, ⟨83, _⟩ => ⟨S_, .i32⟩
  | .hbm, ⟨84, _⟩ => ⟨S3300000, .i32⟩
  | .hbm, ⟨85, _⟩ => ⟨S3300000, .i32⟩
  | .hbm, ⟨86, _⟩ => ⟨S3300000, .i32⟩
  | .hbm, ⟨87, _⟩ => ⟨S3300000x1, .i32⟩
  | .hbm, ⟨88, _⟩ => ⟨S3300000x16, .f32⟩
  | .hbm, ⟨89, _⟩ => ⟨S3300000x16, .f32⟩
  | .hbm, ⟨90, _⟩ => ⟨S3300000x16, .f32⟩
  | .hbm, ⟨91, _⟩ => ⟨S_, .f32⟩
  | .hbm, ⟨92, _⟩ => ⟨S100000x16, .f32⟩
  | .hbm, ⟨93, _⟩ => ⟨S3300000x1, .i32⟩
  | .hbm, ⟨94, _⟩ => ⟨S100000x16, .f32⟩
  | .hbm, ⟨95, _⟩ => ⟨S1x16, .f32⟩
  | .hbm, ⟨96, _⟩ => ⟨S100000x16, .f32⟩
  | .hbm, ⟨97, _⟩ => ⟨S100000x1, .i32⟩
  | .hbm, ⟨98, _⟩ => ⟨S1x2, .f32⟩
  | .hbm, ⟨99, _⟩ => ⟨S512x2, .f32⟩
  | .local _ .vmem, ⟨0, _⟩ => ⟨S10000x64, .f32⟩
  | .local _ .vmem, ⟨1, _⟩ => ⟨S10000x64, .f32⟩
  | .local _ .vmem, ⟨2, _⟩ => ⟨S64x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | .local _ .vmem, ⟨20, _⟩ => ⟨S10000x1, .i32⟩
  | .local _ .vmem, ⟨21, _⟩ => ⟨S10000x1, .i32⟩
  | .local _ .vmem, ⟨22, _⟩ => ⟨S10000x16, .f32⟩
  | .local _ .vmem, ⟨23, _⟩ => ⟨S10000x16, .f32⟩
  | .local _ .vmem, ⟨24, _⟩ => ⟨S16x2, .f32⟩
  | .local _ .vmem, ⟨25, _⟩ => ⟨S1x2, .f32⟩
  | .local _ .vmem, ⟨26, _⟩ => ⟨S512x2, .f32⟩
  | .local _ .vmem, ⟨27, _⟩ => ⟨S512x16, .f32⟩
  | .local _ .vmem, ⟨28, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_scratch0 : Ref sig .tc := ⟨.vmem, 27, rfl⟩
abbrev cc4_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_14 : BitVec 32 := 0#32
  let v30 : BitVec 1 := Scalar.cmpi .ne v29 c0_i32_14
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  shapeCasts_S100000_S100000x1 : S100000.ShapeCasts S100000x1
  shapeCasts_S2_S1x2 : S2.ShapeCasts S1x2
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x512_d1_w32 : S1x512.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x512 : S10000x1.Broadcasts S10000x512
  broadcasts_S1x512_S10000x512 : S1x512.Broadcasts S10000x512
  natLt_1_32 : 1 < 32
  broadcasts_S512x1_S512x16 : S512x1.Broadcasts S512x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  reduces_S512x2_S512 : S512x2.Reduces [1] S512
  shapeCasts_S512_S512x1 : S512.ShapeCasts S512x1
  broadcasts_S512x1_S512x2 : S512x1.Broadcasts S512x2
  inb_S512x2_S512x2_0_0 : ∀ a, (![0, 0] : Fin 2 → Nat) a + S512x2.size a ≤ S512x2.size a
  h_S512x2 : 0 < S512x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x64_S64x16_S10000x16_1_0_0_1_n_n_wf : DotDims.WF S10000x64 S64x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  dot_S10000x512_S10000x16_S512x16_0_0_1_1_n_n_wf : DotDims.WF S10000x512 S10000x16 S512x16 [0] [0] [1] [1] [] []
  dot_S10000x512_S10000x1_S512x1_0_0_1_1_n_n_wf : DotDims.WF S10000x512 S10000x1 S512x1 [0] [0] [1] [1] [] []
  dot_S512x16_S16x2_S512x2_1_0_0_1_n_n_wf : DotDims.WF S512x16 S16x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x1.size a ≤ S100000x1.size a
  hwx4_0 : ∀ i : grid4.Coords, EltTy.bits .i32 = 32 ∨ (Rect.block (s := S100000x1) S10000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x16.size a ≤ S100000x16.size a
  hwx4_1 : ∀ i : grid4.Coords, EltTy.bits .f32 = 32 ∨ (Rect.block (s := S100000x16) S10000x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x2.size a ≤ S16x2.size a
  hwx4_2 : ∀ i : grid4.Coords, EltTy.bits .f32 = 32 ∨ (Rect.block (s := S16x2) S16x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2.size a ≤ S1x2.size a
  hwx4_3 : ∀ i : grid4.Coords, EltTy.bits .f32 = 32 ∨ (Rect.block (s := S1x2) S1x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x2.size a ≤ S512x2.size a
  hwx4_4 : ∀ i : grid4.Coords, EltTy.bits .f32 = 32 ∨ (Rect.block (s := S512x2) S512x2.size (cc4_transform_4 i) (hinb4_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x512_S10000x16_S512x16_0_0_1_1_n_n : DotDims S10000x512 S10000x16 S512x16 where
  lhsContracting := [0]
  rhsContracting := [0]
  lhsNonContracting := [1]
  rhsNonContracting := [1]
  lhsBatch := []
  rhsBatch := []
  wf := dot_S10000x512_S10000x16_S512x16_0_0_1_1_n_n_wf
def dot_S10000x512_S10000x1_S512x1_0_0_1_1_n_n : DotDims S10000x512 S10000x1 S512x1 where
  lhsContracting := [0]
  rhsContracting := [0]
  lhsNonContracting := [1]
  rhsNonContracting := [1]
  lhsBatch := []
  rhsBatch := []
  wf := dot_S10000x512_S10000x1_S512x1_0_0_1_1_n_n_wf
def dot_S512x16_S16x2_S512x2_1_0_0_1_n_n : DotDims S512x16 S16x2 S512x2 where
  lhsContracting := [1]
  rhsContracting := [0]
  lhsNonContracting := [0]
  rhsNonContracting := [1]
  lhsBatch := []
  rhsBatch := []
  wf := dot_S512x16_S16x2_S512x2_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S10000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S10000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S16x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S1x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S512x2.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x3200000 : Shape := ⟨2, ![2, 3200000]⟩
abbrev S3200000 : Shape := ⟨1, ![3200000]⟩
abbrev S100000 : Shape := ⟨1, ![100000]⟩
abbrev S64x16 : Shape := ⟨2, ![64, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S512x16 : Shape := ⟨2, ![512, 16]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 185
  | .vmem => 0
  | .smem => 0
  | _ => 0

abbrev hbmTy0_0 (i : Nat) : BufTy := match i % 128 with
  | 0 => ⟨S100000x64, .f32⟩
  | 1 => ⟨S2x3200000, .i32⟩
  | 2 => ⟨S3200000, .f32⟩
  | 3 => ⟨S100000, .i32⟩
  | 4 => ⟨S64x16, .f32⟩
  | 5 => ⟨S16, .f32⟩
  | 6 => ⟨S16x16, .f32⟩
  | 7 => ⟨S16, .f32⟩
  | 8 => ⟨S16x2, .f32⟩
  | 9 => ⟨S2, .f32⟩
  | 10 => ⟨S1x3200000, .i32⟩
  | 11 => ⟨S3200000, .i32⟩
  | 12 => ⟨S1x3200000, .i32⟩
  | 13 => ⟨S3200000, .i32⟩
  | 14 => ⟨S100000, .i32⟩
  | 15 => ⟨S3300000, .i32⟩
  | 16 => ⟨S3300000, .i32⟩
  | 17 => ⟨S_, .f32⟩
  | 18 => ⟨S100000, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .i1⟩
  | 30 => ⟨S_, .f32⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000, .f32⟩
  | 58 => ⟨S3300000, .f32⟩
  | 59 => ⟨S100000x16, .f32⟩
  | 60 => ⟨S3300000x1, .f32⟩
  | 61 => ⟨S_, .i32⟩
  | 62 => ⟨S3300000, .i32⟩
  | 63 => ⟨S3300000, .i1⟩
  | 64 => ⟨S_, .i32⟩
  | 65 => ⟨S3300000, .i32⟩
  | 66 => ⟨S3300000, .i32⟩
  | 67 => ⟨S3300000, .i32⟩
  | 68 => ⟨S3300000x1, .i32⟩
  | 69 => ⟨S3300000x16, .f32⟩
  | 70 => ⟨S3300000x16, .f32⟩
  | 71 => ⟨S3300000x16, .f32⟩
  | 72 => ⟨S_, .f32⟩
  | 73 => ⟨S100000x16, .f32⟩
  | 74 => ⟨S3300000x1, .i32⟩
  | 75 => ⟨S100000x16, .f32⟩
  | 76 => ⟨S1x16, .f32⟩
  | 77 => ⟨S100000x16, .f32⟩
  | 78 => ⟨S100000x16, .f32⟩
  | 79 => ⟨S_, .f32⟩
  | 80 => ⟨S100000x16, .f32⟩
  | 81 => ⟨S100000x16, .f32⟩
  | 82 => ⟨S100000, .i32⟩
  | 83 => ⟨S3300000, .i32⟩
  | 84 => ⟨S3300000, .i32⟩
  | 85 => ⟨S_, .f32⟩
  | 86 => ⟨S100000, .f32⟩
  | 87 => ⟨S3300000, .f32⟩
  | 88 => ⟨S_, .f32⟩
  | 89 => ⟨S100000, .f32⟩
  | 90 => ⟨S3300000x1, .i32⟩
  | 91 => ⟨S100000, .f32⟩
  | 92 => ⟨S_, .f32⟩
  | 93 => ⟨S100000, .f32⟩
  | 94 => ⟨S100000, .i1⟩
  | 95 => ⟨S_, .f32⟩
  | 96 => ⟨S100000, .f32⟩
  | 97 => ⟨S100000, .i1⟩
  | 98 => ⟨S_, .f32⟩
  | 99 => ⟨S_, .f32⟩
  | 100 => ⟨S100000, .f32⟩
  | 101 => ⟨S100000, .f32⟩
  | 102 => ⟨S100000, .f32⟩
  | 103 => ⟨S_, .f32⟩
  | 104 => ⟨S_, .f32⟩
  | 105 => ⟨S100000, .f32⟩
  | 106 => ⟨S100000, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000, .f32⟩
  | 116 => ⟨S3300000, .f32⟩
  | 117 => ⟨S_, .i32⟩
  | 118 => ⟨S3300000, .i32⟩
  | 119 => ⟨S3300000, .i1⟩
  | 120 => ⟨S_, .i32⟩
  | 121 => ⟨S3300000, .i32⟩
  | 122 => ⟨S3300000, .i32⟩
  | 123 => ⟨S3300000, .i32⟩
  | 124 => ⟨S3300000x1, .i32⟩
  | 125 => ⟨S3300000, .f32⟩
  | 126 => ⟨S3300000, .f32⟩
  | 127 => ⟨S100000x16, .f32⟩
  | _ => ⟨S100000x64, .f32⟩

abbrev hbmTy0_1 (i : Nat) : BufTy := match i % 128 with
  | 0 => ⟨S3300000x1, .f32⟩
  | 1 => ⟨S_, .i32⟩
  | 2 => ⟨S3300000, .i32⟩
  | 3 => ⟨S3300000, .i1⟩
  | 4 => ⟨S_, .i32⟩
  | 5 => ⟨S3300000, .i32⟩
  | 6 => ⟨S3300000, .i32⟩
  | 7 => ⟨S3300000, .i32⟩
  | 8 => ⟨S3300000x1, .i32⟩
  | 9 => ⟨S3300000x16, .f32⟩
  | 10 => ⟨S3300000x16, .f32⟩
  | 11 => ⟨S3300000x16, .f32⟩
  | 12 => ⟨S_, .f32⟩
  | 13 => ⟨S100000x16, .f32⟩
  | 14 => ⟨S3300000x1, .i32⟩
  | 15 => ⟨S100000x16, .f32⟩
  | 16 => ⟨S1x16, .f32⟩
  | 17 => ⟨S100000x16, .f32⟩
  | 18 => ⟨S100000x16, .f32⟩
  | 19 => ⟨S_, .f32⟩
  | 20 => ⟨S100000x16, .f32⟩
  | 21 => ⟨S100000x16, .f32⟩
  | 22 => ⟨S_, .f32⟩
  | 23 => ⟨S512x16, .f32⟩
  | 24 => ⟨S100000x1, .i32⟩
  | 25 => ⟨S512x16, .f32⟩
  | 26 => ⟨S_, .f32⟩
  | 27 => ⟨S100000, .f32⟩
  | 28 => ⟨S_, .f32⟩
  | 29 => ⟨S512, .f32⟩
  | 30 => ⟨S100000x1, .i32⟩
  | 31 => ⟨S512, .f32⟩
  | 32 => ⟨S_, .f32⟩
  | 33 => ⟨S512, .f32⟩
  | 34 => ⟨S512, .f32⟩
  | 35 => ⟨S512x1, .f32⟩
  | 36 => ⟨S512x16, .f32⟩
  | 37 => ⟨S512x16, .f32⟩
  | 38 => ⟨S512x2, .f32⟩
  | 39 => ⟨S1x2, .f32⟩
  | 40 => ⟨S512x2, .f32⟩
  | 41 => ⟨S512x2, .f32⟩
  | 42 => ⟨S_, .f32⟩
  | 43 => ⟨S512, .f32⟩
  | 44 => ⟨S_, .f32⟩
  | 45 => ⟨S512, .f32⟩
  | 46 => ⟨S512, .f32⟩
  | 47 => ⟨S512x1, .f32⟩
  | 48 => ⟨S512x2, .f32⟩
  | 49 => ⟨S512x2, .f32⟩
  | 50 => ⟨S512x2, .f32⟩
  | 51 => ⟨S_, .f32⟩
  | 52 => ⟨S512, .f32⟩
  | 53 => ⟨S512x1, .f32⟩
  | 54 => ⟨S512x1, .f32⟩
  | 55 => ⟨S512x2, .f32⟩
  | 56 => ⟨S512x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_cst_15 : Ref sig .tc := ⟨.hbm, 98, rfl⟩
abbrev main_call3_v0 : Ref sig .tc := ⟨.hbm, 99, rfl⟩
abbrev main_call3_v1 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_call4_v0 : Ref sig .tc := ⟨.hbm, 104, rfl⟩
abbrev main_call4_v1 : Ref sig .tc := ⟨.hbm, 105, rfl⟩
abbrev main_v67 : Ref sig .tc := ⟨.hbm, 106, rfl⟩
abbrev main_c_17 : Ref sig .tc := ⟨.hbm, 107, rfl⟩
abbrev main_v68 : Ref sig .tc := ⟨.hbm, 108, rfl⟩
abbrev main_v69 : Ref sig .tc := ⟨.hbm, 109, rfl⟩
abbrev main_c_18 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_19 : Ref sig .tc := ⟨.hbm, 117, rfl⟩
abbrev main_v76 : Ref sig .tc := ⟨.hbm, 118, rfl⟩
abbrev main_v77 : Ref sig .tc := ⟨.hbm, 119, rfl⟩
abbrev main_c_20 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_21 : Ref sig .tc := ⟨.hbm, 129, rfl⟩
abbrev main_v86 : Ref sig .tc := ⟨.hbm, 130, rfl⟩
abbrev main_v87 : Ref sig .tc := ⟨.hbm, 131, rfl⟩
abbrev main_c_22 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_23 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call5_cst : Ref sig .tc := ⟨.hbm, 147, rfl⟩
abbrev main_call5_v0 : Ref sig .tc := ⟨.hbm, 148, rfl⟩
abbrev main_v101 : Ref sig .tc := ⟨.hbm, 149, rfl⟩
abbrev main_cst_24 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_25 : Ref sig .tc := ⟨.hbm, 154, rfl⟩
abbrev main_v105 : Ref sig .tc := ⟨.hbm, 155, rfl⟩
abbrev main_cst_26 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_27 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_call6_cst : Ref sig .tc := ⟨.hbm, 170, rfl⟩
abbrev main_call6_v0 : Ref sig .tc := ⟨.hbm, 171, rfl⟩
abbrev main_call6_cst_0 : Ref sig .tc := ⟨.hbm, 172, rfl⟩
abbrev main_call6_v1 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_call6_v5 : Ref sig .tc := ⟨.hbm, 177, rfl⟩
abbrev main_call6_v6 : Ref sig .tc := ⟨.hbm, 178, rfl⟩
abbrev main_call6_cst_1 : Ref sig .tc := ⟨.hbm, 179, rfl⟩
abbrev main_call6_v7 : Ref sig .tc := ⟨.hbm, 180, rfl⟩
abbrev main_call6_v8 : Ref sig .tc := ⟨.hbm, 181, rfl⟩
abbrev main_call6_v9 : Ref sig .tc := ⟨.hbm, 182, rfl⟩
abbrev main_call6_v10 : Ref sig .tc := ⟨.hbm, 183, rfl⟩
abbrev main_v118 : Ref sig .tc := ⟨.hbm, 184, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S512x16 : S_.BroadcastsInDim S512x16 (![] : Fin 0 → Fin S512x16.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  reducesTo_S512x2_S512_d1 : S512x2.ReducesTo [1] S512
  h_S_ : 0 < S_.numel
  bcast_S512x1_S512x2_0_1 : S512x1.BroadcastsInDim S512x2 (![0, 1] : Fin 2 → Fin S512x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x16_S100000x16_1_0_0_1_n_n_wf : DotDims.WF S100000x64 S64x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  scatter_S512x16_S100000x1_S100000x16_1_0_0_1_wf : ScatterDims.WF S512x16 S100000x1 S100000x16 [1] [0] [0] 1
  scatter_S512_S100000x1_S100000_n_0_0_1_wf : ScatterDims.WF S512 S100000x1 S100000 [] [0] [0] 1
  dot_S512x16_S16x2_S512x2_1_0_0_1_n_n_wf : DotDims.WF S512x16 S16x2 S512x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x16_S16x2_S512x2_1_0_0_1_n_n : DotDims S512x16 S16x2 S512x2 where
  lhsContracting := [1]
  rhsContracting := [0]
  lhsNonContracting := [0]
  rhsNonContracting := [1]
  lhsBatch := []
  rhsBatch := []
  wf := dot_S512x16_S16x2_S512x2_1_0_0_1_n_n_wf

class Facts : Prop extends Facts₀ where

variable [Facts]
-- ==== Proof.K.Reg0.lean ====
/-
  Region 0 of the kernel program as printed: the row-block matrix product.  At a parameter V (the buffers' contents
  when the region is entered) this module says what each window's block is at a grid point, what the body leaves in
  the output window's staging buffer (the product of the point's row block with the whole weight matrix), and proves
  the body's triple and the pipeline's body obligation for these data.  Generic in the float instance.
-/
import proofs.«406625_j53764400611916_2_alg».proof.Proof.Gen.Kernel.Launch
import proofs.«406625_j53764400611916_2_alg».proof.Proof.Gen.Kernel.Skeleton
import proofs.«406625_j53764400611916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point (its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S10000x64 := Rect.unit (s := S10000x64) ![0, 0] S10000x64.size inb_S10000x64_S10000x64_0_0
abbrev r0_w : Rect S64x16 := Rect.unit (s := S64x16) ![0, 0] S64x16.size inb_S64x16_S64x16_0_0
abbrev r0_o : Rect S10000x16 := Rect.unit (s := S10000x16) ![0, 0] S10000x16.size inb_S10000x16_S10000x16_0_0

/-- What the body leaves in the output window's staging buffer: one whole-buffer store of the product. -/
def out0_2 (x0 : Vec F S10000x64 .f32) (x1 : Vec F S64x16 .f32) : Vec F S10000x16 .f32 :=
  View.canon [⟨r0_o, k0_pay1 (View.ld x0 r0_x) (View.ld x1 r0_w)⟩]

theorem cover0_2 (p0 : Vec F S10000x16 .f32) (y : S10000x16.Idx) :
    ∃ pc ∈ ([⟨r0_o, p0⟩] : List (View.Piece (Elt F) S10000x16 .f32)), y ∈ pc.1.set :=
  View.cover_of_tiled [⟨r0_o, p0⟩] S10000x16.size (by rfl) y

set_option maxHeartbeats 1000000 in
/-- The body on whole staging memrefs: the inputs are read and kept, the output ends at the product. -/
theorem sound_kernel0 (c : Dev nD) (E : Set ℕ) (i : grid0.Coords) (arg1 : Memref sig .tc .vmem S10000x64 .f32) (harg1 : arg1.IsWhole)
    (arg2 : Memref sig .tc .vmem S64x16 .f32) (harg2 : arg2.IsWhole) (arg3 : Memref sig .tc .vmem S10000x16 .f32) (harg3 : arg3.IsWhole)
    (x0 : Vec F S10000x64 .f32) (x1 : Vec F S64x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c at the entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the kernel program as printed: the bias and the rectifier over a row block.  At a parameter V (the buffers' contents
  when the region is entered) this module says what each window's block is at a grid point, what the body leaves in
  the output window's staging buffer (the maximum of zero and the point's row block plus the bias row), and proves
  the body's triple and the pipeline's body obligation for these data.  Generic in the float instance.
-/
import proofs.«406625_j53764400611916_2_alg».proof.Proof.Gen.Kernel.Launch
import proofs.«406625_j53764400611916_2_alg».proof.Proof.Gen.Kernel.Skeleton
import proofs.«406625_j53764400611916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's staging buffer holds the whole matrix at every point (its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S10000x16 := Rect.unit (s := S10000x16) ![0, 0] S10000x16.size inb_S10000x16_S10000x16_0_0
abbrev r1_w : Rect S1x16 := Rect.unit (s := S1x16) ![0, 0] S1x16.size inb_S1x16_S1x16_0_0
abbrev r1_o : Rect S10000x16 := Rect.unit (s := S10000x16) ![0, 0] S10000x16.size inb_S10000x16_S10000x16_0_0

/-- What the body leaves in the output window's staging buffer: one whole-buffer store of the product. -/
def out1_2 (x0 : Vec F S10000x16 .f32) (x1 : Vec F S1x16 .f32) : Vec F S10000x16 .f32 :=
  View.canon [⟨r1_o, k1_pay1 (View.ld x0 r1_x) (View.ld x1 r1_w)⟩]

theorem cover1_2 (p0 : Vec F S10000x16 .f32) (y : S10000x16.Idx) :
    ∃ pc ∈ ([⟨r1_o, p0⟩] : List (View.Piece (Elt F) S10000x16 .f32)), y ∈ pc.1.set :=
  View.cover_of_tiled [⟨r1_o, p0⟩] S10000x16.size (by rfl) y

set_option maxHeartbeats 1000000 in
/-- The body on whole staging memrefs: the inputs are read and kept, the output ends at the product. -/
theorem sound_kernel1 (c : Dev nD) (E : Set ℕ) (i : grid1.Coords) (arg1 : Memref sig .tc .vmem S10000x16 .f32) (harg1 : arg1.IsWhole)
    (arg2 : Memref sig .tc .vmem S1x16 .f32) (harg2 : arg2.IsWhole) (arg3 : Memref sig .tc .vmem S10000x16 .f32) (harg3 : arg3.IsWhole)
    (x0 : Vec F S10000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core c at the entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the kernel program as printed: the second row-block matrix product.  At a parameter V (the buffers' contents
  when the region is entered) this module says what each window's block is at a grid point, what the body leaves in
  the output window's staging buffer (the product of the point's row block with the whole weight matrix), and proves
  the body's triple and the pipeline's body obligation for these data.  Generic in the float instance.
-/
import proofs.«406625_j53764400611916_2_alg».proof.Proof.Gen.Kernel.Launch
import proofs.«406625_j53764400611916_2_alg».proof.Proof.Gen.Kernel.Skeleton
import proofs.«406625_j53764400611916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds the block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the whole matrix at every point (its block index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S10000x16 := Rect.unit (s := S10000x16) ![0, 0] S10000x16.size inb_S10000x16_S10000x16_0_0
abbrev r2_w : Rect S16x16 := Rect.unit (s := S16x16) ![0, 0] S16x16.size inb_S16x16_S16x16_0_0
abbrev r2_o : Rect S10000x16 := Rect.unit (s := S10000x16) ![0, 0] S10000x16.size inb_S10000x16_S10000x16_0_0

/-- What the body leaves in the output window's staging buffer: one whole-buffer store of the product. -/
def out2_2 (x0 : Vec F S10000x16 .f32) (x1 : Vec F S16x16 .f32) : Vec F S10000x16 .f32 :=
  View.canon [⟨r2_o, k2_pay1 (View.ld x0 r2_x) (View.ld x1 r2_w)⟩]

theorem cover2_2 (p0 : Vec F S10000x16 .f32) (y : S10000x16.Idx) :
    ∃ pc ∈ ([⟨r2_o, p0⟩] : List (View.Piece (Elt F) S10000x16 .f32)), y ∈ pc.1.set :=
  View.cover_of_tiled [⟨r2_o, p0⟩] S10000x16.size (by rfl) y

set_option maxHeartbeats 1000000 in
/-- The body on whole staging memrefs: the inputs are read and kept, the output ends at the product. -/
theorem sound_kernel2 (c : Dev nD) (E : Set ℕ) (i : grid2.Coords) (arg1 : Memref sig .tc .vmem S10000x16 .f32) (harg1 : arg1.IsWhole)
    (arg2 : Memref sig .tc .vmem S16x16 .f32) (harg2 : arg2.IsWhole) (arg3 : Memref sig .tc .vmem S10000x16 .f32) (harg3 : arg3.IsWhole)
    (x0 : Vec F S10000x16 .f32) (x1 : Vec F S16x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core c at the entry contents V. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 of the kernel program as printed: the second bias and rectifier over a row block.  At a parameter V (the buffers' contents
  when the region is entered) this module says what each window's block is at a grid point, what the body leaves in
  the output window's staging buffer (the maximum of zero and the point's row block plus the bias row), and proves
  the body's triple and the pipeline's body obligation for these data.  Generic in the float instance.
-/
import proofs.«406625_j53764400611916_2_alg».proof.Proof.Gen.Kernel.Launch
import proofs.«406625_j53764400611916_2_alg».proof.Proof.Gen.Kernel.Skeleton
import proofs.«406625_j53764400611916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds the block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix's staging buffer holds the whole matrix at every point (its block index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S10000x16 := Rect.unit (s := S10000x16) ![0, 0] S10000x16.size inb_S10000x16_S10000x16_0_0
abbrev r3_w : Rect S1x16 := Rect.unit (s := S1x16) ![0, 0] S1x16.size inb_S1x16_S1x16_0_0
abbrev r3_o : Rect S10000x16 := Rect.unit (s := S10000x16) ![0, 0] S10000x16.size inb_S10000x16_S10000x16_0_0

/-- What the body leaves in the output window's staging buffer: one whole-buffer store of the product. -/
def out3_2 (x0 : Vec F S10000x16 .f32) (x1 : Vec F S1x16 .f32) : Vec F S10000x16 .f32 :=
  View.canon [⟨r3_o, k3_pay1 (View.ld x0 r3_x) (View.ld x1 r3_w)⟩]

theorem cover3_2 (p0 : Vec F S10000x16 .f32) (y : S10000x16.Idx) :
    ∃ pc ∈ ([⟨r3_o, p0⟩] : List (View.Piece (Elt F) S10000x16 .f32)), y ∈ pc.1.set :=
  View.cover_of_tiled [⟨r3_o, p0⟩] S10000x16.size (by rfl) y

set_option maxHeartbeats 1000000 in
/-- The body on whole staging memrefs: the inputs are read and kept, the output ends at the product. -/
theorem sound_kernel3 (c : Dev nD) (E : Set ℕ) (i : grid3.Coords) (arg1 : Memref sig .tc .vmem S10000x16 .f32) (harg1 : arg1.IsWhole)
    (arg2 : Memref sig .tc .vmem S1x16 .f32) (harg2 : arg2.IsWhole) (arg3 : Memref sig .tc .vmem S10000x16 .f32) (harg3 : arg3.IsWhole)
    (x0 : Vec F S10000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core c at the entry contents V. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4 of the kernel program as printed: pooling per graph, then the final linear layer and the log-softmax.
  The body keeps two accumulators in scratch memory across the ten grid points: it clears them at the first point, adds
  the point's one-hot products to them at every point, and at the last point divides, multiplies by the weights, adds
  the bias, normalises and stores the result block, which the pipeline writes back only then.  At a parameter V (the
  buffers' contents when the region is entered) this module runs the body in its three cases (first point, middle
  points, last point), names what the accumulators and the output buffer hold after each point by recursion on the
  point, and proves the pipeline's body obligation for an invariant that carries the accumulators' contents from one
  point to the next.  Generic in the float instance.
-/
import proofs.«406625_j53764400611916_2_alg».proof.Proof.Gen.Kernel.Launch
import proofs.«406625_j53764400611916_2_alg».proof.Proof.Gen.Kernel.Skeleton
import proofs.«406625_j53764400611916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions and where the output window is idle -/

/-- The first branch (clear the accumulators) is taken exactly at the first point. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- The second branch (finish and store the result) is taken exactly at the last point. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-! ## The memrefs the body is called with -/

abbrev VO4_4 : View sig .tc .vmem S512x2 .f32 := (Memref.whole cc4_stg4_0 : Memref sig .tc .vmem S512x2 .f32).view
abbrev ms4_0 (t : Fin cfg4.N) : Memref sig .tc .vmem S10000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x16 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S16x2 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x2 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x2 .f32 := win4_4.stage (cfg4.slots t 4)
abbrev hs4_4 (t : Fin cfg4.N) : (ms4_4 t).IsWhole := hstage4_4 ((cfg4.slots t 4).cast nbuf4_4)
/-- The two accumulators: whole scoped buffers of the kernel's own. -/
abbrev scM4_0 : Memref sig .tc .vmem S512x16 .f32 := Memref.whole cc4_scratch0
abbrev scM4_1 : Memref sig .tc .vmem S512x1 .f32 := Memref.whole cc4_scratch1
abbrev VS4_0 : View sig .tc .vmem S512x16 .f32 := scM4_0.view
abbrev VS4_1 : View sig .tc .vmem S512x1 .f32 := scM4_1.view

/-! ## The scoped buffers no window of this region stages -/

/-- The other regions' staging buffers, each whole at some contents, beside a resource X standing where the two
    accumulators stand in the region's class invariant. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ X)

theorem restWith_out (c : Dev nD) (X : sProp 𝕄) : restWith c X ⊢ iprop(restWith (F := F) c iprop(emp) ∗ X) := by
  unfold restWith
  iintro ⟨B0, B1, B2, B3, B4, B5, B6, B7, B8, B9, B10, B11, B12, B13, B14, B15, B16, B17, B18, B19, HX⟩
  isplitr [HX]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    isplitl [B19]; · iexact B19
    iempintro
  iexact HX

theorem restWith_in (c : Dev nD) (X : sProp 𝕄) : iprop(restWith (F := F) c iprop(emp) ∗ X) ⊢ restWith c X := by
  unfold restWith
  iintro ⟨⟨B0, B1, B2, B3, B4, B5, B6, B7, B8, B9, B10, B11, B12, B13, B14, B15, B16, B17, B18, B19, -⟩, HX⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  iexact HX

/-- The region's class invariant with the accumulators as memrefs owned at some contents. -/
theorem PhiA4_eq (c : Dev nD) :
    (Pipeline.ΦA spec4 c : sProp 𝕄)
      = iprop(restWith c iprop((∃ d, owns (c : Thread nD τ) scM4_0 fullShare d) ∗ (∃ d, owns (c : Thread nD τ) scM4_1 fullShare d)) ∗ (∃ r, prngReg c r)) := by
  unfold Pipeline.ΦA restWith; rw [scopedRest4_eq]; simp only [scM4_0, scM4_1, owns_whole]; try rfl

/-! ## The body in its three cases -/

set_option maxHeartbeats 4000000 in
/-- The first point: the accumulators, at anything, are cleared and then added to; the result buffer is not touched.
    The pieces each accumulator ends with are what the run finds. -/
noncomputable def kernelRun4_A (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : cond4_0 i) (hc1 : ¬cond4_1 i)
    (x0 : Vec F S10000x1 .i32) (x1 : Vec F S10000x16 .f32) (x2 : Vec F S16x2 .f32) (x3 : Vec F S1x2 .f32) :
    Σ' (LS0 : List (View.Piece (Elt F) S512x16 .f32)), { LS1 : List (View.Piece (Elt F) S512x1 .f32) //
      ∀ (xi4 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_fc_kernel i arg1 harg1 arg2 harg2 arg3 harg3 arg4 harg4 arg5 harg5 arg6 harg6 arg7 harg7) K } := by
  refine ⟨?_, ?_, fun xi4 E K => ?run⟩
  case run =>
    simp only [cc4__pool_fc_kernel_eq_skeleton]; unfold cc4__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- A middle point: the accumulators, at what the point before left, are added to; the result buffer is not touched. -/
noncomputable def kernelRun4_B (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : ¬cond4_1 i)
    (x0 : Vec F S10000x1 .i32) (x1 : Vec F S10000x16 .f32) (x2 : Vec F S16x2 .f32) (x3 : Vec F S1x2 .f32) (xs0 : Vec F S512x16 .f32) (xs1 : Vec F S512x1 .f32) :
    Σ' (LS0 : List (View.Piece (Elt F) S512x16 .f32)), { LS1 : List (View.Piece (Elt F) S512x1 .f32) //
      ∀ (xi4 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_fc_kernel i arg1 harg1 arg2 harg2 arg3 harg3 arg4 harg4 arg5 harg5 arg6 harg6 arg7 harg7) K } := by
  refine ⟨?_, ?_, fun xi4 E K => ?run⟩
  case run =>
    simp only [cc4__pool_fc_kernel_eq_skeleton]; unfold cc4__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- The last point: the accumulators are added to, then read; the result buffer, at anything, is stored whole. -/
noncomputable def kernelRun4_C (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : cond4_1 i)
    (x0 : Vec F S10000x1 .i32) (x1 : Vec F S10000x16 .f32) (x2 : Vec F S16x2 .f32) (x3 : Vec F S1x2 .f32) (xs0 : Vec F S512x16 .f32) (xs1 : Vec F S512x1 .f32) :
    Σ' (L4 : List (View.Piece (Elt F) S512x2 .f32)) (LS0 : List (View.Piece (Elt F) S512x16 .f32)), { LS1 : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_fc_kernel i arg1 harg1 arg2 harg2 arg3 harg3 arg4 harg4 arg5 harg5 arg6 harg6 arg7 harg7) K } := by
  refine ⟨?_, ?_, ?_, fun E K => ?run⟩
  case run =>
    simp only [cc4__pool_fc_kernel_eq_skeleton]; unfold cc4__pool_fc_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

/-! ## What each case leaves in the accumulators and in the result buffer -/

theorem scover4_A_0 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : cond4_0 i} {hc1 : ¬cond4_1 i} {x0 : Vec F S10000x1 .i32} {x1 : Vec F S10000x16 .f32} {x2 : Vec F S16x2 .f32} {x3 : Vec F S1x2 .f32} (y : S512x16.Idx) :
    ∃ pc ∈ (kernelRun4_A c i arg1 harg1 arg2 harg2 arg3 harg3 arg4 harg4 arg5 harg5 arg6 harg6 arg7 harg7 hc0 hc1 x0 x1 x2 x3).1, y ∈ pc.1.set :=
  View.cover_of_tiledL (kernelRun4_A c i arg1 harg1 arg2 harg2 arg3 harg3 arg4 harg4 arg5 harg5 arg6 harg6 arg7 harg7 hc0 hc1 x0 x1 x2 x3).1 S512x16.size (by sl_kernel_rfl) y
theorem scover4_A_1 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : cond4_0 i} {hc1 : ¬cond4_1 i} {x0 : Vec F S10000x1 .i32} {x1 : Vec F S10000x16 .f32} {x2 : Vec F S16x2 .f32} {x3 : Vec F S1x2 .f32} (y : S512x1.Idx) :
    ∃ pc ∈ (kernelRun4_A c i arg1 harg1 arg2 harg2 arg3 harg3 arg4 harg4 arg5 harg5 arg6 harg6 arg7 harg7 hc0 hc1 x0 x1 x2 x3).2.1, y ∈ pc.1.set :=
  View.cover_of_tiledL (kernelRun4_A c i arg1 harg1 arg2 harg2 arg3 harg3 arg4 harg4 arg5 harg5 arg6 harg6 arg7 harg7 hc0 hc1 x0 x1 x2 x3).2.1 S512x1.size (by sl_kernel_rfl) y
/-- What the first point leaves in the sum accumulator: its pieces read back. -/
def sout4_A_0 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : cond4_0 i) (hc1 : ¬cond4_1 i) (x0 : Vec F S10000x1 .i32) (x1 : Vec F S10000x16 .f32) (x2 : Vec F S16x2 .f32) (x3 : Vec F S1x2 .f32) : Vec F S512x16 .f32 :=
  VS4_0.read (Elt F) (VS4_0.writes (Elt F) VS4_0.junk (kernelRun4_A c i arg1 harg1 arg2 harg2 arg3 harg3 arg4 harg4 arg5 harg5 arg6 harg6 arg7 harg7 hc0 hc1 x0 x1 x2 x3).1)
/-- What the first point leaves in the count accumulator. -/
def sout4_A_1 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : cond4_0 i) (hc1 : ¬cond4_1 i) (x0 : Vec F S10000x1 .i32) (x1 : Vec F S10000x16 .f32) (x2 : Vec F S16x2 .f32) (x3 : Vec F S1x2 .f32) : Vec F S512x1 .f32 :=
  VS4_1.read (Elt F) (VS4_1.writes (Elt F) VS4_1.junk (kernelRun4_A c i arg1 harg1 arg2 harg2 arg3 harg3 arg4 harg4 arg5 harg5 arg6 harg6 arg7 harg7 hc0 hc1 x0 x1 x2 x3).2.1)

theorem scover4_B_0 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : ¬cond4_0 i} {hc1 : ¬cond4_1 i} {x0 : Vec F S10000x1 .i32} {x1 : Vec F S10000x16 .f32} {x2 : Vec F S16x2 .f32} {x3 : Vec F S1x2 .f32} {xs0 : Vec F S512x16 .f32} {xs1 : Vec F S512x1 .f32} (y : S512x16.Idx) :
    ∃ pc ∈ (kernelRun4_B c i arg1 harg1 arg2 harg2 arg3 harg3 arg4 harg4 arg5 harg5 arg6 harg6 arg7 harg7 hc0 hc1 x0 x1 x2 x3 xs0 xs1).1, y ∈ pc.1.set :=
  View.cover_of_tiledL (kernelRun4_B c i arg1 harg1 arg2 harg2 arg3 harg3 arg4 harg4 arg5 harg5 arg6 harg6 arg7 harg7 hc0 hc1 x0 x1 x2 x3 xs0 xs1).1 S512x16.size (by sl_kernel_rfl) y
theorem scover4_B_1 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : ¬cond4_0 i} {hc1 : ¬cond4_1 i} {x0 : Vec F S10000x1 .i32} {x1 : Vec F S10000x16 .f32} {x2 : Vec F S16x2 .f32} {x3 : Vec F S1x2 .f32} {xs0 : Vec F S512x16 .f32} {xs1 : Vec F S512x1 .f32} (y : S512x1.Idx) :
    ∃ pc ∈ (kernelRun4_B c i arg1 harg1 arg2 harg2 arg3 harg3 arg4 harg4 arg5 harg5 arg6 harg6 arg7 harg7 hc0 hc1 x0 x1 x2 x3 xs0 xs1).2.1, y ∈ pc.1.set :=
  View.cover_of_tiledL (kernelRun4_B c i arg1 harg1 arg2 harg2 arg3 harg3 arg4 harg4 arg5 harg5 arg6 harg6 arg7 harg7 hc0 hc1 x0 x1 x2 x3 xs0 xs1).2.1 S512x1.size (by sl_kernel_rfl) y
def sout4_B_0 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : ¬cond4_1 i) (x0 : Vec F S10000x1 .i32) (x1 : Vec F S10000x16 .f32) (x2 : Vec F S16x2 .f32) (x3 : Vec F S1x2 .f32) (xs0 : Vec F S512x16 .f32) (xs1 : Vec F S512x1 .f32) : Vec F S512x16 .f32 :=
  VS4_0.read (Elt F) (VS4_0.writes (Elt F) VS4_0.junk (kernelRun4_B c i arg1 harg1 arg2 harg2 arg3 harg3 arg4 harg4 arg5 harg5 arg6 harg6 arg7 harg7 hc0 hc1 x0 x1 x2 x3 xs0 xs1).1)
def sout4_B_1 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : ¬cond4_1 i) (x0 : Vec F S10000x1 .i32) (x1 : Vec F S10000x16 .f32) (x2 : Vec F S16x2 .f32) (x3 : Vec F S1x2 .f32) (xs0 : Vec F S512x16 .f32) (xs1 : Vec F S512x1 .f32) : Vec F S512x1 .f32 :=
  VS4_1.read (Elt F) (VS4_1.writes (Elt F) VS4_1.junk (kernelRun4_B c i arg1 harg1 arg2 harg2 arg3 harg3 arg4 harg4 arg5 harg5 arg6 harg6 arg7 harg7 hc0 hc1 x0 x1 x2 x3 xs0 xs1).2.1)

theorem cover4_C_4 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : ¬cond4_0 i} {hc1 : cond4_1 i} {x0 : Vec F S10000x1 .i32} {x1 : Vec F S10000x16 .f32} {x2 : Vec F S16x2 .f32} {x3 : Vec F S1x2 .f32} {xs0 : Vec F S512x16 .f32} {xs1 : Vec F S512x1 .f32} (y : S512x2.Idx) :
    ∃ pc ∈ (kernelRun4_C c i arg1 harg1 arg2 harg2 arg3 harg3 arg4 harg4 arg5 harg5 arg6 harg6 arg7 harg7 hc0 hc1 x0 x1 x2 x3 xs0 xs1).1, y ∈ pc.1.set :=
  View.cover_of_tiledL (kernelRun4_C c i arg1 harg1 arg2 harg2 arg3 harg3 arg4 harg4 arg5 harg5 arg6 harg6 arg7 harg7 hc0 hc1 x0 x1 x2 x3 xs0 xs1).1 S512x2.size (by sl_kernel_rfl) y
theorem scover4_C_0 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : ¬cond4_0 i} {hc1 : cond4_1 i} {x0 : Vec F S10000x1 .i32} {x1 : Vec F S10000x16 .f32} {x2 : Vec F S16x2 .f32} {x3 : Vec F S1x2 .f32} {xs0 : Vec F S512x16 .f32} {xs1 : Vec F S512x1 .f32} (y : S512x16.Idx) :
    ∃ pc ∈ (kernelRun4_C c i arg1 harg1 arg2 harg2 arg3 harg3 arg4 harg4 arg5 harg5 arg6 harg6 arg7 harg7 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 hc0 hc1 x0 x1 x2 x3 xs0 xs1).2.1 S512x16.size (by sl_kernel_rfl) y
theorem scover4_C_1 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : ¬cond4_0 i} {hc1 : cond4_1 i} {x0 : Vec F S10000x1 .i32} {x1 : Vec F S10000x16 .f32} {x2 : Vec F S16x2 .f32} {x3 : Vec F S1x2 .f32} {xs0 : Vec F S512x16 .f32} {xs1 : Vec F S512x1 .f32} (y : S512x1.Idx) :
    ∃ pc ∈ (kernelRun4_C c i arg1 harg1 arg2 harg2 arg3 harg3 arg4 harg4 arg5 harg5 arg6 harg6 arg7 harg7 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 hc0 hc1 x0 x1 x2 x3 xs0 xs1).2.2.1 S512x1.size (by sl_kernel_rfl) y
/-- What the last point leaves in the result window's staging buffer. -/
def out4_C_4 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : cond4_1 i) (x0 : Vec F S10000x1 .i32) (x1 : Vec F S10000x16 .f32) (x2 : Vec F S16x2 .f32) (x3 : Vec F S1x2 .f32) (xs0 : Vec F S512x16 .f32) (xs1 : Vec F S512x1 .f32) : Vec F S512x2 .f32 :=
  VO4_4.read (Elt F) (VO4_4.writes (Elt F) VO4_4.junk (kernelRun4_C c i arg1 harg1 arg2 harg2 arg3 harg3 arg4 harg4 arg5 harg5 arg6 harg6 arg7 harg7 hc0 hc1 x0 x1 x2 x3 xs0 xs1).1)
def sout4_C_0 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : cond4_1 i) (x0 : Vec F S10000x1 .i32) (x1 : Vec F S10000x16 .f32) (x2 : Vec F S16x2 .f32) (x3 : Vec F S1x2 .f32) (xs0 : Vec F S512x16 .f32) (xs1 : Vec F S512x1 .f32) : Vec F S512x16 .f32 :=
  VS4_0.read (Elt F) (VS4_0.writes (Elt F) VS4_0.junk (kernelRun4_C c i arg1 harg1 arg2 harg2 arg3 harg3 arg4 harg4 arg5 harg5 arg6 harg6 arg7 harg7 hc0 hc1 x0 x1 x2 x3 xs0 xs1).2.1)
def sout4_C_1 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : cond4_1 i) (x0 : Vec F S10000x1 .i32) (x1 : Vec F S10000x16 .f32) (x2 : Vec F S16x2 .f32) (x3 : Vec F S1x2 .f32) (xs0 : Vec F S512x16 .f32) (xs1 : Vec F S512x1 .f32) : Vec F S512x1 .f32 :=
  VS4_1.read (Elt F) (VS4_1.writes (Elt F) VS4_1.junk (kernelRun4_C c i arg1 harg1 arg2 harg2 arg3 harg3 arg4 harg4 arg5 harg5 arg6 harg6 arg7 harg7 hc0 hc1 x0 x1 x2 x3 xs0 xs1).2.2.1)

/-- A placeholder for the result buffer at the points that store nothing into it (never consulted: the window is
    neither written back nor read there). -/
def outIdle4 : Vec F S512x2 .f32 := VO4_4.read (Elt F) (VO4_4.writes (Elt F) VO4_4.junk [])

/-! ## The windows' blocks and the contents point by point -/

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem not_cond4_0_of (t : Fin cfg4.N) (h : ¬ t.val % 10 = 0) : ¬cond4_0 (grid4.coords t) := fun hc => h ((hcond4_0 t).mp hc)
theorem not_cond4_1_of (t : Fin cfg4.N) (h : ¬ t.val % 10 = 9) : ¬cond4_1 (grid4.coords t) := fun hc => h ((hcond4_1 t).mp hc)
theorem succ_mod_ne_zero (n : ℕ) (hn : n + 1 < cfg4.N) : ¬ (n + 1) % 10 = 0 := by
  have hN : n + 1 < 10 := lt_of_lt_of_eq hn (show cfg4.N = 10 from N_4); omega

/-- THE ACCUMULATION: what the result buffer and the two accumulators hold after the body at position n — the first
    point's run from anything, each later point's run from what the point before left in the accumulators. -/
def outsAt4 (c : Dev nD) : (n : ℕ) → n < cfg4.N → Vec F S512x2 .f32 × Vec F S512x16 .f32 × Vec F S512x1 .f32
  | 0, hn => (outIdle4,
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (not_cond4_1_of ⟨0, hn⟩ (show ¬ (0 : ℕ) % 10 = 9 by decide)) (iblk4 V c 0 ⟨0, hn⟩) (iblk4 V c 1 ⟨0, hn⟩) (iblk4 V c 2 ⟨0, hn⟩) (iblk4 V c 3 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (not_cond4_1_of ⟨0, hn⟩ (show ¬ (0 : ℕ) % 10 = 9 by decide)) (iblk4 V c 0 ⟨0, hn⟩) (iblk4 V c 1 ⟨0, hn⟩) (iblk4 V c 2 ⟨0, hn⟩) (iblk4 V c 3 ⟨0, hn⟩))
  | n + 1, hn =>
    if h1 : (n + 1) % 10 = 9 then
      (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (not_cond4_0_of ⟨n + 1, hn⟩ (succ_mod_ne_zero n hn)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2,
       sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (not_cond4_0_of ⟨n + 1, hn⟩ (succ_mod_ne_zero n hn)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2,
       sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (not_cond4_0_of ⟨n + 1, hn⟩ (succ_mod_ne_zero n hn)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2)
    else
      (outIdle4,
       sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (not_cond4_0_of ⟨n + 1, hn⟩ (succ_mod_ne_zero n hn)) (not_cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2,
       sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (not_cond4_0_of ⟨n + 1, hn⟩ (succ_mod_ne_zero n hn)) (not_cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2)

/-- The contents at the first point. -/
theorem outsAt4_A (c : Dev nD) (t : Fin cfg4.N) (h0 : t.val % 10 = 0) (h1 : ¬ t.val % 10 = 9) :
    outsAt4 V c t.val t.isLt = (outIdle4,
      sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (not_cond4_1_of t h1) (iblk4 V c 0 t) (iblk4 V c 1 t) (iblk4 V c 2 t) (iblk4 V c 3 t),
      sout4_A_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (not_cond4_1_of t h1) (iblk4 V c 0 t) (iblk4 V c 1 t) (iblk4 V c 2 t) (iblk4 V c 3 t)) := by
  obtain ⟨n, hn⟩ := t
  cases n with
  | zero => exact rfl
  | succ n => exact absurd h0 (succ_mod_ne_zero n hn)

/-- The contents at a middle point, over what the point before left. -/
theorem outsAt4_B (c : Dev nD) (t : Fin cfg4.N) (h0 : ¬ t.val % 10 = 0) (h1 : ¬ t.val % 10 = 9) :
    outsAt4 V c t.val t.isLt = (outIdle4,
      sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (not_cond4_0_of t h0) (not_cond4_1_of t h1) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2,
      sout4_B_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (not_cond4_0_of t h0) (not_cond4_1_of t h1) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact absurd (Nat.zero_mod _) h0
  | succ n => exact (dif_neg h1).trans rfl

/-- The contents at the last point, over what the point before left. -/
theorem outsAt4_C (c : Dev nD) (t : Fin cfg4.N) (h0 : ¬ t.val % 10 = 0) (h1 : t.val % 10 = 9) :
    outsAt4 V c t.val t.isLt = (
      out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (not_cond4_0_of t h0) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2,
      sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (not_cond4_0_of t h0) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2,
      sout4_C_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (not_cond4_0_of t h0) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact absurd (Nat.zero_mod _) h0
  | succ n => exact (dif_pos h1).trans rfl

/-! ## The invariant that carries the accumulators -/

/-- Before the first point the class invariant (every scratch at anything); afterwards the other regions' buffers at
    anything, the two accumulators at what the point before left, the generator register at some state. -/
def PhiS (c : Dev nD) : (n : ℕ) → n ≤ cfg4.N → sProp 𝕄
  | 0, _ => Pipeline.ΦA spec4 c
  | n + 1, hn => iprop(restWith c iprop(owns (c : Thread nD τ) scM4_0 fullShare ((outsAt4 V c n hn).2.1) ∗ owns (c : Thread nD τ) scM4_1 fullShare ((outsAt4 V c n hn).2.2)) ∗ (∃ r, prngReg c r))

theorem PhiS_zero (c : Dev nD) (n : ℕ) (h : n ≤ cfg4.N) (hz : n = 0) : PhiS V c n h = Pipeline.ΦA spec4 c := by
  subst hz; rfl
theorem PhiS_succ (c : Dev nD) (n : ℕ) (hn : n < cfg4.N) :
    PhiS V c (n + 1) hn = iprop(restWith c iprop(owns (c : Thread nD τ) scM4_0 fullShare ((outsAt4 V c n hn).2.1) ∗ owns (c : Thread nD τ) scM4_1 fullShare ((outsAt4 V c n hn).2.2)) ∗ (∃ r, prngReg c r)) := rfl
theorem PhiS_pos (c : Dev nD) (n : ℕ) (h : n ≤ cfg4.N) (hz : n ≠ 0) :
    PhiS V c n h = iprop(restWith c iprop(owns (c : Thread nD τ) scM4_0 fullShare ((outsAt4 V c (n - 1) (by omega)).2.1) ∗ owns (c : Thread nD τ) scM4_1 fullShare ((outsAt4 V c (n - 1) (by omega)).2.2)) ∗ (∃ r, prngReg c r)) := by
  cases n with
  | zero => exact absurd rfl hz
  | succ n => rfl

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS_castSucc (c : Dev nD) (t : Fin cfg4.N) :
    (dat4 V c).Φ t.castSucc = PhiS V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point: the inputs' memrefs hold their blocks; the point's position says which case it is in; the
    invariant hands the body the accumulators at what the point before left (at anything at the first point) and takes
    them back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS V c (t.val + 1) t.isLt from rfl, PhiS_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases h1 : t.val % 10 = 9
  · have h0 : ¬ t.val % 10 = 0 := by omega
    have hz : t.val ≠ 0 := by omega
    rw [show (dat4 V c).leavesExact 4 t = owns (c : Thread nD τ) (ms4_4 t) fullShare ((dat4 V c).after 4 t) from by
      unfold Dat.leavesExact; rw [liveAt4_4 t ((hcond4_1 t).mpr h1)], after4_4]
    rw [outsAt4_C V c t h0 h1]
    unfold out4_C_4 sout4_C_0 sout4_C_1; (try dsimp only)
    rw [PhiS_castSucc V c t, PhiS_pos V c _ _ hz]
    iintro ⟨⟨HR, Hg⟩, Ho, ⟨%d0, H0⟩, ⟨%d1, H1⟩, ⟨%d2, H2⟩, ⟨%d3, H3⟩, ⟨%d4, H4⟩⟩
    ihave HR' := (restWith_out c _) $$ HR
    icases HR' with ⟨HR0, HS0, HS1⟩
    iapply ((kernelRun4_C c (grid4.coords t) _ _ _ _ _ _ _ _ _ _ _ _ _ _ (not_cond4_0_of t h0) ((hcond4_1 t).mpr h1) (iblk4 V c 0 t) (iblk4 V c 1 t) (iblk4 V c 2 t) (iblk4 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HR0 HS0 HS1 Hg]
    · isplitl [HR0 HS0 HS1]
      · iapply (restWith_in c _)
        isplitl [HR0]; · iexact HR0
        isplitl [HS0]
        · unfold owns; iexists _; isplitr
          swap; · iexact HS0
          ipureintro; exact View.read_writes_of_cover _ _ _ _ _ (scover4_C_0 c)
        unfold owns; iexists _; isplitr
        swap; · iexact HS1
        ipureintro; exact View.read_writes_of_cover _ _ _ _ _ (scover4_C_1 c)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover4_C_4 c)
  · rw [Dat.leavesExact_idle (dat4 V c) 4 t (idleAt4_4 t (not_cond4_1_of t h1)) (noFlush4_4 t (not_cond4_1_of t h1))]
    by_cases h0 : t.val % 10 = 0
    · have hz : t.val = 0 := by omega
      rw [outsAt4_A V c t h0 h1]
      unfold sout4_A_0 sout4_A_1; (try dsimp only)
      rw [PhiS_castSucc V c t, PhiS_zero V c _ _ hz, PhiA4_eq]
      iintro ⟨⟨HR, Hg⟩, Ho, ⟨%d0, H0⟩, ⟨%d1, H1⟩, ⟨%d2, H2⟩, ⟨%d3, H3⟩, ⟨%d4, H4⟩⟩
      ihave HR' := (restWith_out c _) $$ HR
      icases HR' with ⟨HR0, HS0, HS1⟩
      iapply ((kernelRun4_A c (grid4.coords t) _ _ _ _ _ _ _ _ _ _ _ _ _ _ ((hcond4_0 t).mpr h0) (not_cond4_1_of t h1) (iblk4 V c 0 t) (iblk4 V c 1 t) (iblk4 V c 2 t) (iblk4 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR0 HS0 HS1 Hg]
      · isplitl [HR0 HS0 HS1]
        · iapply (restWith_in c _)
          isplitl [HR0]; · iexact HR0
          isplitl [HS0]
          · unfold owns; iexists _; isplitr
            swap; · iexact HS0
            ipureintro; exact View.read_writes_of_cover _ _ _ _ _ (scover4_A_0 c)
          unfold owns; iexists _; isplitr
          swap; · iexact HS1
          ipureintro; exact View.read_writes_of_cover _ _ _ _ _ (scover4_A_1 c)
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := by omega
      rw [outsAt4_B V c t h0 h1]
      unfold sout4_B_0 sout4_B_1; (try dsimp only)
      rw [PhiS_castSucc V c t, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (restWith_out c _) $$ HR
      icases HR' with ⟨HR0, HS0, HS1⟩
      iapply ((kernelRun4_B c (grid4.coords t) _ _ _ _ _ _ _ _ _ _ _ _ _ _ (not_cond4_0_of t h0) (not_cond4_1_of t h1) (iblk4 V c 0 t) (iblk4 V c 1 t) (iblk4 V c 2 t) (iblk4 V c 3 t) _ _).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR0 HS0 HS1 Hg]
      · isplitl [HR0 HS0 HS1]
        · iapply (restWith_in c _)
          isplitl [HR0]; · iexact HR0
          isplitl [HS0]
          · unfold owns; iexists _; isplitr
            swap; · iexact HS0
            ipureintro; exact View.read_writes_of_cover _ _ _ _ _ (scover4_B_0 c)
          unfold owns; iexists _; isplitr
          swap; · iexact HS1
          ipureintro; exact View.read_writes_of_cover _ _ _ _ _ (scover4_B_1 c)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS V c 0 (Nat.zero_le _) from rfl, PhiS_zero V c 0 _ rfl]
  try exact Idealize.SL.BI.Entails.refl _

/-- After the last point the invariant gives the class invariant back: the accumulators' contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 10 := N_4; omega
  rw [show (dat4 V c).Φ (Fin.last cfg4.N) = PhiS V c (Fin.last cfg4.N).val (Nat.le_of_lt_succ (Fin.last cfg4.N).isLt) from rfl, PhiS_pos V c _ _ ht, PhiA4_eq]
  iintro ⟨HR, Hg⟩
  isplitl [HR]
  · ihave HR' := (restWith_out c _) $$ HR
    icases HR' with ⟨HR0, HS0, HS1⟩
    iapply (restWith_in c _)
    isplitl [HR0]; · iexact HR0
    isplitl [HS0]; · iexists _; iexact HS0
    iexists _; iexact HS1
  iexact Hg

end Cert.Kernel.Hand

end
-- ==== Proof.K.Run.lean ====
/-
  The run of the kernel program as printed: @main as host stretches and five kernel regions.  The buffers' contents at
  each boundary are a fold from the launch memory: a host stretch applies its operations, a region replaces its
  output array by what its pipeline's write-backs leave.  Each region is a segment over the thread state "every
  unscoped buffer at the boundary's contents, the generator register at some state, nothing owed"; the launch theorem
  for programs of several regions then says that every weakly fair execution terminates with every unscoped buffer at the
  last boundary's contents.  The frame (the arguments end as launched) and the result's value are read off that.
  Generic in the float instance.
-/
import proofs.«406625_j53764400611916_2_alg».proof.Proof.K.Reg0
import proofs.«406625_j53764400611916_2_alg».proof.Proof.K.Reg1
import proofs.«406625_j53764400611916_2_alg».proof.Proof.K.Reg2
import proofs.«406625_j53764400611916_2_alg».proof.Proof.K.Reg3
import proofs.«406625_j53764400611916_2_alg».proof.Proof.K.Reg4
import proofs.«406625_j53764400611916_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Region 0's entry contents, read at the TensorCore's references. -/
abbrev WR5 : (c : Dev nD) → (b : Ref sig .tc) → Buf (Elt F) ((c : Thread nD τ).loc b) := fun c b => V5 m c b
/-- What region 0 leaves in its output array. -/
def o35 (c : Dev nD) := (dat0 (WR5 m) c).arrAt 2 cfg0.N
def W6 (c : Dev nD) : Valuation τ sig (Elt F) := Function.update (V5 m c) main_v35 (o35 m c)
abbrev W7 (c : Dev nD) : Valuation τ sig (Elt F) := StableHlo.after hostOps1 (W6 m c)
abbrev WR7 : (c : Dev nD) → (b : Ref sig .tc) → Buf (Elt F) ((c : Thread nD τ).loc b) := fun c b => W7 m c b
def o50 (c : Dev nD) := (dat1 (WR7 m) c).arrAt 2 cfg1.N
def W8 (c : Dev nD) : Valuation τ sig (Elt F) := Function.update (W7 m c) main_v50 (o50 m c)
abbrev WR8 : (c : Dev nD) → (b : Ref sig .tc) → Buf (Elt F) ((c : Thread nD τ).loc b) := fun c b => W8 m c b
def o51 (c : Dev nD) := (dat2 (WR8 m) c).arrAt 2 cfg2.N
def W9 (c : Dev nD) : Valuation τ sig (Elt F) := Function.update (W8 m c) main_v51 (o51 m c)
abbrev W10 (c : Dev nD) : Valuation τ sig (Elt F) := StableHlo.after hostOps3 (W9 m c)
abbrev WR10 : (c : Dev nD) → (b : Ref sig .tc) → Buf (Elt F) ((c : Thread nD τ).loc b) := fun c b => W10 m c b
def o66 (c : Dev nD) := (dat3 (WR10 m) c).arrAt 2 cfg3.N
def W11 (c : Dev nD) : Valuation τ sig (Elt F) := Function.update (W10 m c) main_v66 (o66 m c)
abbrev W12 (c : Dev nD) : Valuation τ sig (Elt F) := StableHlo.after hostOps4 (W11 m c)
abbrev WR12 : (c : Dev nD) → (b : Ref sig .tc) → Buf (Elt F) ((c : Thread nD τ).loc b) := fun c b => W12 m c b
def o69 (c : Dev nD) := (dat4 (WR12 m) c).arrAt 4 cfg4.N
def W13 (c : Dev nD) : Valuation τ sig (Elt F) := Function.update (W12 m c) main_v69 (o69 m c)

/-- What the regions leave, as the unknowns the generated valuations are written over. -/
def outsF : Outs (F := F) := fun j r c =>
  (Function.update (Function.update (Function.update (Function.update (Function.update (V0 m c) main_v35 (o35 m c)) main_v50 (o50 m c)) main_v51 (o51 m c)) main_v66 (o66 m c)) main_v69 (o69 m c)) (Proc.devRef .tc r)

theorem outsF_35 (j : ℕ) (c : Dev nD) : outsF m j main_v35 c = o35 m c := by
  unfold outsF
  rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
theorem outsF_50 (j : ℕ) (c : Dev nD) : outsF m j main_v50 c = o50 m c := by
  unfold outsF
  rw [Function.update_of_ne (StableHlo.devRef_ne_of_ne (by decide)), Function.update_of_ne (StableHlo.devRef_ne_of_ne (by decide)), Function.update_of_ne (StableHlo.devRef_ne_of_ne (by decide)), Function.update_self]
theorem outsF_51 (j : ℕ) (c : Dev nD) : outsF m j main_v51 c = o51 m c := by
  unfold outsF
  rw [Function.update_of_ne (StableHlo.devRef_ne_of_ne (by decide)), Function.update_of_ne (StableHlo.devRef_ne_of_ne (by decide)), Function.update_self]
theorem outsF_66 (j : ℕ) (c : Dev nD) : outsF m j main_v66 c = o66 m c := by
  unfold outsF
  rw [Function.update_of_ne (StableHlo.devRef_ne_of_ne (by decide)), Function.update_self]
theorem outsF_69 (j : ℕ) (c : Dev nD) : outsF m j main_v69 c = o69 m c := by
  unfold outsF
  rw [Function.update_self]

theorem V6_eq (c : Dev nD) : V6 m (outsF m) c = W6 m c := by
  show Function.update (V5 m c) main_v35 (outsF m 6 main_v35 c) = _; rw [outsF_35]; rfl
theorem V7_eq (c : Dev nD) : V7 m (outsF m) c = W7 m c := by
  show StableHlo.after hostOps1 (V6 m (outsF m) c) = _; rw [V6_eq]
theorem V8_eq (c : Dev nD) : V8 m (outsF m) c = W8 m c := by
  show Function.update (V7 m (outsF m) c) main_v50 (outsF m 8 main_v50 c) = _; rw [outsF_50, V7_eq]; rfl
theorem V9_eq (c : Dev nD) : V9 m (outsF m) c = W9 m c := by
  show Function.update (V8 m (outsF m) c) main_v51 (outsF m 9 main_v51 c) = _; rw [outsF_51, V8_eq]; rfl
theorem V10_eq (c : Dev nD) : V10 m (outsF m) c = W10 m c := by
  show StableHlo.after hostOps3 (V9 m (outsF m) c) = _; rw [V9_eq]
theorem V11_eq (c : Dev nD) : V11 m (outsF m) c = W11 m c := by
  show Function.update (V10 m (outsF m) c) main_v66 (outsF m 11 main_v66 c) = _; rw [outsF_66, V10_eq]; rfl
theorem V12_eq (c : Dev nD) : V12 m (outsF m) c = W12 m c := by
  show StableHlo.after hostOps4 (V11 m (outsF m) c) = _; rw [V11_eq]
theorem V13_eq (c : Dev nD) : V13 m (outsF m) c = W13 m c := by
  show Function.update (V12 m (outsF m) c) main_v69 (outsF m 13 main_v69 c) = _; rw [outsF_69, V12_eq]; rfl

/-! ## The proof data family and the thread state -/

/-- Every pipeline's proof data, each at its region's entry contents. -/
def pdats : (p : Fin 5) → (c : Dev nD) → Dat τ (Elt F) Unit ℕ (UR sig nD τ) ℕ (cfgs p) c
  | ⟨0, _⟩ => fun c => dat0 (WR5 m) c
  | ⟨1, _⟩ => fun c => dat1 (WR7 m) c
  | ⟨2, _⟩ => fun c => dat2 (WR8 m) c
  | ⟨3, _⟩ => fun c => dat3 (WR10 m) c
  | ⟨4, _⟩ => fun c => dat4 (WR12 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- At region 0's exit each of its arrays holds what the pipeline leaves: an input its entry contents, the output what
    the write-backs left; every other buffer is as entered. -/
theorem hF0 (c : Dev nD) (w : Fin cfg0.W) : (pdats m 0 c).arrAt w cfg0.N = W6 m c (Pipeline.arrRef spec0 w) := by
  match w with
  | ⟨0, _⟩ => exact (((pdats m 0 c).arrAt_in 0 rfl _).trans (A_eq0 (WR5 m) c 0)).trans (Function.update_of_ne (StableHlo.devRef_ne_of_ne (by decide)) _ _).symm
  | ⟨1, _⟩ => exact (((pdats m 0 c).arrAt_in 1 rfl _).trans (A_eq0 (WR5 m) c 1)).trans (Function.update_of_ne (StableHlo.devRef_ne_of_ne (by decide)) _ _).symm
  | ⟨2, _⟩ => exact (Function.update_self (f := V5 m c) (a := (Proc.devRef .tc main_v35 : DevRef τ sig)) _).symm
theorem hrest0 (c : Dev nD) : ∀ b, b ∉ Finset.univ.image (Pipeline.arrRef spec0) → W6 m c (Proc.devRef .tc b) = V5 m c (Proc.devRef .tc b) :=
  fun b hb => Function.update_of_ne (StableHlo.devRef_ne_of_ne fun e => hb (Finset.mem_image.mpr ⟨2, Finset.mem_univ _, e.symm⟩)) _ _

/-- At region 1's exit each of its arrays holds what the pipeline leaves: an input its entry contents, the output what
    the write-backs left; every other buffer is as entered. -/
theorem hF1 (c : Dev nD) (w : Fin cfg1.W) : (pdats m 1 c).arrAt w cfg1.N = W8 m c (Pipeline.arrRef spec1 w) := by
  match w with
  | ⟨0, _⟩ => exact (((pdats m 1 c).arrAt_in 0 rfl _).trans (A_eq1 (WR7 m) c 0)).trans (Function.update_of_ne (StableHlo.devRef_ne_of_ne (by decide)) _ _).symm
  | ⟨1, _⟩ => exact (((pdats m 1 c).arrAt_in 1 rfl _).trans (A_eq1 (WR7 m) c 1)).trans (Function.update_of_ne (StableHlo.devRef_ne_of_ne (by decide)) _ _).symm
  | ⟨2, _⟩ => exact (Function.update_self (f := W7 m c) (a := (Proc.devRef .tc main_v50 : DevRef τ sig)) _).symm
theorem hrest1 (c : Dev nD) : ∀ b, b ∉ Finset.univ.image (Pipeline.arrRef spec1) → W8 m c (Proc.devRef .tc b) = W7 m c (Proc.devRef .tc b) :=
  fun b hb => Function.update_of_ne (StableHlo.devRef_ne_of_ne fun e => hb (Finset.mem_image.mpr ⟨2, Finset.mem_univ _, e.symm⟩)) _ _

/-- At region 2's exit each of its arrays holds what the pipeline leaves: an input its entry contents, the output what
    the write-backs left; every other buffer is as entered. -/
theorem hF2 (c : Dev nD) (w : Fin cfg2.W) : (pdats m 2 c).arrAt w cfg2.N = W9 m c (Pipeline.arrRef spec2 w) := by
  match w with
  | ⟨0, _⟩ => exact (((pdats m 2 c).arrAt_in 0 rfl _).trans (A_eq2 (WR8 m) c 0)).trans (Function.update_of_ne (StableHlo.devRef_ne_of_ne (by decide)) _ _).symm
  | ⟨1, _⟩ => exact (((pdats m 2 c).arrAt_in 1 rfl _).trans (A_eq2 (WR8 m) c 1)).trans (Function.update_of_ne (StableHlo.devRef_ne_of_ne (by decide)) _ _).symm
  | ⟨2, _⟩ => exact (Function.update_self (f := W8 m c) (a := (Proc.devRef .tc main_v51 : DevRef τ sig)) _).symm
theorem hrest2 (c : Dev nD) : ∀ b, b ∉ Finset.univ.image (Pipeline.arrRef spec2) → W9 m c (Proc.devRef .tc b) = W8 m c (Proc.devRef .tc b) :=
  fun b hb => Function.update_of_ne (StableHlo.devRef_ne_of_ne fun e => hb (Finset.mem_image.mpr ⟨2, Finset.mem_univ _, e.symm⟩)) _ _

/-- At region 3's exit each of its arrays holds what the pipeline leaves: an input its entry contents, the output what
    the write-backs left; every other buffer is as entered. -/
theorem hF3 (c : Dev nD) (w : Fin cfg3.W) : (pdats m 3 c).arrAt w cfg3.N = W11 m c (Pipeline.arrRef spec3 w) := by
  match w with
  | ⟨0, _⟩ => exact (((pdats m 3 c).arrAt_in 0 rfl _).trans (A_eq3 (WR10 m) c 0)).trans (Function.update_of_ne (StableHlo.devRef_ne_of_ne (by decide)) _ _).symm
  | ⟨1, _⟩ => exact (((pdats m 3 c).arrAt_in 1 rfl _).trans (A_eq3 (WR10 m) c 1)).trans (Function.update_of_ne (StableHlo.devRef_ne_of_ne (by decide)) _ _).symm
  | ⟨2, _⟩ => exact (Function.update_self (f := W10 m c) (a := (Proc.devRef .tc main_v66 : DevRef τ sig)) _).symm
theorem hrest3 (c : Dev nD) : ∀ b, b ∉ Finset.univ.image (Pipeline.arrRef spec3) → W11 m c (Proc.devRef .tc b) = W10 m c (Proc.devRef .tc b) :=
  fun b hb => Function.update_of_ne (StableHlo.devRef_ne_of_ne fun e => hb (Finset.mem_image.mpr ⟨2, Finset.mem_univ _, e.symm⟩)) _ _

set_option maxHeartbeats 4000000 in
/-- At region 4's exit each of its arrays holds what the pipeline leaves: an input its entry contents, the output what
    the write-backs left; every other buffer is as entered. -/
theorem hF4 (c : Dev nD) (w : Fin cfg4.W) : (pdats m 4 c).arrAt w cfg4.N = W13 m c (Pipeline.arrRef spec4 w) := by
  match w with
  | ⟨0, _⟩ => exact (((pdats m 4 c).arrAt_in 0 rfl _).trans (A_eq4 (WR12 m) c 0)).trans (Function.update_of_ne (StableHlo.devRef_ne_of_ne (by decide)) _ _).symm
  | ⟨1, _⟩ => exact (((pdats m 4 c).arrAt_in 1 rfl _).trans (A_eq4 (WR12 m) c 1)).trans (Function.update_of_ne (StableHlo.devRef_ne_of_ne (by decide)) _ _).symm
  | ⟨2, _⟩ => exact (((pdats m 4 c).arrAt_in 2 rfl _).trans (A_eq4 (WR12 m) c 2)).trans (Function.update_of_ne (StableHlo.devRef_ne_of_ne (by decide)) _ _).symm
  | ⟨3, _⟩ => exact (((pdats m 4 c).arrAt_in 3 rfl _).trans (A_eq4 (WR12 m) c 3)).trans (Function.update_of_ne (StableHlo.devRef_ne_of_ne (by decide)) _ _).symm
  | ⟨4, _⟩ => exact (Function.update_self (f := W12 m c) (a := (Proc.devRef .tc main_v69 : DevRef τ sig)) _).symm
theorem hrest4 (c : Dev nD) : ∀ b, b ∉ Finset.univ.image (Pipeline.arrRef spec4) → W13 m c (Proc.devRef .tc b) = W12 m c (Proc.devRef .tc b) :=
  fun b hb => Function.update_of_ne (StableHlo.devRef_ne_of_ne fun e => hb (Finset.mem_image.mpr ⟨4, Finset.mem_univ _, e.symm⟩)) _ _

/-! ## The regions as segments -/

set_option backward.isDefEq.respectTransparency.types false in
/-- Region 0 over the thread state: entered from every unscoped buffer at the contents before it, left at the contents
    after it; its arrays split out of the unscoped buffers and put back at what the pipeline leaves; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (WR5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (WR5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (WR5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (WR5 m c) (fun b => W6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at what the pipeline leaves; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (WR7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (WR7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (WR7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (WR7 m c) (fun b => W8 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back at what the pipeline leaves; the generator
    register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (WR8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (WR8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (WR8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (WR8 m c) (fun b => W9 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it; its arrays split out of the unscoped buffers and put back at what the pipeline leaves; the generator
    register into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (WR10 m) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (WR10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (WR10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (WR10 m c) (fun b => W11 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at the contents
    after it; its arrays split out of the unscoped buffers and put back at what the pipeline leaves; the generator
    register into the invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (WR12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec4 c (WR12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (WR12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = (dat4 (WR12 m) c).Φ (Fin.last cfg4.N) from rfl]
    have hgive := hout4 (WR12 m) c
    unfold Pipeline.ΦA at hgive
    iintro H
    ihave H' := hgive $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (WR12 m c) (fun b => W13 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- The run, given the regions' records: every weakly fair execution of @main from memory m with zero counters
    terminates, and in every final state each unscoped buffer holds the last boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V10 m outs c) ∗ E 3 c) ⊢ R3.pre c)
    (hpost3 : ∀ c : Dev nD, R3.post c ⊢ iprop(StableHlo.held (c : Thread nD τ) (Pipeline.ucRefs τ sig) (V11 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V12 m outs c) ∗ E 4 c) ⊢ R4.pre c)
    (hpost4 : ∀ c : Dev nD, R4.post c ⊢ iprop(StableHlo.held (c : Thread nD τ) (Pipeline.ucRefs τ sig) (V13 m outs c) ∗ E 5 c)) :
    θ_run defs (onTc (τ := τ) (main (F := F))) ⟨m, fun _ => 0, ρ⟩ (fun r => ∀ c : Dev nD,
      ∀ b ∈ Pipeline.ucRefs τ sig, r.2.mem (((c : Thread nD τ)).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, .rfl, .rfl, hpre0 c, hpost0 c, hpre1 c, (hpost1 c).trans (hpre2 c), hpost2 c, hpre3 c, hpost3 c, hpre4 c, (hpost4 c).trans (sep_mono .rfl (hE5 c))⟩)
    (hinit := ?_) (QY := fun c s => ∀ b ∈ Pipeline.ucRefs τ sig, s.mem (((c : Thread nD τ)).1, b) = V13 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

/-- THE RUN of the kernel program as printed: every unscoped buffer ends at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V13 m (outsF m) c b) :=
  run_cond m (emb₁ : Emb (URounds (GSem nD τ sig) Unit) 𝕄) () 𝒱₀ L lv (fun _ _ => rfl) ρ (outsF m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE5 := fun c => by iintro ⟨-, HO⟩; iexact HO)
    (reg0 m) (fun c => .rfl) (fun c => by rw [V6_eq]; exact .rfl)
    (reg1 m) (fun c => by rw [V7_eq]; exact .rfl) (fun c => by rw [V8_eq]; exact .rfl)
    (reg2 m) (fun c => by rw [V8_eq]; exact .rfl) (fun c => by rw [V9_eq]; exact .rfl)
    (reg3 m) (fun c => by rw [V10_eq]; exact .rfl) (fun c => by rw [V11_eq]; exact .rfl)
    (reg4 m) (fun c => by rw [V12_eq]; exact .rfl) (fun c => by rw [V13_eq]; exact .rfl)

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME at any float instance: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V13_main_arg0 m (outsF m) c),
     (h c _ (mem_uc main_arg1 (by decide))).trans (V13_main_arg1 m (outsF m) c),
     (h c _ (mem_uc main_arg2 (by decide))).trans (V13_main_arg2 m (outsF m) c),
     (h c _ (mem_uc main_arg3 (by decide))).trans (V13_main_arg3 m (outsF m) c),
     (h c _ (mem_uc main_arg4 (by decide))).trans (V13_main_arg4 m (outsF m) c),
     (h c _ (mem_uc main_arg5 (by decide))).trans (V13_main_arg5 m (outsF m) c),
     (h c _ (mem_uc main_arg6 (by decide))).trans (V13_main_arg6 m (outsF m) c),
     (h c _ (mem_uc main_arg7 (by decide))).trans (V13_main_arg7 m (outsF m) c),
     (h c _ (mem_uc main_arg8 (by decide))).trans (V13_main_arg8 m (outsF m) c),
     (h c _ (mem_uc main_arg9 (by decide))).trans (V13_main_arg9 m (outsF m) c)⟩) (run_all m ρ)

end Cert.Kernel.Hand

end
-- ==== Proof.KI.Reg0.lean ====
/-
  Region 0 of the idealized kernel program: the row-block matrix product.  At a parameter V (the buffers' contents
  when the region is entered) this module says what each window's block is at a grid point, what the body leaves in
  the output window's staging buffer (the product of the point's row block with the whole weight matrix), and proves
  the body's triple and the pipeline's body obligation for these data.  Generic in the float instance.
-/
import proofs.«406625_j53764400611916_2_alg».proof.Proof.Gen.KernelIdeal.Launch
import proofs.«406625_j53764400611916_2_alg».proof.Proof.Gen.KernelIdeal.Skeleton
import proofs.«406625_j53764400611916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point (its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S10000x64 := Rect.unit (s := S10000x64) ![0, 0] S10000x64.size inb_S10000x64_S10000x64_0_0
abbrev r0_w : Rect S64x16 := Rect.unit (s := S64x16) ![0, 0] S64x16.size inb_S64x16_S64x16_0_0
abbrev r0_o : Rect S10000x16 := Rect.unit (s := S10000x16) ![0, 0] S10000x16.size inb_S10000x16_S10000x16_0_0

/-- What the body leaves in the output window's staging buffer: one whole-buffer store of the product. -/
def out0_2 (x0 : Vec F S10000x64 .f32) (x1 : Vec F S64x16 .f32) : Vec F S10000x16 .f32 :=
  View.canon [⟨r0_o, k0_pay1 (View.ld x0 r0_x) (View.ld x1 r0_w)⟩]

theorem cover0_2 (p0 : Vec F S10000x16 .f32) (y : S10000x16.Idx) :
    ∃ pc ∈ ([⟨r0_o, p0⟩] : List (View.Piece (Elt F) S10000x16 .f32)), y ∈ pc.1.set :=
  View.cover_of_tiled [⟨r0_o, p0⟩] S10000x16.size (by rfl) y

set_option maxHeartbeats 1000000 in
/-- The body on whole staging memrefs: the inputs are read and kept, the output ends at the product. -/
theorem sound_kernel0 (c : Dev nD) (E : Set ℕ) (i : grid0.Coords) (arg1 : Memref sig .tc .vmem S10000x64 .f32) (harg1 : arg1.IsWhole)
    (arg2 : Memref sig .tc .vmem S64x16 .f32) (harg2 : arg2.IsWhole) (arg3 : Memref sig .tc .vmem S10000x16 .f32) (harg3 : arg3.IsWhole)
    (x0 : Vec F S10000x64 .f32) (x1 : Vec F S64x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c at the entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the idealized kernel program: the bias and the rectifier over a row block.  At a parameter V (the buffers' contents
  when the region is entered) this module says what each window's block is at a grid point, what the body leaves in
  the output window's staging buffer (the maximum of zero and the point's row block plus the bias row), and proves
  the body's triple and the pipeline's body obligation for these data.  Generic in the float instance.
-/
import proofs.«406625_j53764400611916_2_alg».proof.Proof.Gen.KernelIdeal.Launch
import proofs.«406625_j53764400611916_2_alg».proof.Proof.Gen.KernelIdeal.Skeleton
import proofs.«406625_j53764400611916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's staging buffer holds the whole matrix at every point (its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S10000x16 := Rect.unit (s := S10000x16) ![0, 0] S10000x16.size inb_S10000x16_S10000x16_0_0
abbrev r1_w : Rect S1x16 := Rect.unit (s := S1x16) ![0, 0] S1x16.size inb_S1x16_S1x16_0_0
abbrev r1_o : Rect S10000x16 := Rect.unit (s := S10000x16) ![0, 0] S10000x16.size inb_S10000x16_S10000x16_0_0

/-- What the body leaves in the output window's staging buffer: one whole-buffer store of the product. -/
def out1_2 (x0 : Vec F S10000x16 .f32) (x1 : Vec F S1x16 .f32) : Vec F S10000x16 .f32 :=
  View.canon [⟨r1_o, k1_pay1 (View.ld x0 r1_x) (View.ld x1 r1_w)⟩]

theorem cover1_2 (p0 : Vec F S10000x16 .f32) (y : S10000x16.Idx) :
    ∃ pc ∈ ([⟨r1_o, p0⟩] : List (View.Piece (Elt F) S10000x16 .f32)), y ∈ pc.1.set :=
  View.cover_of_tiled [⟨r1_o, p0⟩] S10000x16.size (by rfl) y

set_option maxHeartbeats 1000000 in
/-- The body on whole staging memrefs: the inputs are read and kept, the output ends at the product. -/
theorem sound_kernel1 (c : Dev nD) (E : Set ℕ) (i : grid1.Coords) (arg1 : Memref sig .tc .vmem S10000x16 .f32) (harg1 : arg1.IsWhole)
    (arg2 : Memref sig .tc .vmem S1x16 .f32) (harg2 : arg2.IsWhole) (arg3 : Memref sig .tc .vmem S10000x16 .f32) (harg3 : arg3.IsWhole)
    (x0 : Vec F S10000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core c at the entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the idealized kernel program: the second row-block matrix product.  At a parameter V (the buffers' contents
  when the region is entered) this module says what each window's block is at a grid point, what the body leaves in
  the output window's staging buffer (the product of the point's row block with the whole weight matrix), and proves
  the body's triple and the pipeline's body obligation for these data.  Generic in the float instance.
-/
import proofs.«406625_j53764400611916_2_alg».proof.Proof.Gen.KernelIdeal.Launch
import proofs.«406625_j53764400611916_2_alg».proof.Proof.Gen.KernelIdeal.Skeleton
import proofs.«406625_j53764400611916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds the block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the whole matrix at every point (its block index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S10000x16 := Rect.unit (s := S10000x16) ![0, 0] S10000x16.size inb_S10000x16_S10000x16_0_0
abbrev r2_w : Rect S16x16 := Rect.unit (s := S16x16) ![0, 0] S16x16.size inb_S16x16_S16x16_0_0
abbrev r2_o : Rect S10000x16 := Rect.unit (s := S10000x16) ![0, 0] S10000x16.size inb_S10000x16_S10000x16_0_0

/-- What the body leaves in the output window's staging buffer: one whole-buffer store of the product. -/
def out2_2 (x0 : Vec F S10000x16 .f32) (x1 : Vec F S16x16 .f32) : Vec F S10000x16 .f32 :=
  View.canon [⟨r2_o, k2_pay1 (View.ld x0 r2_x) (View.ld x1 r2_w)⟩]

theorem cover2_2 (p0 : Vec F S10000x16 .f32) (y : S10000x16.Idx) :
    ∃ pc ∈ ([⟨r2_o, p0⟩] : List (View.Piece (Elt F) S10000x16 .f32)), y ∈ pc.1.set :=
  View.cover_of_tiled [⟨r2_o, p0⟩] S10000x16.size (by rfl) y

set_option maxHeartbeats 1000000 in
/-- The body on whole staging memrefs: the inputs are read and kept, the output ends at the product. -/
theorem sound_kernel2 (c : Dev nD) (E : Set ℕ) (i : grid2.Coords) (arg1 : Memref sig .tc .vmem S10000x16 .f32) (harg1 : arg1.IsWhole)
    (arg2 : Memref sig .tc .vmem S16x16 .f32) (harg2 : arg2.IsWhole) (arg3 : Memref sig .tc .vmem S10000x16 .f32) (harg3 : arg3.IsWhole)
    (x0 : Vec F S10000x16 .f32) (x1 : Vec F S16x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core c at the entry contents V. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of the idealized kernel program: the second bias and rectifier over a row block.  At a parameter V (the buffers' contents
  when the region is entered) this module says what each window's block is at a grid point, what the body leaves in
  the output window's staging buffer (the maximum of zero and the point's row block plus the bias row), and proves
  the body's triple and the pipeline's body obligation for these data.  Generic in the float instance.
-/
import proofs.«406625_j53764400611916_2_alg».proof.Proof.Gen.KernelIdeal.Launch
import proofs.«406625_j53764400611916_2_alg».proof.Proof.Gen.KernelIdeal.Skeleton
import proofs.«406625_j53764400611916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds the block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix's staging buffer holds the whole matrix at every point (its block index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S10000x16 := Rect.unit (s := S10000x16) ![0, 0] S10000x16.size inb_S10000x16_S10000x16_0_0
abbrev r3_w : Rect S1x16 := Rect.unit (s := S1x16) ![0, 0] S1x16.size inb_S1x16_S1x16_0_0
abbrev r3_o : Rect S10000x16 := Rect.unit (s := S10000x16) ![0, 0] S10000x16.size inb_S10000x16_S10000x16_0_0

/-- What the body leaves in the output window's staging buffer: one whole-buffer store of the product. -/
def out3_2 (x0 : Vec F S10000x16 .f32) (x1 : Vec F S1x16 .f32) : Vec F S10000x16 .f32 :=
  View.canon [⟨r3_o, k3_pay1 (View.ld x0 r3_x) (View.ld x1 r3_w)⟩]

theorem cover3_2 (p0 : Vec F S10000x16 .f32) (y : S10000x16.Idx) :
    ∃ pc ∈ ([⟨r3_o, p0⟩] : List (View.Piece (Elt F) S10000x16 .f32)), y ∈ pc.1.set :=
  View.cover_of_tiled [⟨r3_o, p0⟩] S10000x16.size (by rfl) y

set_option maxHeartbeats 1000000 in
/-- The body on whole staging memrefs: the inputs are read and kept, the output ends at the product. -/
theorem sound_kernel3 (c : Dev nD) (E : Set ℕ) (i : grid3.Coords) (arg1 : Memref sig .tc .vmem S10000x16 .f32) (harg1 : arg1.IsWhole)
    (arg2 : Memref sig .tc .vmem S1x16 .f32) (harg2 : arg2.IsWhole) (arg3 : Memref sig .tc .vmem S10000x16 .f32) (harg3 : arg3.IsWhole)
    (x0 : Vec F S10000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core c at the entry contents V. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of the idealized kernel program: pooling per graph, then the final linear layer and the log-softmax.
  The body keeps two accumulators in scratch memory across the ten grid points: it clears them at the first point, adds
  the point's one-hot products to them at every point, and at the last point divides, multiplies by the weights, adds
  the bias, normalises and stores the result block, which the pipeline writes back only then.  At a parameter V (the
  buffers' contents when the region is entered) this module runs the body in its three cases (first point, middle
  points, last point), names what the accumulators and the output buffer hold after each point by recursion on the
  point, and proves the pipeline's body obligation for an invariant that carries the accumulators' contents from one
  point to the next.  Generic in the float instance.
-/
import proofs.«406625_j53764400611916_2_alg».proof.Proof.Gen.KernelIdeal.Launch
import proofs.«406625_j53764400611916_2_alg».proof.Proof.Gen.KernelIdeal.Skeleton
import proofs.«406625_j53764400611916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions and where the output window is idle -/

/-- The first branch (clear the accumulators) is taken exactly at the first point. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- The second branch (finish and store the result) is taken exactly at the last point. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-! ## The memrefs the body is called with -/

abbrev VO4_4 : View sig .tc .vmem S512x2 .f32 := (Memref.whole cc4_stg4_0 : Memref sig .tc .vmem S512x2 .f32).view
abbrev ms4_0 (t : Fin cfg4.N) : Memref sig .tc .vmem S10000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x16 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S16x2 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x2 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x2 .f32 := win4_4.stage (cfg4.slots t 4)
abbrev hs4_4 (t : Fin cfg4.N) : (ms4_4 t).IsWhole := hstage4_4 ((cfg4.slots t 4).cast nbuf4_4)
/-- The two accumulators: whole scoped buffers of the kernel's own. -/
abbrev scM4_0 : Memref sig .tc .vmem S512x16 .f32 := Memref.whole cc4_scratch0
abbrev scM4_1 : Memref sig .tc .vmem S512x1 .f32 := Memref.whole cc4_scratch1
abbrev VS4_0 : View sig .tc .vmem S512x16 .f32 := scM4_0.view
abbrev VS4_1 : View sig .tc .vmem S512x1 .f32 := scM4_1.view

/-! ## The scoped buffers no window of this region stages -/

/-- The other regions' staging buffers, each whole at some contents, beside a resource X standing where the two
    accumulators stand in the region's class invariant. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ X)

theorem restWith_out (c : Dev nD) (X : sProp 𝕄) : restWith c X ⊢ iprop(restWith (F := F) c iprop(emp) ∗ X) := by
  unfold restWith
  iintro ⟨B0, B1, B2, B3, B4, B5, B6, B7, B8, B9, B10, B11, B12, B13, B14, B15, B16, B17, B18, B19, HX⟩
  isplitr [HX]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    isplitl [B19]; · iexact B19
    iempintro
  iexact HX

theorem restWith_in (c : Dev nD) (X : sProp 𝕄) : iprop(restWith (F := F) c iprop(emp) ∗ X) ⊢ restWith c X := by
  unfold restWith
  iintro ⟨⟨B0, B1, B2, B3, B4, B5, B6, B7, B8, B9, B10, B11, B12, B13, B14, B15, B16, B17, B18, B19, -⟩, HX⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  iexact HX

/-- The region's class invariant with the accumulators as memrefs owned at some contents. -/
theorem PhiA4_eq (c : Dev nD) :
    (Pipeline.ΦA spec4 c : sProp 𝕄)
      = iprop(restWith c iprop((∃ d, owns (c : Thread nD τ) scM4_0 fullShare d) ∗ (∃ d, owns (c : Thread nD τ) scM4_1 fullShare d)) ∗ (∃ r, prngReg c r)) := by
  unfold Pipeline.ΦA restWith; rw [scopedRest4_eq]; simp only [scM4_0, scM4_1, owns_whole]; try rfl

/-! ## The body in its three cases -/

set_option maxHeartbeats 4000000 in
/-- The first point: the accumulators, at anything, are cleared and then added to; the result buffer is not touched.
    The pieces each accumulator ends with are what the run finds. -/
noncomputable def kernelRun4_A (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : cond4_0 i) (hc1 : ¬cond4_1 i)
    (x0 : Vec F S10000x1 .i32) (x1 : Vec F S10000x16 .f32) (x2 : Vec F S16x2 .f32) (x3 : Vec F S1x2 .f32) :
    Σ' (LS0 : List (View.Piece (Elt F) S512x16 .f32)), { LS1 : List (View.Piece (Elt F) S512x1 .f32) //
      ∀ (xi4 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_fc_kernel i arg1 harg1 arg2 harg2 arg3 harg3 arg4 harg4 arg5 harg5 arg6 harg6 arg7 harg7) K } := by
  refine ⟨?_, ?_, fun xi4 E K => ?run⟩
  case run =>
    simp only [cc4__pool_fc_kernel_eq_skeleton]; unfold cc4__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- A middle point: the accumulators, at what the point before left, are added to; the result buffer is not touched. -/
noncomputable def kernelRun4_B (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : ¬cond4_1 i)
    (x0 : Vec F S10000x1 .i32) (x1 : Vec F S10000x16 .f32) (x2 : Vec F S16x2 .f32) (x3 : Vec F S1x2 .f32) (xs0 : Vec F S512x16 .f32) (xs1 : Vec F S512x1 .f32) :
    Σ' (LS0 : List (View.Piece (Elt F) S512x16 .f32)), { LS1 : List (View.Piece (Elt F) S512x1 .f32) //
      ∀ (xi4 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_fc_kernel i arg1 harg1 arg2 harg2 arg3 harg3 arg4 harg4 arg5 harg5 arg6 harg6 arg7 harg7) K } := by
  refine ⟨?_, ?_, fun xi4 E K => ?run⟩
  case run =>
    simp only [cc4__pool_fc_kernel_eq_skeleton]; unfold cc4__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- The last point: the accumulators are added to, then read; the result buffer, at anything, is stored whole. -/
noncomputable def kernelRun4_C (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : cond4_1 i)
    (x0 : Vec F S10000x1 .i32) (x1 : Vec F S10000x16 .f32) (x2 : Vec F S16x2 .f32) (x3 : Vec F S1x2 .f32) (xs0 : Vec F S512x16 .f32) (xs1 : Vec F S512x1 .f32) :
    Σ' (L4 : List (View.Piece (Elt F) S512x2 .f32)) (LS0 : List (View.Piece (Elt F) S512x16 .f32)), { LS1 : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__pool_fc_kernel i arg1 harg1 arg2 harg2 arg3 harg3 arg4 harg4 arg5 harg5 arg6 harg6 arg7 harg7) K } := by
  refine ⟨?_, ?_, ?_, fun E K => ?run⟩
  case run =>
    simp only [cc4__pool_fc_kernel_eq_skeleton]; unfold cc4__pool_fc_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

/-! ## What each case leaves in the accumulators and in the result buffer -/

theorem scover4_A_0 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : cond4_0 i} {hc1 : ¬cond4_1 i} {x0 : Vec F S10000x1 .i32} {x1 : Vec F S10000x16 .f32} {x2 : Vec F S16x2 .f32} {x3 : Vec F S1x2 .f32} (y : S512x16.Idx) :
    ∃ pc ∈ (kernelRun4_A c i arg1 harg1 arg2 harg2 arg3 harg3 arg4 harg4 arg5 harg5 arg6 harg6 arg7 harg7 hc0 hc1 x0 x1 x2 x3).1, y ∈ pc.1.set :=
  View.cover_of_tiledL (kernelRun4_A c i arg1 harg1 arg2 harg2 arg3 harg3 arg4 harg4 arg5 harg5 arg6 harg6 arg7 harg7 hc0 hc1 x0 x1 x2 x3).1 S512x16.size (by sl_kernel_rfl) y
theorem scover4_A_1 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : cond4_0 i} {hc1 : ¬cond4_1 i} {x0 : Vec F S10000x1 .i32} {x1 : Vec F S10000x16 .f32} {x2 : Vec F S16x2 .f32} {x3 : Vec F S1x2 .f32} (y : S512x1.Idx) :
    ∃ pc ∈ (kernelRun4_A c i arg1 harg1 arg2 harg2 arg3 harg3 arg4 harg4 arg5 harg5 arg6 harg6 arg7 harg7 hc0 hc1 x0 x1 x2 x3).2.1, y ∈ pc.1.set :=
  View.cover_of_tiledL (kernelRun4_A c i arg1 harg1 arg2 harg2 arg3 harg3 arg4 harg4 arg5 harg5 arg6 harg6 arg7 harg7 hc0 hc1 x0 x1 x2 x3).2.1 S512x1.size (by sl_kernel_rfl) y
/-- What the first point leaves in the sum accumulator: its pieces read back. -/
def sout4_A_0 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : cond4_0 i) (hc1 : ¬cond4_1 i) (x0 : Vec F S10000x1 .i32) (x1 : Vec F S10000x16 .f32) (x2 : Vec F S16x2 .f32) (x3 : Vec F S1x2 .f32) : Vec F S512x16 .f32 :=
  VS4_0.read (Elt F) (VS4_0.writes (Elt F) VS4_0.junk (kernelRun4_A c i arg1 harg1 arg2 harg2 arg3 harg3 arg4 harg4 arg5 harg5 arg6 harg6 arg7 harg7 hc0 hc1 x0 x1 x2 x3).1)
/-- What the first point leaves in the count accumulator. -/
def sout4_A_1 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : cond4_0 i) (hc1 : ¬cond4_1 i) (x0 : Vec F S10000x1 .i32) (x1 : Vec F S10000x16 .f32) (x2 : Vec F S16x2 .f32) (x3 : Vec F S1x2 .f32) : Vec F S512x1 .f32 :=
  VS4_1.read (Elt F) (VS4_1.writes (Elt F) VS4_1.junk (kernelRun4_A c i arg1 harg1 arg2 harg2 arg3 harg3 arg4 harg4 arg5 harg5 arg6 harg6 arg7 harg7 hc0 hc1 x0 x1 x2 x3).2.1)

theorem scover4_B_0 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : ¬cond4_0 i} {hc1 : ¬cond4_1 i} {x0 : Vec F S10000x1 .i32} {x1 : Vec F S10000x16 .f32} {x2 : Vec F S16x2 .f32} {x3 : Vec F S1x2 .f32} {xs0 : Vec F S512x16 .f32} {xs1 : Vec F S512x1 .f32} (y : S512x16.Idx) :
    ∃ pc ∈ (kernelRun4_B c i arg1 harg1 arg2 harg2 arg3 harg3 arg4 harg4 arg5 harg5 arg6 harg6 arg7 harg7 hc0 hc1 x0 x1 x2 x3 xs0 xs1).1, y ∈ pc.1.set :=
  View.cover_of_tiledL (kernelRun4_B c i arg1 harg1 arg2 harg2 arg3 harg3 arg4 harg4 arg5 harg5 arg6 harg6 arg7 harg7 hc0 hc1 x0 x1 x2 x3 xs0 xs1).1 S512x16.size (by sl_kernel_rfl) y
theorem scover4_B_1 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : ¬cond4_0 i} {hc1 : ¬cond4_1 i} {x0 : Vec F S10000x1 .i32} {x1 : Vec F S10000x16 .f32} {x2 : Vec F S16x2 .f32} {x3 : Vec F S1x2 .f32} {xs0 : Vec F S512x16 .f32} {xs1 : Vec F S512x1 .f32} (y : S512x1.Idx) :
    ∃ pc ∈ (kernelRun4_B c i arg1 harg1 arg2 harg2 arg3 harg3 arg4 harg4 arg5 harg5 arg6 harg6 arg7 harg7 hc0 hc1 x0 x1 x2 x3 xs0 xs1).2.1, y ∈ pc.1.set :=
  View.cover_of_tiledL (kernelRun4_B c i arg1 harg1 arg2 harg2 arg3 harg3 arg4 harg4 arg5 harg5 arg6 harg6 arg7 harg7 hc0 hc1 x0 x1 x2 x3 xs0 xs1).2.1 S512x1.size (by sl_kernel_rfl) y
def sout4_B_0 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : ¬cond4_1 i) (x0 : Vec F S10000x1 .i32) (x1 : Vec F S10000x16 .f32) (x2 : Vec F S16x2 .f32) (x3 : Vec F S1x2 .f32) (xs0 : Vec F S512x16 .f32) (xs1 : Vec F S512x1 .f32) : Vec F S512x16 .f32 :=
  VS4_0.read (Elt F) (VS4_0.writes (Elt F) VS4_0.junk (kernelRun4_B c i arg1 harg1 arg2 harg2 arg3 harg3 arg4 harg4 arg5 harg5 arg6 harg6 arg7 harg7 hc0 hc1 x0 x1 x2 x3 xs0 xs1).1)
def sout4_B_1 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : ¬cond4_1 i) (x0 : Vec F S10000x1 .i32) (x1 : Vec F S10000x16 .f32) (x2 : Vec F S16x2 .f32) (x3 : Vec F S1x2 .f32) (xs0 : Vec F S512x16 .f32) (xs1 : Vec F S512x1 .f32) : Vec F S512x1 .f32 :=
  VS4_1.read (Elt F) (VS4_1.writes (Elt F) VS4_1.junk (kernelRun4_B c i arg1 harg1 arg2 harg2 arg3 harg3 arg4 harg4 arg5 harg5 arg6 harg6 arg7 harg7 hc0 hc1 x0 x1 x2 x3 xs0 xs1).2.1)

theorem cover4_C_4 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : ¬cond4_0 i} {hc1 : cond4_1 i} {x0 : Vec F S10000x1 .i32} {x1 : Vec F S10000x16 .f32} {x2 : Vec F S16x2 .f32} {x3 : Vec F S1x2 .f32} {xs0 : Vec F S512x16 .f32} {xs1 : Vec F S512x1 .f32} (y : S512x2.Idx) :
    ∃ pc ∈ (kernelRun4_C c i arg1 harg1 arg2 harg2 arg3 harg3 arg4 harg4 arg5 harg5 arg6 harg6 arg7 harg7 hc0 hc1 x0 x1 x2 x3 xs0 xs1).1, y ∈ pc.1.set :=
  View.cover_of_tiledL (kernelRun4_C c i arg1 harg1 arg2 harg2 arg3 harg3 arg4 harg4 arg5 harg5 arg6 harg6 arg7 harg7 hc0 hc1 x0 x1 x2 x3 xs0 xs1).1 S512x2.size (by sl_kernel_rfl) y
theorem scover4_C_0 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : ¬cond4_0 i} {hc1 : cond4_1 i} {x0 : Vec F S10000x1 .i32} {x1 : Vec F S10000x16 .f32} {x2 : Vec F S16x2 .f32} {x3 : Vec F S1x2 .f32} {xs0 : Vec F S512x16 .f32} {xs1 : Vec F S512x1 .f32} (y : S512x16.Idx) :
    ∃ pc ∈ (kernelRun4_C c i arg1 harg1 arg2 harg2 arg3 harg3 arg4 harg4 arg5 harg5 arg6 harg6 arg7 harg7 hc0 hc1 x0 x1 x2 x3 xs0 xs1).2.1, y ∈ pc.1.set :=
  View.cover_of_tiledL (kernelRun4_C c i arg1 harg1 arg2 harg2 arg3 harg3 arg4 harg4 arg5 harg5 arg6 harg6 arg7 harg7 hc0 hc1 x0 x1 x2 x3 xs0 xs1).2.1 S512x16.size (by sl_kernel_rfl) y
theorem scover4_C_1 (c : Dev nD) {i : grid4.Coords} {arg1 : Memref sig .tc .vmem S10000x1 .i32} {harg1 : arg1.IsWhole} {arg2 : Memref sig .tc .vmem S10000x16 .f32} {harg2 : arg2.IsWhole} {arg3 : Memref sig .tc .vmem S16x2 .f32} {harg3 : arg3.IsWhole} {arg4 : Memref sig .tc .vmem S1x2 .f32} {harg4 : arg4.IsWhole} {arg5 : Memref sig .tc .vmem S512x2 .f32} {harg5 : arg5.IsWhole} {arg6 : Memref sig .tc .vmem S512x16 .f32} {harg6 : arg6.IsWhole} {arg7 : Memref sig .tc .vmem S512x1 .f32} {harg7 : arg7.IsWhole} {hc0 : ¬cond4_0 i} {hc1 : cond4_1 i} {x0 : Vec F S10000x1 .i32} {x1 : Vec F S10000x16 .f32} {x2 : Vec F S16x2 .f32} {x3 : Vec F S1x2 .f32} {xs0 : Vec F S512x16 .f32} {xs1 : Vec F S512x1 .f32} (y : S512x1.Idx) :
    ∃ pc ∈ (kernelRun4_C c i arg1 harg1 arg2 harg2 arg3 harg3 arg4 harg4 arg5 harg5 arg6 harg6 arg7 harg7 hc0 hc1 x0 x1 x2 x3 xs0 xs1).2.2.1, y ∈ pc.1.set :=
  View.cover_of_tiledL (kernelRun4_C c i arg1 harg1 arg2 harg2 arg3 harg3 arg4 harg4 arg5 harg5 arg6 harg6 arg7 harg7 hc0 hc1 x0 x1 x2 x3 xs0 xs1).2.2.1 S512x1.size (by sl_kernel_rfl) y
/-- What the last point leaves in the result window's staging buffer. -/
def out4_C_4 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : cond4_1 i) (x0 : Vec F S10000x1 .i32) (x1 : Vec F S10000x16 .f32) (x2 : Vec F S16x2 .f32) (x3 : Vec F S1x2 .f32) (xs0 : Vec F S512x16 .f32) (xs1 : Vec F S512x1 .f32) : Vec F S512x2 .f32 :=
  VO4_4.read (Elt F) (VO4_4.writes (Elt F) VO4_4.junk (kernelRun4_C c i arg1 harg1 arg2 harg2 arg3 harg3 arg4 harg4 arg5 harg5 arg6 harg6 arg7 harg7 hc0 hc1 x0 x1 x2 x3 xs0 xs1).1)
def sout4_C_0 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : cond4_1 i) (x0 : Vec F S10000x1 .i32) (x1 : Vec F S10000x16 .f32) (x2 : Vec F S16x2 .f32) (x3 : Vec F S1x2 .f32) (xs0 : Vec F S512x16 .f32) (xs1 : Vec F S512x1 .f32) : Vec F S512x16 .f32 :=
  VS4_0.read (Elt F) (VS4_0.writes (Elt F) VS4_0.junk (kernelRun4_C c i arg1 harg1 arg2 harg2 arg3 harg3 arg4 harg4 arg5 harg5 arg6 harg6 arg7 harg7 hc0 hc1 x0 x1 x2 x3 xs0 xs1).2.1)
def sout4_C_1 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : cond4_1 i) (x0 : Vec F S10000x1 .i32) (x1 : Vec F S10000x16 .f32) (x2 : Vec F S16x2 .f32) (x3 : Vec F S1x2 .f32) (xs0 : Vec F S512x16 .f32) (xs1 : Vec F S512x1 .f32) : Vec F S512x1 .f32 :=
  VS4_1.read (Elt F) (VS4_1.writes (Elt F) VS4_1.junk (kernelRun4_C c i arg1 harg1 arg2 harg2 arg3 harg3 arg4 harg4 arg5 harg5 arg6 harg6 arg7 harg7 hc0 hc1 x0 x1 x2 x3 xs0 xs1).2.2.1)

/-- A placeholder for the result buffer at the points that store nothing into it (never consulted: the window is
    neither written back nor read there). -/
def outIdle4 : Vec F S512x2 .f32 := VO4_4.read (Elt F) (VO4_4.writes (Elt F) VO4_4.junk [])

/-! ## The windows' blocks and the contents point by point -/

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem not_cond4_0_of (t : Fin cfg4.N) (h : ¬ t.val % 10 = 0) : ¬cond4_0 (grid4.coords t) := fun hc => h ((hcond4_0 t).mp hc)
theorem not_cond4_1_of (t : Fin cfg4.N) (h : ¬ t.val % 10 = 9) : ¬cond4_1 (grid4.coords t) := fun hc => h ((hcond4_1 t).mp hc)
theorem succ_mod_ne_zero (n : ℕ) (hn : n + 1 < cfg4.N) : ¬ (n + 1) % 10 = 0 := by
  have hN : n + 1 < 10 := lt_of_lt_of_eq hn (show cfg4.N = 10 from N_4); omega

/-- THE ACCUMULATION: what the result buffer and the two accumulators hold after the body at position n — the first
    point's run from anything, each later point's run from what the point before left in the accumulators. -/
def outsAt4 (c : Dev nD) : (n : ℕ) → n < cfg4.N → Vec F S512x2 .f32 × Vec F S512x16 .f32 × Vec F S512x1 .f32
  | 0, hn => (outIdle4,
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (not_cond4_1_of ⟨0, hn⟩ (show ¬ (0 : ℕ) % 10 = 9 by decide)) (iblk4 V c 0 ⟨0, hn⟩) (iblk4 V c 1 ⟨0, hn⟩) (iblk4 V c 2 ⟨0, hn⟩) (iblk4 V c 3 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (not_cond4_1_of ⟨0, hn⟩ (show ¬ (0 : ℕ) % 10 = 9 by decide)) (iblk4 V c 0 ⟨0, hn⟩) (iblk4 V c 1 ⟨0, hn⟩) (iblk4 V c 2 ⟨0, hn⟩) (iblk4 V c 3 ⟨0, hn⟩))
  | n + 1, hn =>
    if h1 : (n + 1) % 10 = 9 then
      (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (not_cond4_0_of ⟨n + 1, hn⟩ (succ_mod_ne_zero n hn)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2,
       sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (not_cond4_0_of ⟨n + 1, hn⟩ (succ_mod_ne_zero n hn)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2,
       sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (not_cond4_0_of ⟨n + 1, hn⟩ (succ_mod_ne_zero n hn)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2)
    else
      (outIdle4,
       sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (not_cond4_0_of ⟨n + 1, hn⟩ (succ_mod_ne_zero n hn)) (not_cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2,
       sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (not_cond4_0_of ⟨n + 1, hn⟩ (succ_mod_ne_zero n hn)) (not_cond4_1_of ⟨n + 1, hn⟩ h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.1 (outsAt4 c n (Nat.lt_of_succ_lt hn)).2.2)

/-- The contents at the first point. -/
theorem outsAt4_A (c : Dev nD) (t : Fin cfg4.N) (h0 : t.val % 10 = 0) (h1 : ¬ t.val % 10 = 9) :
    outsAt4 V c t.val t.isLt = (outIdle4,
      sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (not_cond4_1_of t h1) (iblk4 V c 0 t) (iblk4 V c 1 t) (iblk4 V c 2 t) (iblk4 V c 3 t),
      sout4_A_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (not_cond4_1_of t h1) (iblk4 V c 0 t) (iblk4 V c 1 t) (iblk4 V c 2 t) (iblk4 V c 3 t)) := by
  obtain ⟨n, hn⟩ := t
  cases n with
  | zero => exact rfl
  | succ n => exact absurd h0 (succ_mod_ne_zero n hn)

/-- The contents at a middle point, over what the point before left. -/
theorem outsAt4_B (c : Dev nD) (t : Fin cfg4.N) (h0 : ¬ t.val % 10 = 0) (h1 : ¬ t.val % 10 = 9) :
    outsAt4 V c t.val t.isLt = (outIdle4,
      sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (not_cond4_0_of t h0) (not_cond4_1_of t h1) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2,
      sout4_B_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (not_cond4_0_of t h0) (not_cond4_1_of t h1) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact absurd (Nat.zero_mod _) h0
  | succ n => exact (dif_neg h1).trans rfl

/-- The contents at the last point, over what the point before left. -/
theorem outsAt4_C (c : Dev nD) (t : Fin cfg4.N) (h0 : ¬ t.val % 10 = 0) (h1 : t.val % 10 = 9) :
    outsAt4 V c t.val t.isLt = (
      out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (not_cond4_0_of t h0) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2,
      sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (not_cond4_0_of t h0) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2,
      sout4_C_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (not_cond4_0_of t h0) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact absurd (Nat.zero_mod _) h0
  | succ n => exact (dif_pos h1).trans rfl

/-! ## The invariant that carries the accumulators -/

/-- Before the first point the class invariant (every scratch at anything); afterwards the other regions' buffers at
    anything, the two accumulators at what the point before left, the generator register at some state. -/
def PhiS (c : Dev nD) : (n : ℕ) → n ≤ cfg4.N → sProp 𝕄
  | 0, _ => Pipeline.ΦA spec4 c
  | n + 1, hn => iprop(restWith c iprop(owns (c : Thread nD τ) scM4_0 fullShare ((outsAt4 V c n hn).2.1) ∗ owns (c : Thread nD τ) scM4_1 fullShare ((outsAt4 V c n hn).2.2)) ∗ (∃ r, prngReg c r))

theorem PhiS_zero (c : Dev nD) (n : ℕ) (h : n ≤ cfg4.N) (hz : n = 0) : PhiS V c n h = Pipeline.ΦA spec4 c := by
  subst hz; rfl
theorem PhiS_succ (c : Dev nD) (n : ℕ) (hn : n < cfg4.N) :
    PhiS V c (n + 1) hn = iprop(restWith c iprop(owns (c : Thread nD τ) scM4_0 fullShare ((outsAt4 V c n hn).2.1) ∗ owns (c : Thread nD τ) scM4_1 fullShare ((outsAt4 V c n hn).2.2)) ∗ (∃ r, prngReg c r)) := rfl
theorem PhiS_pos (c : Dev nD) (n : ℕ) (h : n ≤ cfg4.N) (hz : n ≠ 0) :
    PhiS V c n h = iprop(restWith c iprop(owns (c : Thread nD τ) scM4_0 fullShare ((outsAt4 V c (n - 1) (by omega)).2.1) ∗ owns (c : Thread nD τ) scM4_1 fullShare ((outsAt4 V c (n - 1) (by omega)).2.2)) ∗ (∃ r, prngReg c r)) := by
  cases n with
  | zero => exact absurd rfl hz
  | succ n => rfl

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS_castSucc (c : Dev nD) (t : Fin cfg4.N) :
    (dat4 V c).Φ t.castSucc = PhiS V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point: the inputs' memrefs hold their blocks; the point's position says which case it is in; the
    invariant hands the body the accumulators at what the point before left (at anything at the first point) and takes
    them back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS V c (t.val + 1) t.isLt from rfl, PhiS_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases h1 : t.val % 10 = 9
  · have h0 : ¬ t.val % 10 = 0 := by omega
    have hz : t.val ≠ 0 := by omega
    rw [show (dat4 V c).leavesExact 4 t = owns (c : Thread nD τ) (ms4_4 t) fullShare ((dat4 V c).after 4 t) from by
      unfold Dat.leavesExact; rw [liveAt4_4 t ((hcond4_1 t).mpr h1)], after4_4]
    rw [outsAt4_C V c t h0 h1]
    unfold out4_C_4 sout4_C_0 sout4_C_1; (try dsimp only)
    rw [PhiS_castSucc V c t, PhiS_pos V c _ _ hz]
    iintro ⟨⟨HR, Hg⟩, Ho, ⟨%d0, H0⟩, ⟨%d1, H1⟩, ⟨%d2, H2⟩, ⟨%d3, H3⟩, ⟨%d4, H4⟩⟩
    ihave HR' := (restWith_out c _) $$ HR
    icases HR' with ⟨HR0, HS0, HS1⟩
    iapply ((kernelRun4_C c (grid4.coords t) _ _ _ _ _ _ _ _ _ _ _ _ _ _ (not_cond4_0_of t h0) ((hcond4_1 t).mpr h1) (iblk4 V c 0 t) (iblk4 V c 1 t) (iblk4 V c 2 t) (iblk4 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HR0 HS0 HS1 Hg]
    · isplitl [HR0 HS0 HS1]
      · iapply (restWith_in c _)
        isplitl [HR0]; · iexact HR0
        isplitl [HS0]
        · unfold owns; iexists _; isplitr
          swap; · iexact HS0
          ipureintro; exact View.read_writes_of_cover _ _ _ _ _ (scover4_C_0 c)
        unfold owns; iexists _; isplitr
        swap; · iexact HS1
        ipureintro; exact View.read_writes_of_cover _ _ _ _ _ (scover4_C_1 c)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover4_C_4 c)
  · rw [Dat.leavesExact_idle (dat4 V c) 4 t (idleAt4_4 t (not_cond4_1_of t h1)) (noFlush4_4 t (not_cond4_1_of t h1))]
    by_cases h0 : t.val % 10 = 0
    · have hz : t.val = 0 := by omega
      rw [outsAt4_A V c t h0 h1]
      unfold sout4_A_0 sout4_A_1; (try dsimp only)
      rw [PhiS_castSucc V c t, PhiS_zero V c _ _ hz, PhiA4_eq]
      iintro ⟨⟨HR, Hg⟩, Ho, ⟨%d0, H0⟩, ⟨%d1, H1⟩, ⟨%d2, H2⟩, ⟨%d3, H3⟩, ⟨%d4, H4⟩⟩
      ihave HR' := (restWith_out c _) $$ HR
      icases HR' with ⟨HR0, HS0, HS1⟩
      iapply ((kernelRun4_A c (grid4.coords t) _ _ _ _ _ _ _ _ _ _ _ _ _ _ ((hcond4_0 t).mpr h0) (not_cond4_1_of t h1) (iblk4 V c 0 t) (iblk4 V c 1 t) (iblk4 V c 2 t) (iblk4 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR0 HS0 HS1 Hg]
      · isplitl [HR0 HS0 HS1]
        · iapply (restWith_in c _)
          isplitl [HR0]; · iexact HR0
          isplitl [HS0]
          · unfold owns; iexists _; isplitr
            swap; · iexact HS0
            ipureintro; exact View.read_writes_of_cover _ _ _ _ _ (scover4_A_0 c)
          unfold owns; iexists _; isplitr
          swap; · iexact HS1
          ipureintro; exact View.read_writes_of_cover _ _ _ _ _ (scover4_A_1 c)
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := by omega
      rw [outsAt4_B V c t h0 h1]
      unfold sout4_B_0 sout4_B_1; (try dsimp only)
      rw [PhiS_castSucc V c t, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (restWith_out c _) $$ HR
      icases HR' with ⟨HR0, HS0, HS1⟩
      iapply ((kernelRun4_B c (grid4.coords t) _ _ _ _ _ _ _ _ _ _ _ _ _ _ (not_cond4_0_of t h0) (not_cond4_1_of t h1) (iblk4 V c 0 t) (iblk4 V c 1 t) (iblk4 V c 2 t) (iblk4 V c 3 t) _ _).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR0 HS0 HS1 Hg]
      · isplitl [HR0 HS0 HS1]
        · iapply (restWith_in c _)
          isplitl [HR0]; · iexact HR0
          isplitl [HS0]
          · unfold owns; iexists _; isplitr
            swap; · iexact HS0
            ipureintro; exact View.read_writes_of_cover _ _ _ _ _ (scover4_B_0 c)
          unfold owns; iexists _; isplitr
          swap; · iexact HS1
          ipureintro; exact View.read_writes_of_cover _ _ _ _ _ (scover4_B_1 c)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS V c 0 (Nat.zero_le _) from rfl, PhiS_zero V c 0 _ rfl]
  try exact Idealize.SL.BI.Entails.refl _

/-- After the last point the invariant gives the class invariant back: the accumulators' contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 10 := N_4; omega
  rw [show (dat4 V c).Φ (Fin.last cfg4.N) = PhiS V c (Fin.last cfg4.N).val (Nat.le_of_lt_succ (Fin.last cfg4.N).isLt) from rfl, PhiS_pos V c _ _ ht, PhiA4_eq]
  iintro ⟨HR, Hg⟩
  isplitl [HR]
  · ihave HR' := (restWith_out c _) $$ HR
    icases HR' with ⟨HR0, HS0, HS1⟩
    iapply (restWith_in c _)
    isplitl [HR0]; · iexact HR0
    isplitl [HS0]; · iexists _; iexact HS0
    iexists _; iexact HS1
  iexact Hg

end Cert.KernelIdeal.Hand

end
-- ==== Proof.KI.Run.lean ====
/-
  The run of the idealized kernel program: @main as host stretches and five kernel regions.  The buffers' contents at
  each boundary are a fold from the launch memory: a host stretch applies its operations, a region replaces its
  output array by what its pipeline's write-backs leave.  Each region is a segment over the thread state "every
  unscoped buffer at the boundary's contents, the generator register at some state, nothing owed"; the launch theorem
  for programs of several regions then says that every weakly fair execution terminates with every unscoped buffer at the
  last boundary's contents.  The frame (the arguments end as launched) and the result's value are read off that.
  Generic in the float instance.
-/
import proofs.«406625_j53764400611916_2_alg».proof.Proof.KI.Reg0
import proofs.«406625_j53764400611916_2_alg».proof.Proof.KI.Reg1
import proofs.«406625_j53764400611916_2_alg».proof.Proof.KI.Reg2
import proofs.«406625_j53764400611916_2_alg».proof.Proof.KI.Reg3
import proofs.«406625_j53764400611916_2_alg».proof.Proof.KI.Reg4
import proofs.«406625_j53764400611916_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Region 0's entry contents, read at the TensorCore's references. -/
abbrev WR5 : (c : Dev nD) → (b : Ref sig .tc) → Buf (Elt F) ((c : Thread nD τ).loc b) := fun c b => V5 m c b
/-- What region 0 leaves in its output array. -/
def o35 (c : Dev nD) := (dat0 (WR5 m) c).arrAt 2 cfg0.N
def W6 (c : Dev nD) : Valuation τ sig (Elt F) := Function.update (V5 m c) main_v35 (o35 m c)
abbrev W7 (c : Dev nD) : Valuation τ sig (Elt F) := StableHlo.after hostOps1 (W6 m c)
abbrev WR7 : (c : Dev nD) → (b : Ref sig .tc) → Buf (Elt F) ((c : Thread nD τ).loc b) := fun c b => W7 m c b
def o50 (c : Dev nD) := (dat1 (WR7 m) c).arrAt 2 cfg1.N
def W8 (c : Dev nD) : Valuation τ sig (Elt F) := Function.update (W7 m c) main_v50 (o50 m c)
abbrev WR8 : (c : Dev nD) → (b : Ref sig .tc) → Buf (Elt F) ((c : Thread nD τ).loc b) := fun c b => W8 m c b
def o51 (c : Dev nD) := (dat2 (WR8 m) c).arrAt 2 cfg2.N
def W9 (c : Dev nD) : Valuation τ sig (Elt F) := Function.update (W8 m c) main_v51 (o51 m c)
abbrev W10 (c : Dev nD) : Valuation τ sig (Elt F) := StableHlo.after hostOps3 (W9 m c)
abbrev WR10 : (c : Dev nD) → (b : Ref sig .tc) → Buf (Elt F) ((c : Thread nD τ).loc b) := fun c b => W10 m c b
def o66 (c : Dev nD) := (dat3 (WR10 m) c).arrAt 2 cfg3.N
def W11 (c : Dev nD) : Valuation τ sig (Elt F) := Function.update (W10 m c) main_v66 (o66 m c)
abbrev W12 (c : Dev nD) : Valuation τ sig (Elt F) := StableHlo.after hostOps4 (W11 m c)
abbrev WR12 : (c : Dev nD) → (b : Ref sig .tc) → Buf (Elt F) ((c : Thread nD τ).loc b) := fun c b => W12 m c b
def o69 (c : Dev nD) := (dat4 (WR12 m) c).arrAt 4 cfg4.N
def W13 (c : Dev nD) : Valuation τ sig (Elt F) := Function.update (W12 m c) main_v69 (o69 m c)

/-- What the regions leave, as the unknowns the generated valuations are written over. -/
def outsF : Outs (F := F) := fun j r c =>
  (Function.update (Function.update (Function.update (Function.update (Function.update (V0 m c) main_v35 (o35 m c)) main_v50 (o50 m c)) main_v51 (o51 m c)) main_v66 (o66 m c)) main_v69 (o69 m c)) (Proc.devRef .tc r)

theorem outsF_35 (j : ℕ) (c : Dev nD) : outsF m j main_v35 c = o35 m c := by
  unfold outsF
  rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
theorem outsF_50 (j : ℕ) (c : Dev nD) : outsF m j main_v50 c = o50 m c := by
  unfold outsF
  rw [Function.update_of_ne (StableHlo.devRef_ne_of_ne (by decide)), Function.update_of_ne (StableHlo.devRef_ne_of_ne (by decide)), Function.update_of_ne (StableHlo.devRef_ne_of_ne (by decide)), Function.update_self]
theorem outsF_51 (j : ℕ) (c : Dev nD) : outsF m j main_v51 c = o51 m c := by
  unfold outsF
  rw [Function.update_of_ne (StableHlo.devRef_ne_of_ne (by decide)), Function.update_of_ne (StableHlo.devRef_ne_of_ne (by decide)), Function.update_self]
theorem outsF_66 (j : ℕ) (c : Dev nD) : outsF m j main_v66 c = o66 m c := by
  unfold outsF
  rw [Function.update_of_ne (StableHlo.devRef_ne_of_ne (by decide)), Function.update_self]
theorem outsF_69 (j : ℕ) (c : Dev nD) : outsF m j main_v69 c = o69 m c := by
  unfold outsF
  rw [Function.update_self]

theorem V6_eq (c : Dev nD) : V6 m (outsF m) c = W6 m c := by
  show Function.update (V5 m c) main_v35 (outsF m 6 main_v35 c) = _; rw [outsF_35]; rfl
theorem V7_eq (c : Dev nD) : V7 m (outsF m) c = W7 m c := by
  show StableHlo.after hostOps1 (V6 m (outsF m) c) = _; rw [V6_eq]
theorem V8_eq (c : Dev nD) : V8 m (outsF m) c = W8 m c := by
  show Function.update (V7 m (outsF m) c) main_v50 (outsF m 8 main_v50 c) = _; rw [outsF_50, V7_eq]; rfl
theorem V9_eq (c : Dev nD) : V9 m (outsF m) c = W9 m c := by
  show Function.update (V8 m (outsF m) c) main_v51 (outsF m 9 main_v51 c) = _; rw [outsF_51, V8_eq]; rfl
theorem V10_eq (c : Dev nD) : V10 m (outsF m) c = W10 m c := by
  show StableHlo.after hostOps3 (V9 m (outsF m) c) = _; rw [V9_eq]
theorem V11_eq (c : Dev nD) : V11 m (outsF m) c = W11 m c := by
  show Function.update (V10 m (outsF m) c) main_v66 (outsF m 11 main_v66 c) = _; rw [outsF_66, V10_eq]; rfl
theorem V12_eq (c : Dev nD) : V12 m (outsF m) c = W12 m c := by
  show StableHlo.after hostOps4 (V11 m (outsF m) c) = _; rw [V11_eq]
theorem V13_eq (c : Dev nD) : V13 m (outsF m) c = W13 m c := by
  show Function.update (V12 m (outsF m) c) main_v69 (outsF m 13 main_v69 c) = _; rw [outsF_69, V12_eq]; rfl

/-! ## The proof data family and the thread state -/

/-- Every pipeline's proof data, each at its region's entry contents. -/
def pdats : (p : Fin 5) → (c : Dev nD) → Dat τ (Elt F) Unit ℕ (UR sig nD τ) ℕ (cfgs p) c
  | ⟨0, _⟩ => fun c => dat0 (WR5 m) c
  | ⟨1, _⟩ => fun c => dat1 (WR7 m) c
  | ⟨2, _⟩ => fun c => dat2 (WR8 m) c
  | ⟨3, _⟩ => fun c => dat3 (WR10 m) c
  | ⟨4, _⟩ => fun c => dat4 (WR12 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- At region 0's exit each of its arrays holds what the pipeline leaves: an input its entry contents, the output what
    the write-backs left; every other buffer is as entered. -/
theorem hF0 (c : Dev nD) (w : Fin cfg0.W) : (pdats m 0 c).arrAt w cfg0.N = W6 m c (Pipeline.arrRef spec0 w) := by
  match w with
  | ⟨0, _⟩ => exact (((pdats m 0 c).arrAt_in 0 rfl _).trans (A_eq0 (WR5 m) c 0)).trans (Function.update_of_ne (StableHlo.devRef_ne_of_ne (by decide)) _ _).symm
  | ⟨1, _⟩ => exact (((pdats m 0 c).arrAt_in 1 rfl _).trans (A_eq0 (WR5 m) c 1)).trans (Function.update_of_ne (StableHlo.devRef_ne_of_ne (by decide)) _ _).symm
  | ⟨2, _⟩ => exact (Function.update_self (f := V5 m c) (a := (Proc.devRef .tc main_v35 : DevRef τ sig)) _).symm
theorem hrest0 (c : Dev nD) : ∀ b, b ∉ Finset.univ.image (Pipeline.arrRef spec0) → W6 m c (Proc.devRef .tc b) = V5 m c (Proc.devRef .tc b) :=
  fun b hb => Function.update_of_ne (StableHlo.devRef_ne_of_ne fun e => hb (Finset.mem_image.mpr ⟨2, Finset.mem_univ _, e.symm⟩)) _ _

/-- At region 1's exit each of its arrays holds what the pipeline leaves: an input its entry contents, the output what
    the write-backs left; every other buffer is as entered. -/
theorem hF1 (c : Dev nD) (w : Fin cfg1.W) : (pdats m 1 c).arrAt w cfg1.N = W8 m c (Pipeline.arrRef spec1 w) := by
  match w with
  | ⟨0, _⟩ => exact (((pdats m 1 c).arrAt_in 0 rfl _).trans (A_eq1 (WR7 m) c 0)).trans (Function.update_of_ne (StableHlo.devRef_ne_of_ne (by decide)) _ _).symm
  | ⟨1, _⟩ => exact (((pdats m 1 c).arrAt_in 1 rfl _).trans (A_eq1 (WR7 m) c 1)).trans (Function.update_of_ne (StableHlo.devRef_ne_of_ne (by decide)) _ _).symm
  | ⟨2, _⟩ => exact (Function.update_self (f := W7 m c) (a := (Proc.devRef .tc main_v50 : DevRef τ sig)) _).symm
theorem hrest1 (c : Dev nD) : ∀ b, b ∉ Finset.univ.image (Pipeline.arrRef spec1) → W8 m c (Proc.devRef .tc b) = W7 m c (Proc.devRef .tc b) :=
  fun b hb => Function.update_of_ne (StableHlo.devRef_ne_of_ne fun e => hb (Finset.mem_image.mpr ⟨2, Finset.mem_univ _, e.symm⟩)) _ _

/-- At region 2's exit each of its arrays holds what the pipeline leaves: an input its entry contents, the output what
    the write-backs left; every other buffer is as entered. -/
theorem hF2 (c : Dev nD) (w : Fin cfg2.W) : (pdats m 2 c).arrAt w cfg2.N = W9 m c (Pipeline.arrRef spec2 w) := by
  match w with
  | ⟨0, _⟩ => exact (((pdats m 2 c).arrAt_in 0 rfl _).trans (A_eq2 (WR8 m) c 0)).trans (Function.update_of_ne (StableHlo.devRef_ne_of_ne (by decide)) _ _).symm
  | ⟨1, _⟩ => exact (((pdats m 2 c).arrAt_in 1 rfl _).trans (A_eq2 (WR8 m) c 1)).trans (Function.update_of_ne (StableHlo.devRef_ne_of_ne (by decide)) _ _).symm
  | ⟨2, _⟩ => exact (Function.update_self (f := W8 m c) (a := (Proc.devRef .tc main_v51 : DevRef τ sig)) _).symm
theorem hrest2 (c : Dev nD) : ∀ b, b ∉ Finset.univ.image (Pipeline.arrRef spec2) → W9 m c (Proc.devRef .tc b) = W8 m c (Proc.devRef .tc b) :=
  fun b hb => Function.update_of_ne (StableHlo.devRef_ne_of_ne fun e => hb (Finset.mem_image.mpr ⟨2, Finset.mem_univ _, e.symm⟩)) _ _

/-- At region 3's exit each of its arrays holds what the pipeline leaves: an input its entry contents, the output what
    the write-backs left; every other buffer is as entered. -/
theorem hF3 (c : Dev nD) (w : Fin cfg3.W) : (pdats m 3 c).arrAt w cfg3.N = W11 m c (Pipeline.arrRef spec3 w) := by
  match w with
  | ⟨0, _⟩ => exact (((pdats m 3 c).arrAt_in 0 rfl _).trans (A_eq3 (WR10 m) c 0)).trans (Function.update_of_ne (StableHlo.devRef_ne_of_ne (by decide)) _ _).symm
  | ⟨1, _⟩ => exact (((pdats m 3 c).arrAt_in 1 rfl _).trans (A_eq3 (WR10 m) c 1)).trans (Function.update_of_ne (StableHlo.devRef_ne_of_ne (by decide)) _ _).symm
  | ⟨2, _⟩ => exact (Function.update_self (f := W10 m c) (a := (Proc.devRef .tc main_v66 : DevRef τ sig)) _).symm
theorem hrest3 (c : Dev nD) : ∀ b, b ∉ Finset.univ.image (Pipeline.arrRef spec3) → W11 m c (Proc.devRef .tc b) = W10 m c (Proc.devRef .tc b) :=
  fun b hb => Function.update_of_ne (StableHlo.devRef_ne_of_ne fun e => hb (Finset.mem_image.mpr ⟨2, Finset.mem_univ _, e.symm⟩)) _ _

set_option maxHeartbeats 4000000 in
/-- At region 4's exit each of its arrays holds what the pipeline leaves: an input its entry contents, the output what
    the write-backs left; every other buffer is as entered. -/
theorem hF4 (c : Dev nD) (w : Fin cfg4.W) : (pdats m 4 c).arrAt w cfg4.N = W13 m c (Pipeline.arrRef spec4 w) := by
  match w with
  | ⟨0, _⟩ => exact (((pdats m 4 c).arrAt_in 0 rfl _).trans (A_eq4 (WR12 m) c 0)).trans (Function.update_of_ne (StableHlo.devRef_ne_of_ne (by decide)) _ _).symm
  | ⟨1, _⟩ => exact (((pdats m 4 c).arrAt_in 1 rfl _).trans (A_eq4 (WR12 m) c 1)).trans (Function.update_of_ne (StableHlo.devRef_ne_of_ne (by decide)) _ _).symm
  | ⟨2, _⟩ => exact (((pdats m 4 c).arrAt_in 2 rfl _).trans (A_eq4 (WR12 m) c 2)).trans (Function.update_of_ne (StableHlo.devRef_ne_of_ne (by decide)) _ _).symm
  | ⟨3, _⟩ => exact (((pdats m 4 c).arrAt_in 3 rfl _).trans (A_eq4 (WR12 m) c 3)).trans (Function.update_of_ne (StableHlo.devRef_ne_of_ne (by decide)) _ _).symm
  | ⟨4, _⟩ => exact (Function.update_self (f := W12 m c) (a := (Proc.devRef .tc main_v69 : DevRef τ sig)) _).symm
theorem hrest4 (c : Dev nD) : ∀ b, b ∉ Finset.univ.image (Pipeline.arrRef spec4) → W13 m c (Proc.devRef .tc b) = W12 m c (Proc.devRef .tc b) :=
  fun b hb => Function.update_of_ne (StableHlo.devRef_ne_of_ne fun e => hb (Finset.mem_image.mpr ⟨4, Finset.mem_univ _, e.symm⟩)) _ _

/-! ## The regions as segments -/

set_option backward.isDefEq.respectTransparency.types false in
/-- Region 0 over the thread state: entered from every unscoped buffer at the contents before it, left at the contents
    after it; its arrays split out of the unscoped buffers and put back at what the pipeline leaves; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (WR5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (WR5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (WR5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (WR5 m c) (fun b => W6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at what the pipeline leaves; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (WR7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (WR7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (WR7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (WR7 m c) (fun b => W8 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back at what the pipeline leaves; the generator
    register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (WR8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (WR8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (WR8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (WR8 m c) (fun b => W9 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it; its arrays split out of the unscoped buffers and put back at what the pipeline leaves; the generator
    register into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (WR10 m) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (WR10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (WR10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (WR10 m c) (fun b => W11 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at the contents
    after it; its arrays split out of the unscoped buffers and put back at what the pipeline leaves; the generator
    register into the invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (WR12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec4 c (WR12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (WR12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = (dat4 (WR12 m) c).Φ (Fin.last cfg4.N) from rfl]
    have hgive := hout4 (WR12 m) c
    unfold Pipeline.ΦA at hgive
    iintro H
    ihave H' := hgive $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (WR12 m c) (fun b => W13 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- The run, given the regions' records: every weakly fair execution of @main from memory m with zero counters
    terminates, and in every final state each unscoped buffer holds the last boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V10 m outs c) ∗ E 3 c) ⊢ R3.pre c)
    (hpost3 : ∀ c : Dev nD, R3.post c ⊢ iprop(StableHlo.held (c : Thread nD τ) (Pipeline.ucRefs τ sig) (V11 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V12 m outs c) ∗ E 4 c) ⊢ R4.pre c)
    (hpost4 : ∀ c : Dev nD, R4.post c ⊢ iprop(StableHlo.held (c : Thread nD τ) (Pipeline.ucRefs τ sig) (V13 m outs c) ∗ E 5 c)) :
    θ_run defs (onTc (τ := τ) (main (F := F))) ⟨m, fun _ => 0, ρ⟩ (fun r => ∀ c : Dev nD,
      ∀ b ∈ Pipeline.ucRefs τ sig, r.2.mem (((c : Thread nD τ)).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, .rfl, .rfl, hpre0 c, hpost0 c, hpre1 c, (hpost1 c).trans (hpre2 c), hpost2 c, hpre3 c, hpost3 c, hpre4 c, (hpost4 c).trans (sep_mono .rfl (hE5 c))⟩)
    (hinit := ?_) (QY := fun c s => ∀ b ∈ Pipeline.ucRefs τ sig, s.mem (((c : Thread nD τ)).1, b) = V13 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

/-- THE RUN of the idealized kernel program: every unscoped buffer ends at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V13 m (outsF m) c b) :=
  run_cond m (emb₁ : Emb (URounds (GSem nD τ sig) Unit) 𝕄) () 𝒱₀ L lv (fun _ _ => rfl) ρ (outsF m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE5 := fun c => by iintro ⟨-, HO⟩; iexact HO)
    (reg0 m) (fun c => .rfl) (fun c => by rw [V6_eq]; exact .rfl)
    (reg1 m) (fun c => by rw [V7_eq]; exact .rfl) (fun c => by rw [V8_eq]; exact .rfl)
    (reg2 m) (fun c => by rw [V8_eq]; exact .rfl) (fun c => by rw [V9_eq]; exact .rfl)
    (reg3 m) (fun c => by rw [V10_eq]; exact .rfl) (fun c => by rw [V11_eq]; exact .rfl)
    (reg4 m) (fun c => by rw [V12_eq]; exact .rfl) (fun c => by rw [V13_eq]; exact .rfl)

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME at any float instance: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V13_main_arg0 m (outsF m) c),
     (h c _ (mem_uc main_arg1 (by decide))).trans (V13_main_arg1 m (outsF m) c),
     (h c _ (mem_uc main_arg2 (by decide))).trans (V13_main_arg2 m (outsF m) c),
     (h c _ (mem_uc main_arg3 (by decide))).trans (V13_main_arg3 m (outsF m) c),
     (h c _ (mem_uc main_arg4 (by decide))).trans (V13_main_arg4 m (outsF m) c),
     (h c _ (mem_uc main_arg5 (by decide))).trans (V13_main_arg5 m (outsF m) c),
     (h c _ (mem_uc main_arg6 (by decide))).trans (V13_main_arg6 m (outsF m) c),
     (h c _ (mem_uc main_arg7 (by decide))).trans (V13_main_arg7 m (outsF m) c),
     (h c _ (mem_uc main_arg8 (by decide))).trans (V13_main_arg8 m (outsF m) c),
     (h c _ (mem_uc main_arg9 (by decide))).trans (V13_main_arg9 m (outsF m) c)⟩) (run_all m ρ)

end Cert.KernelIdeal.Hand

end
-- ==== Proof.KHostA.lean ====
/- The host stretches before the first kernel region, read as the reference program's stage functions.
   The idealized kernel program and the reference program apply the same operations, in the same order, to the
   edge-index argument `a1` and the edge-weight argument `a2`: the row and column index vectors with the
   self-loop indices appended, the weights with ones appended, the degrees (a scatter-add of the weights at the
   column indices), the degrees made safe (one where the degree is not positive), their inverse square root
   (zero where the degree is not positive), and the normalisation
   `norm e = dinv (row e) * w e * dinv (col e)` with negative indices wrapped around.
   Each lemma below says that one buffer, after one stretch, holds the reference's stage function of the
   arguments; a buffer a stretch does not write is carried through it unchanged. -/
import proofs.«406625_j53764400611916_2_alg».proof.Proof.Gen.KernelIdeal.Regions
import proofs.«406625_j53764400611916_2_alg».proof.Proof.Gen.ReferenceIdeal.Read
import Idealize.ShloMosaic.Lib.StableHlo.Run

set_option maxRecDepth 1028

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (c : Dev nD)

/-! ## After the first stretch: index vectors, weights, degrees and the two masks -/

theorem v1_row : V1 (F := Ideal) m c main_v5 = val_main_v5 (F := Ideal) (m ((c.tc : Thread nD τ).loc main_arg1)) := by
  show StableHlo.after hostOps0 (V0 m c) (Proc.devRef .tc main_v5) = _
  after_results
  unfold val_main_v5 val_main_v1 val_main_v0 val_main_v4
  rfl

theorem v1_col : V1 (F := Ideal) m c main_v6 = val_main_v6 (F := Ideal) (m ((c.tc : Thread nD τ).loc main_arg1)) := by
  show StableHlo.after hostOps0 (V0 m c) (Proc.devRef .tc main_v6) = _
  after_results
  unfold val_main_v6 val_main_v3 val_main_v2 val_main_v4
  rfl

theorem v1_w : V1 (F := Ideal) m c main_v8 = val_main_v8 (F := Ideal) (m ((c.tc : Thread nD τ).loc main_arg2)) := by
  show StableHlo.after hostOps0 (V0 m c) (Proc.devRef .tc main_v8) = _
  after_results
  unfold val_main_v8 val_main_v7 val_main_cst
  rfl

theorem v1_deg : V1 (F := Ideal) m c main_v11 = val_main_v11 (F := Ideal) (m ((c.tc : Thread nD τ).loc main_arg1)) (m ((c.tc : Thread nD τ).loc main_arg2)) := by
  show StableHlo.after hostOps0 (V0 m c) (Proc.devRef .tc main_v11) = _
  after_results
  unfold val_main_v11 val_main_v9 val_main_cst_0 val_main_v10 val_main_v6 val_main_v3 val_main_v2 val_main_v4
    val_main_v8 val_main_v7 val_main_cst
  rfl

theorem v1_pos13 : V1 (F := Ideal) m c main_v13 = val_main_v13 (F := Ideal) (m ((c.tc : Thread nD τ).loc main_arg1)) (m ((c.tc : Thread nD τ).loc main_arg2)) := by
  show StableHlo.after hostOps0 (V0 m c) (Proc.devRef .tc main_v13) = _
  after_results
  unfold val_main_v13 val_main_v12 val_main_cst_1
    val_main_v11 val_main_v9 val_main_cst_0 val_main_v10 val_main_v6 val_main_v3 val_main_v2 val_main_v4
    val_main_v8 val_main_v7 val_main_cst
  rfl

theorem v1_pos15 : V1 (F := Ideal) m c main_v15 = val_main_v15 (F := Ideal) (m ((c.tc : Thread nD τ).loc main_arg1)) (m ((c.tc : Thread nD τ).loc main_arg2)) := by
  show StableHlo.after hostOps0 (V0 m c) (Proc.devRef .tc main_v15) = _
  after_results
  unfold val_main_v15 val_main_v14 val_main_cst_2
    val_main_v11 val_main_v9 val_main_cst_0 val_main_v10 val_main_v6 val_main_v3 val_main_v2 val_main_v4
    val_main_v8 val_main_v7 val_main_cst
  rfl

theorem v1_one : V1 (F := Ideal) m c main_cst_3 = val_main_cst_3 (F := Ideal) := by
  show StableHlo.after hostOps0 (V0 m c) (Proc.devRef .tc main_cst_3) = _
  after_results
  unfold val_main_cst_3
  rfl

/-! ## The later stretches, over any contents they start from -/

theorem ops1_v16 (W : Valuation τ sig (Elt Ideal)) :
    StableHlo.after hostOps0_1 W (Proc.devRef .tc main_v16)
      = select (W main_v15 : (⟨S100000, .i1⟩ : BufTy).Contents (Elt Ideal))
          (W main_v11 : (⟨S100000, .f32⟩ : BufTy).Contents (Elt Ideal))
          (broadcastInDim S100000 ![] bcast_S_S100000 (W main_cst_3 : (⟨S_, .f32⟩ : BufTy).Contents (Elt Ideal))) := by
  after_results
  rfl

theorem ops2_v17 (W : Valuation τ sig (Elt Ideal)) :
    StableHlo.after hostOps0_2 W (Proc.devRef .tc main_v17)
      = (Host.rsqrt (F := Ideal) (φ := .f32) (W main_v16 : (⟨S100000, .f32⟩ : BufTy).Contents (Elt Ideal)) : (⟨S100000, .f32⟩ : BufTy).Contents (Elt Ideal)) := by
  after_results
  try rfl

theorem ops2_cst4 (W : Valuation τ sig (Elt Ideal)) :
    StableHlo.after hostOps0_2 W (Proc.devRef .tc main_cst_4) = constant (F := Ideal) S_ .f32 0x00000000#32 := by
  after_results

theorem ops3_v18 (W : Valuation τ sig (Elt Ideal)) :
    StableHlo.after hostOps0_3 W (Proc.devRef .tc main_v18)
      = select (W main_v13 : (⟨S100000, .i1⟩ : BufTy).Contents (Elt Ideal))
          (W main_v17 : (⟨S100000, .f32⟩ : BufTy).Contents (Elt Ideal))
          (broadcastInDim S100000 ![] bcast_S_S100000 (W main_cst_4 : (⟨S_, .f32⟩ : BufTy).Contents (Elt Ideal))) := by
  after_results
  rfl

/-! ## The three buffers at the first kernel region's entry -/

theorem v2_safe : V2 (F := Ideal) m c main_v16 = val_main_v16 (F := Ideal) (m ((c.tc : Thread nD τ).loc main_arg1)) (m ((c.tc : Thread nD τ).loc main_arg2)) := by
  show StableHlo.after hostOps0_1 (V1 m c) (Proc.devRef .tc main_v16) = _
  rw [ops1_v16, v1_pos15, v1_deg, v1_one]
  unfold val_main_v16 val_main_call0_v1 val_main_call0_v0
  rfl

theorem v3_rs : V3 (F := Ideal) m c main_v17 = val_main_v17 (F := Ideal) (m ((c.tc : Thread nD τ).loc main_arg1)) (m ((c.tc : Thread nD τ).loc main_arg2)) := by
  show StableHlo.after hostOps0_2 (V2 m c) (Proc.devRef .tc main_v17) = _
  rw [ops2_v17, v2_safe]
  unfold val_main_v17
  rfl

theorem v3_zero : V3 (F := Ideal) m c main_cst_4 = val_main_cst_4 (F := Ideal) := by
  show StableHlo.after hostOps0_2 (V2 m c) (Proc.devRef .tc main_cst_4) = _
  rw [ops2_cst4]
  unfold val_main_cst_4
  rfl

theorem v3_pos13 : V3 (F := Ideal) m c main_v13 = val_main_v13 (F := Ideal) (m ((c.tc : Thread nD τ).loc main_arg1)) (m ((c.tc : Thread nD τ).loc main_arg2)) :=
  (V3_of m c main_v13 (by decide)).trans <| (V2_of m c main_v13 (by decide)).trans (v1_pos13 m c)

theorem v4_dinv : V4 (F := Ideal) m c main_v18 = val_main_v18 (F := Ideal) (m ((c.tc : Thread nD τ).loc main_arg1)) (m ((c.tc : Thread nD τ).loc main_arg2)) := by
  show StableHlo.after hostOps0_3 (V3 m c) (Proc.devRef .tc main_v18) = _
  rw [ops3_v18, v3_pos13, v3_rs, v3_zero]
  unfold val_main_v18 val_main_call1_v1 val_main_call1_v0
  rfl

theorem v4_row : V4 (F := Ideal) m c main_v5 = val_main_v5 (F := Ideal) (m ((c.tc : Thread nD τ).loc main_arg1)) :=
  (V4_of m c main_v5 (by decide)).trans <| (V3_of m c main_v5 (by decide)).trans <|
    (V2_of m c main_v5 (by decide)).trans (v1_row m c)

theorem v4_col : V4 (F := Ideal) m c main_v6 = val_main_v6 (F := Ideal) (m ((c.tc : Thread nD τ).loc main_arg1)) :=
  (V4_of m c main_v6 (by decide)).trans <| (V3_of m c main_v6 (by decide)).trans <|
    (V2_of m c main_v6 (by decide)).trans (v1_col m c)

theorem v4_w : V4 (F := Ideal) m c main_v8 = val_main_v8 (F := Ideal) (m ((c.tc : Thread nD τ).loc main_arg2)) :=
  (V4_of m c main_v8 (by decide)).trans <| (V3_of m c main_v8 (by decide)).trans <|
    (V2_of m c main_v8 (by decide)).trans (v1_w m c)

set_option maxHeartbeats 2000000 in
theorem v5_norm : V5 (F := Ideal) m c main_v34 = Cert.ReferenceIdeal.Read.val_main_v34 (F := Ideal) (m ((c.tc : Thread nD τ).loc main_arg1)) (m ((c.tc : Thread nD τ).loc main_arg2)) := by
  have h18 := v4_dinv m c
  have h5 := v4_row m c
  have h6 := v4_col m c
  have h8 := v4_w m c
  show StableHlo.after hostOps0_4 (V4 m c) (Proc.devRef .tc main_v34) = _
  generalize V4 m c = W at h18 h5 h6 h8 ⊢
  after_results_simp
  rw [h18, h5, h6, h8]
  unfold val_main_v34 val_main_v33 val_main_v32 val_main_v31 val_main_v30 val_main_v29 val_main_c_7 val_main_v28
    val_main_v27 val_main_c_6 val_main_v26 val_main_v25 val_main_v24 val_main_v23 val_main_v22 val_main_v21 val_main_c_5
    val_main_v20 val_main_v19 val_main_c
  rfl

theorem v5_row : V5 (F := Ideal) m c main_v5 = Cert.ReferenceIdeal.Read.val_main_v5 (F := Ideal) (m ((c.tc : Thread nD τ).loc main_arg1)) :=
  (V5_of m c main_v5 (by decide)).trans (v4_row m c)

theorem v5_col : V5 (F := Ideal) m c main_v6 = Cert.ReferenceIdeal.Read.val_main_v6 (F := Ideal) (m ((c.tc : Thread nD τ).loc main_arg1)) :=
  (V5_of m c main_v6 (by decide)).trans (v4_col m c)

end Cert.KernelIdeal.Hand
-- ==== Proof.KHostB.lean ====
/-
  What the later host stretches of the idealized kernel program leave in six buffers, stated as the reference program's
  own stage functions at the extended reals.  Each stretch is read operation by operation off the valuation it starts
  from; a buffer the intervening items do not write keeps its earlier contents; a reshape that adds a unit axis agrees
  index by index with the broadcast along the remaining axis that the reference uses.
-/
import proofs.«406625_j53764400611916_2_alg».proof.Proof.Gen.KernelIdeal.Regions
import proofs.«406625_j53764400611916_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 1028

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (outs : Outs (F := Ideal)) (c : Dev nD)

/-! ## The first aggregation stretch -/

/-- A reference that neither the opening host stretches nor the first region writes holds its launch contents when
    the first aggregation stretch starts. -/
theorem V6_arg (r : Ref sig .tc) (h6 : r ∉ ([main_v35] : List (Ref sig .tc))) (h5 : r ∉ hostOps0_4_W) (h4 : r ∉ hostOps0_3_W)
    (h3 : r ∉ hostOps0_2_W) (h2 : r ∉ hostOps0_1_W) (h1 : r ∉ hostOps0_W) :
    V6 (F := Ideal) m outs c r = m ((c.tc : Thread nD τ).loc r) :=
  (V6_of m outs c r h6).trans <| (V5_of m c r h5).trans <| (V4_of m c r h4).trans <| (V3_of m c r h3).trans <|
    (V2_of m c r h2).trans <| (V1_of m c r h1).trans rfl

/-- The first aggregation: the rows of the projected features gathered at the wrapped source indices, scaled by the
    edge norm, summed into the destination rows — the reference's stage of the same name, given that the norm, the two
    index vectors and the projected features are the reference's. -/
theorem v7_agg
    (hn : V5 (F := Ideal) m c main_v34 = val_main_v34 (F := Ideal) (m ((c.tc : Thread nD τ).loc main_arg1)) (m ((c.tc : Thread nD τ).loc main_arg2)))
    (hr : V5 (F := Ideal) m c main_v5 = val_main_v5 (F := Ideal) (m ((c.tc : Thread nD τ).loc main_arg1)))
    (hc : V5 (F := Ideal) m c main_v6 = val_main_v6 (F := Ideal) (m ((c.tc : Thread nD τ).loc main_arg1)))
    (h35 : outs 6 main_v35 c = val_main_v35 (F := Ideal) (m ((c.tc : Thread nD τ).loc main_arg0)) (m ((c.tc : Thread nD τ).loc main_arg4))) :
    V7 (F := Ideal) m outs c main_v48 = val_main_v48 (F := Ideal) (m ((c.tc : Thread nD τ).loc main_arg0)) (m ((c.tc : Thread nD τ).loc main_arg1)) (m ((c.tc : Thread nD τ).loc main_arg2)) (m ((c.tc : Thread nD τ).loc main_arg4)) := by
  show StableHlo.after hostOps1 (V6 m outs c) (Proc.devRef .tc main_v48) = _
  after_results_simp
  rw [V6_of m outs c main_v6 (by decide), V6_of m outs c main_v34 (by decide), V6_of m outs c main_v5 (by decide), hn, hr, hc,
    show V6 m outs c (Proc.devRef .tc main_v35) = outs 6 main_v35 c from Function.update_self .., h35]
  unfold val_main_v48 val_main_v46 val_main_v47 val_main_v45 val_main_v44 val_main_v43 val_main_v36 val_main_v42 val_main_v41
    val_main_v38 val_main_v40 val_main_v37 val_main_v39 val_main_c_8 val_main_c_9 val_main_cst_10
  rfl

/-- The first bias as a row: a vector of 16 reshaped to one row is the vector broadcast along the column axis. -/
theorem v7_bias : V7 (F := Ideal) m outs c main_v49 = val_main_v49 (F := Ideal) (m ((c.tc : Thread nD τ).loc main_arg5)) := by
  show StableHlo.after hostOps1 (V6 m outs c) (Proc.devRef .tc main_v49) = _
  after_results
  rw [V6_arg m outs c main_arg5 (by decide) (by decide) (by decide) (by decide) (by decide) (by decide)]
  funext i
  rw [val_main_v49_apply]
  exact shapeCast_apply _ shapeCasts_S16_S1x16 i (idx_main_v49 i)
    (by rewrite [Shape.rowMajor_val_two, Shape.rowMajor_val_one]; have h0 : (i 0).val < 1 := (i 0).isLt
        show (i 1).val = (i 0).val * 16 + (i 1).val; omega)

/-! ## The second layer recomputes the index vectors and the norm -/

/-- The second layer's source-index vector is the first layer's. -/
theorem ref_row2 (x1 : (⟨Cert.ReferenceIdeal.S2x3200000, .i32⟩ : BufTy).Contents (Elt Ideal)) :
    val_main_v54 (F := Ideal) x1 = val_main_v5 x1 := rfl

/-- The second layer's destination-index vector is the first layer's. -/
theorem ref_col2 (x1 : (⟨Cert.ReferenceIdeal.S2x3200000, .i32⟩ : BufTy).Contents (Elt Ideal)) :
    val_main_v55 (F := Ideal) x1 = val_main_v6 x1 := rfl

/-- The second layer's edge weights with the self loops' ones appended are the first layer's. -/
theorem ref_w2 (x2 : (⟨Cert.ReferenceIdeal.S3200000, .f32⟩ : BufTy).Contents (Elt Ideal)) :
    val_main_v57 (F := Ideal) x2 = val_main_v8 x2 := rfl

/-- The second layer's weighted in-degree is the first layer's. -/
theorem ref_deg2 (x1 : (⟨Cert.ReferenceIdeal.S2x3200000, .i32⟩ : BufTy).Contents (Elt Ideal))
    (x2 : (⟨Cert.ReferenceIdeal.S3200000, .f32⟩ : BufTy).Contents (Elt Ideal)) :
    val_main_v60 (F := Ideal) x1 x2 = val_main_v11 x1 x2 := by
  unfold val_main_v60 val_main_v11 val_main_v59 val_main_v10 val_main_v58 val_main_v9 val_main_cst_12 val_main_cst_0
  rw [ref_col2, ref_w2]

/-- The second layer's inverse square root of the degree (zero where the degree is not positive) is the first layer's. -/
theorem ref_dinv2 (x1 : (⟨Cert.ReferenceIdeal.S2x3200000, .i32⟩ : BufTy).Contents (Elt Ideal))
    (x2 : (⟨Cert.ReferenceIdeal.S3200000, .f32⟩ : BufTy).Contents (Elt Ideal)) :
    val_main_v67 (F := Ideal) x1 x2 = val_main_v18 x1 x2 := by
  unfold val_main_v67 val_main_v18 val_main_v62 val_main_v13 val_main_v66 val_main_v17 val_main_v65 val_main_v16
    val_main_v64 val_main_v15 val_main_v61 val_main_v12 val_main_v63 val_main_v14 val_main_call3_v1 val_main_call0_v1
    val_main_call3_v0 val_main_call0_v0 val_main_call4_v1 val_main_call1_v1 val_main_call4_v0 val_main_call1_v0
    val_main_cst_13 val_main_cst_1 val_main_cst_14 val_main_cst_2 val_main_cst_15 val_main_cst_3 val_main_cst_16 val_main_cst_4
  rw [ref_deg2]

/-- The second layer's edge norm is the first layer's. -/
theorem ref_norm2 (x1 : (⟨Cert.ReferenceIdeal.S2x3200000, .i32⟩ : BufTy).Contents (Elt Ideal))
    (x2 : (⟨Cert.ReferenceIdeal.S3200000, .f32⟩ : BufTy).Contents (Elt Ideal)) :
    val_main_v83 (F := Ideal) x1 x2 = val_main_v34 x1 x2 := by
  unfold val_main_v83 val_main_v34 val_main_v75 val_main_v26 val_main_v82 val_main_v33 val_main_v74 val_main_v25
    val_main_v73 val_main_v24 val_main_v81 val_main_v32 val_main_v72 val_main_v23 val_main_v80 val_main_v31
    val_main_v69 val_main_v20 val_main_v71 val_main_v22 val_main_v77 val_main_v28 val_main_v79 val_main_v30
    val_main_v68 val_main_v19 val_main_v70 val_main_v21 val_main_v76 val_main_v27 val_main_v78 val_main_v29
    val_main_c_17 val_main_c val_main_c_18 val_main_c_5 val_main_c_19 val_main_c_6 val_main_c_20 val_main_c_7
  rw [ref_dinv2, ref_row2, ref_col2, ref_w2]

/-! ## The second aggregation stretch -/

/-- A reference that the first aggregation stretch and the two regions after it do not write is, when the second
    aggregation stretch starts, as it was when the first one started. -/
theorem V9_old (r : Ref sig .tc) (h9 : r ∉ ([main_v51] : List (Ref sig .tc))) (h8 : r ∉ ([main_v50] : List (Ref sig .tc)))
    (h7 : r ∉ hostOps1_W) : V9 (F := Ideal) m outs c r = V6 m outs c r :=
  (V9_of m outs c r h9).trans <| (V8_of m outs c r h8).trans (V7_of m outs c r h7)

/-- The second aggregation: the same gather, scaling and row sums over the second layer's projected features — the
    reference's stage of the same name, the reference's recomputed norm and index vectors being the first layer's. -/
theorem v10_agg
    (hn : V5 (F := Ideal) m c main_v34 = val_main_v34 (F := Ideal) (m ((c.tc : Thread nD τ).loc main_arg1)) (m ((c.tc : Thread nD τ).loc main_arg2)))
    (hr : V5 (F := Ideal) m c main_v5 = val_main_v5 (F := Ideal) (m ((c.tc : Thread nD τ).loc main_arg1)))
    (hc : V5 (F := Ideal) m c main_v6 = val_main_v6 (F := Ideal) (m ((c.tc : Thread nD τ).loc main_arg1)))
    (h51 : outs 9 main_v51 c = val_main_v84 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))) :
    V10 (F := Ideal) m outs c main_v64 = val_main_v97 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  show StableHlo.after hostOps3 (V9 m outs c) (Proc.devRef .tc main_v64) = _
  after_results_simp
  rw [V9_old m outs c main_v6 (by decide) (by decide) (by decide), V9_old m outs c main_v34 (by decide) (by decide) (by decide),
    V9_old m outs c main_v5 (by decide) (by decide) (by decide),
    V6_of m outs c main_v6 (by decide), V6_of m outs c main_v34 (by decide), V6_of m outs c main_v5 (by decide), hn, hr, hc,
    show V9 m outs c (Proc.devRef .tc main_v51) = outs 9 main_v51 c from Function.update_self .., h51]
  unfold val_main_v97 val_main_v95 val_main_v96 val_main_v94 val_main_v93 val_main_v92 val_main_v85 val_main_v91 val_main_v90
    val_main_v87 val_main_v89 val_main_v86 val_main_v88 val_main_c_21 val_main_c_22 val_main_cst_23
  rw [ref_norm2, ref_row2, ref_col2]
  rfl

/-- The second bias as a row. -/
theorem v10_bias : V10 (F := Ideal) m outs c main_v65 = val_main_v98 (F := Ideal) (m ((c.tc : Thread nD τ).loc main_arg7)) := by
  show StableHlo.after hostOps3 (V9 m outs c) (Proc.devRef .tc main_v65) = _
  after_results
  rw [V9_old m outs c main_arg7 (by decide) (by decide) (by decide),
    V6_arg m outs c main_arg7 (by decide) (by decide) (by decide) (by decide) (by decide) (by decide)]
  funext i
  rw [val_main_v98_apply]
  exact shapeCast_apply _ shapeCasts_S16_S1x16 i (idx_main_v98 i)
    (by rewrite [Shape.rowMajor_val_two, Shape.rowMajor_val_one]; have h0 : (i 0).val < 1 := (i 0).isLt
        show (i 1).val = (i 0).val * 16 + (i 1).val; omega)

/-! ## The last host stretch -/

/-- A reference that the second aggregation stretch and the region after it do not write is, when the last host
    stretch starts, as it was when the second aggregation stretch started. -/
theorem V11_old (r : Ref sig .tc) (h11 : r ∉ ([main_v66] : List (Ref sig .tc))) (h10 : r ∉ hostOps3_W) :
    V11 (F := Ideal) m outs c r = V9 m outs c r :=
  (V11_of m outs c r h11).trans (V10_of m outs c r h10)

/-- The graph index of every node as a column: a vector reshaped to one column is the vector broadcast along the row axis. -/
theorem v12_batch : V12 (F := Ideal) m outs c main_v67 = val_main_v103 (F := Ideal) (m ((c.tc : Thread nD τ).loc main_arg3)) := by
  show StableHlo.after hostOps4 (V11 m outs c) (Proc.devRef .tc main_v67) = _
  after_results
  rw [V11_old m outs c main_arg3 (by decide) (by decide), V9_old m outs c main_arg3 (by decide) (by decide) (by decide),
    V6_arg m outs c main_arg3 (by decide) (by decide) (by decide) (by decide) (by decide) (by decide)]
  funext i
  rw [val_main_v103_apply]
  exact shapeCast_apply _ shapeCasts_S100000_S100000x1 i (idx_main_v103 i)
    (by rewrite [Shape.rowMajor_val_two, Shape.rowMajor_val_one]; have h1 : (i 1).val < 1 := (i 1).isLt
        show (i 0).val = (i 0).val * 1 + (i 1).val; omega)

/-- The classifier's bias as a row. -/
theorem v12_bfc : V12 (F := Ideal) m outs c main_v68 = val_main_v115 (F := Ideal) (m ((c.tc : Thread nD τ).loc main_arg9)) := by
  show StableHlo.after hostOps4 (V11 m outs c) (Proc.devRef .tc main_v68) = _
  after_results
  rw [V11_old m outs c main_arg9 (by decide) (by decide), V9_old m outs c main_arg9 (by decide) (by decide) (by decide),
    V6_arg m outs c main_arg9 (by decide) (by decide) (by decide) (by decide) (by decide) (by decide)]
  funext i
  rw [val_main_v115_apply]
  exact shapeCast_apply _ shapeCasts_S2_S1x2 i (idx_main_v115 i)
    (by rewrite [Shape.rowMajor_val_two, Shape.rowMajor_val_one]; have h0 : (i 0).val < 1 := (i 0).isLt
        show (i 1).val = (i 0).val * 2 + (i 1).val; omega)

end Cert.KernelIdeal.Hand
-- ==== Proof.ValMat.lean ====
/-
  The value of the two matrix-product regions of the idealized kernel program at the exact instance: each region's
  output array, after its grid has run, is the whole-array product of its two input arrays — the reference's
  dot_general of the same arrays.  Per region: the body's payload read at an index (a sum over the contraction
  coordinate), what a grid point writes back as a block of the whole-array product, the cover of the array's rows by
  the row blocks, and the array after the last point.
-/
import proofs.«406625_j53764400611916_2_alg».proof.Proof.KI.Reg0
import proofs.«406625_j53764400611916_2_alg».proof.Proof.KI.Reg2
import proofs.«406625_j53764400611916_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem hz_mat : (![0, 0] : Fin 2 → Nat) = fun _ => 0 := funext fun a => by fin_cases a <;> rfl

/-! ## Region 0: the payload at an index -/

theorem lhs_pay0_0 (i : S10000x16.Idx) (q : dot_S10000x64_S64x16_S10000x16_1_0_0_1_n_n.contr.Idx) :
    (dot_S10000x64_S64x16_S10000x16_1_0_0_1_n_n.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem lhs_pay0_1 (i : S10000x16.Idx) (q : dot_S10000x64_S64x16_S10000x16_1_0_0_1_n_n.contr.Idx) :
    (dot_S10000x64_S64x16_S10000x16_1_0_0_1_n_n.lhsIdx i q 1).val = (q ⟨0, by decide⟩).val :=
  dot_S10000x64_S64x16_S10000x16_1_0_0_1_n_n.lhsIdx_val_of_single rfl i q
theorem rhs_pay0_0 (i : S10000x16.Idx) (q : dot_S10000x64_S64x16_S10000x16_1_0_0_1_n_n.contr.Idx) :
    (dot_S10000x64_S64x16_S10000x16_1_0_0_1_n_n.rhsIdx i q 0).val = (q ⟨0, by decide⟩).val :=
  dot_S10000x64_S64x16_S10000x16_1_0_0_1_n_n.rhsIdx_val_of_single rfl i q
theorem rhs_pay0_1 (i : S10000x16.Idx) (q : dot_S10000x64_S64x16_S10000x16_1_0_0_1_n_n.contr.Idx) :
    (dot_S10000x64_S64x16_S10000x16_1_0_0_1_n_n.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- The body's product at row p, column q of the block: the sum over the contraction coordinate k of the row block's
    entry (p, k) times the weight matrix's entry (k, q). -/
theorem pay0_apply (x0 : Vec Ideal S10000x64 .f32) (w : Vec Ideal S64x16 .f32) (p : Fin 10000) (q : Fin 16) :
    k0_pay1 (F := Ideal) x0 w (ix2 p q) = ∑ k : Fin 64, x0 (ix2 p k) * w (ix2 k q) := by
  unfold k0_pay1
  simp only [matmul]
  rw [Ideal.matmul_constant_zero_apply, ← Equiv.sum_comp (ValueIdx.contrEquiv1 dot_S10000x64_S64x16_S10000x16_1_0_0_1_n_n 64 rfl rfl).symm]
  refine Finset.sum_congr rfl fun k _ => ?_
  have hk := ValueIdx.contrEquiv1_symm_val dot_S10000x64_S64x16_S10000x16_1_0_0_1_n_n 64 rfl rfl k
  have el : dot_S10000x64_S64x16_S10000x16_1_0_0_1_n_n.lhsIdx (ix2 p q) ((ValueIdx.contrEquiv1 dot_S10000x64_S64x16_S10000x16_1_0_0_1_n_n 64 rfl rfl).symm k) = ix2 p k := funext fun a => Fin.ext (by
    match a with
    | ⟨0, _⟩ => exact lhs_pay0_0 _ _
    | ⟨1, _⟩ => exact (lhs_pay0_1 _ _).trans hk)
  have er : dot_S10000x64_S64x16_S10000x16_1_0_0_1_n_n.rhsIdx (ix2 p q) ((ValueIdx.contrEquiv1 dot_S10000x64_S64x16_S10000x16_1_0_0_1_n_n 64 rfl rfl).symm k) = ix2 k q := funext fun a => Fin.ext (by
    match a with
    | ⟨0, _⟩ => exact (rhs_pay0_0 _ _).trans hk
    | ⟨1, _⟩ => exact rhs_pay0_1 _ _)
  rw [truncf_apply, truncf_apply, el, er]

/-! ## Region 0: what a grid point writes back -/

variable (V : (c : Dev nD) → (b : Ref sig .tc) → Buf (Elt Ideal) ((c : Thread nD τ).loc b))

/-- The index maps over the grid: the row block and the output block move together along the rows, at the point's
    number; the weight matrix's block never moves; no window moves along the columns. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the whole-array product of the two argument arrays. -/
theorem flushed0_eq (c : Dev nD) (t : Fin cfg0.N) :
    (dat0 (F := Ideal) V c).flushed 2 t = ((cfg0.win 2).blk t).view.read (Elt Ideal)
      (Cert.ReferenceIdeal.Read.val_main_v35 (F := Ideal) (V c main_arg0) (V c main_arg4)) := by
  show (cfg0.win 2).cut (grid0.coords t) ((dat0 V c).after 2 t) = _
  rw [after0_2]
  unfold out0_2
  rw [View.canon_unit_zero hz_mat]
  simp only [View.ld_unit_zero (S := S10000x64) hz_mat, View.ld_unit_zero (S := S64x16) hz_mat]
  obtain ⟨e0, e1, e2, e3, e4, e5⟩ := idx_facts0 t
  funext j
  obtain ⟨p, q, rfl⟩ : ∃ (p : Fin 10000) (q : Fin 16), j = ix2 p q := ⟨j 0, j 1, eq_ix2 j⟩
  show k0_pay1 (F := Ideal) (iblk0 V c 0 t) (iblk0 V c 1 t) (ix2 p q)
    = Cert.ReferenceIdeal.Read.val_main_v35 (F := Ideal) (V c main_arg0) (V c main_arg4) (((cfg0.win 2).blk t).view.emb (ix2 p q))
  refine (pay0_apply _ _ p q).trans ?_
  rw [Cert.ReferenceIdeal.Read.val_main_v35_apply]
  refine Finset.sum_congr rfl fun k _ => ?_
  show HMul.hMul (α := EReal) (β := EReal) (γ := EReal) (V c main_arg0 (((cfg0.win 0).blk t).view.emb (ix2 p k))) (V c main_arg4 (((cfg0.win 1).blk t).view.emb (ix2 k q))) = _
  have h0 : ((cfg0.win 0).blk t).view.emb (ix2 p k) = Cert.ReferenceIdeal.Read.lidx_main_v35 (((cfg0.win 2).blk t).view.emb (ix2 p q)) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have h1 : ((cfg0.win 1).blk t).view.emb (ix2 k q) = Cert.ReferenceIdeal.Read.ridx_main_v35 (((cfg0.win 2).blk t).view.emb (ix2 p q)) k := by
    funext a; apply Fin.ext
    match a with
    | ⟨0, _⟩ => show win0_1.index t (0 : Fin 2) * 64 + 1 * k.val = k.val; omega
    | ⟨1, _⟩ => show win0_1.index t (1 : Fin 2) * 16 + 1 * q.val = win0_2.index t (1 : Fin 2) * 16 + 1 * q.val; omega
  rw [h0, h1]

/-- An index of the output array is in point t's block iff each coordinate is in the block's range on its axis. -/
theorem mem_blk0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v35).slice (win0_2.rect t)).set ↔ _
  rw [View.set_slice_whole, Rect.mem_set_unit]
  exact Iff.rfl

/-- The row blocks cover the array: row r is in the block of point r / 10000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The output array of region 0 after its grid: the reference's product of the two argument arrays. -/
theorem arr0_eq (c : Dev nD) :
    (dat0 (F := Ideal) V c).arrAt 2 cfg0.N = Cert.ReferenceIdeal.Read.val_main_v35 (F := Ideal) (V c main_arg0) (V c main_arg4) :=
  (dat0 (F := Ideal) V c).arrAt_eq_of_cover 2 _ (fun t _ => flushed0_eq V c t) cover0

/-! ## Region 2: the payload at an index -/

theorem lhs_pay2_0 (i : S10000x16.Idx) (q : dot_S10000x16_S16x16_S10000x16_1_0_0_1_n_n.contr.Idx) :
    (dot_S10000x16_S16x16_S10000x16_1_0_0_1_n_n.lhsIdx i q 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
theorem lhs_pay2_1 (i : S10000x16.Idx) (q : dot_S10000x16_S16x16_S10000x16_1_0_0_1_n_n.contr.Idx) :
    (dot_S10000x16_S16x16_S10000x16_1_0_0_1_n_n.lhsIdx i q 1).val = (q ⟨0, by decide⟩).val :=
  dot_S10000x16_S16x16_S10000x16_1_0_0_1_n_n.lhsIdx_val_of_single rfl i q
theorem rhs_pay2_0 (i : S10000x16.Idx) (q : dot_S10000x16_S16x16_S10000x16_1_0_0_1_n_n.contr.Idx) :
    (dot_S10000x16_S16x16_S10000x16_1_0_0_1_n_n.rhsIdx i q 0).val = (q ⟨0, by decide⟩).val :=
  dot_S10000x16_S16x16_S10000x16_1_0_0_1_n_n.rhsIdx_val_of_single rfl i q
theorem rhs_pay2_1 (i : S10000x16.Idx) (q : dot_S10000x16_S16x16_S10000x16_1_0_0_1_n_n.contr.Idx) :
    (dot_S10000x16_S16x16_S10000x16_1_0_0_1_n_n.rhsIdx i q 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl

/-- The body's product at row p, column q of the block: the sum over the contraction coordinate k of the row block's
    entry (p, k) times the weight matrix's entry (k, q). -/
theorem pay2_apply (x0 : Vec Ideal S10000x16 .f32) (w : Vec Ideal S16x16 .f32) (p : Fin 10000) (q : Fin 16) :
    k2_pay1 (F := Ideal) x0 w (ix2 p q) = ∑ k : Fin 16, x0 (ix2 p k) * w (ix2 k q) := by
  unfold k2_pay1
  simp only [matmul, shapeCast_self]
  rw [Ideal.matmul_constant_zero_apply, ← Equiv.sum_comp (ValueIdx.contrEquiv1 dot_S10000x16_S16x16_S10000x16_1_0_0_1_n_n 16 rfl rfl).symm]
  refine Finset.sum_congr rfl fun k _ => ?_
  have hk := ValueIdx.contrEquiv1_symm_val dot_S10000x16_S16x16_S10000x16_1_0_0_1_n_n 16 rfl rfl k
  have el : dot_S10000x16_S16x16_S10000x16_1_0_0_1_n_n.lhsIdx (ix2 p q) ((ValueIdx.contrEquiv1 dot_S10000x16_S16x16_S10000x16_1_0_0_1_n_n 16 rfl rfl).symm k) = ix2 p k := funext fun a => Fin.ext (by
    match a with
    | ⟨0, _⟩ => exact lhs_pay2_0 _ _
    | ⟨1, _⟩ => exact (lhs_pay2_1 _ _).trans hk)
  have er : dot_S10000x16_S16x16_S10000x16_1_0_0_1_n_n.rhsIdx (ix2 p q) ((ValueIdx.contrEquiv1 dot_S10000x16_S16x16_S10000x16_1_0_0_1_n_n 16 rfl rfl).symm k) = ix2 k q := funext fun a => Fin.ext (by
    match a with
    | ⟨0, _⟩ => exact (rhs_pay2_0 _ _).trans hk
    | ⟨1, _⟩ => exact rhs_pay2_1 _ _)
  rw [truncf_apply, truncf_apply, el, er]

/-! ## Region 2: what a grid point writes back -/

/-- The index maps over the grid: the row block and the output block move together along the rows, at the point's
    number; the weight matrix's block never moves; no window moves along the columns. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

section Region2

/-- What point t writes back is block t of any array G whose entry (r, q) is the sum over k of A (r, k) W (k, q),
    where A and W are what the region finds in its two input arrays. -/
theorem flushed2_of (c : Dev nD) (t : Fin cfg2.N) (A : Vec Ideal S100000x16 .f32) (W : Vec Ideal S16x16 .f32)
    (G : Vec Ideal S100000x16 .f32) (ha : V c main_v50 = A) (hb : V c main_arg6 = W)
    (hG : ∀ (r : Fin 100000) (q : Fin 16), G (ix2 r q) = ∑ k : Fin 16, A (ix2 r k) * W (ix2 k q)) :
    (dat2 (F := Ideal) V c).flushed 2 t = ((cfg2.win 2).blk t).view.read (Elt Ideal) G := by
  show (cfg2.win 2).cut (grid2.coords t) ((dat2 V c).after 2 t) = _
  rw [after2_2]
  unfold out2_2
  rw [View.canon_unit_zero hz_mat]
  simp only [View.ld_unit_zero (S := S10000x16) hz_mat, View.ld_unit_zero (S := S16x16) hz_mat]
  obtain ⟨e0, e1, e2, e3, e4, e5⟩ := idx_facts2 t
  have hN : cfg2.N = 10 := N_2
  have ht : t.val < 10 := by have := t.isLt; omega
  funext j
  obtain ⟨p, q, rfl⟩ : ∃ (p : Fin 10000) (q : Fin 16), j = ix2 p q := ⟨j 0, j 1, eq_ix2 j⟩
  have hr : t.val * 10000 + p.val < 100000 := by have := p.isLt; omega
  show k2_pay1 (F := Ideal) (iblk2 V c 0 t) (iblk2 V c 1 t) (ix2 p q) = G (((cfg2.win 2).blk t).view.emb (ix2 p q))
  have hemb : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 16 + 1 * q.val = q.val; omega
  rw [hemb, hG]
  refine (pay2_apply _ _ p q).trans ?_
  refine Finset.sum_congr rfl fun k _ => ?_
  show HMul.hMul (α := EReal) (β := EReal) (γ := EReal) (V c main_v50 (((cfg2.win 0).blk t).view.emb (ix2 p k))) (V c main_arg6 (((cfg2.win 1).blk t).view.emb (ix2 k q))) = _
  have h0 : ((cfg2.win 0).blk t).view.emb (ix2 p k) = ix2 (⟨t.val * 10000 + p.val, hr⟩ : Fin 100000) k := by
    funext a; apply Fin.ext
    match a with
    | ⟨0, _⟩ => show win2_0.index t (0 : Fin 2) * 10000 + 1 * p.val = t.val * 10000 + p.val; omega
    | ⟨1, _⟩ => show win2_0.index t (1 : Fin 2) * 16 + 1 * k.val = k.val; omega
  have h1 : ((cfg2.win 1).blk t).view.emb (ix2 k q) = ix2 k q := by
    funext a; apply Fin.ext
    match a with
    | ⟨0, _⟩ => show win2_1.index t (0 : Fin 2) * 16 + 1 * k.val = k.val; omega
    | ⟨1, _⟩ => show win2_1.index t (1 : Fin 2) * 16 + 1 * q.val = q.val; omega
  rw [ha, hb, h0, h1]

/-- An index of the output array is in point t's block iff each coordinate is in the block's range on its axis. -/
theorem mem_blk2 (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v51).slice (win2_2.rect t)).set ↔ _
  rw [View.set_slice_whole, Rect.mem_set_unit]
  exact Iff.rfl

/-- The row blocks cover the array: row r is in the block of point r / 10000. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- The output array of region 2 after its grid is any array G whose entry (r, q) is the sum over k of
    A (r, k) W (k, q), where A and W are what the region finds in its two input arrays. -/
theorem arr2_of (c : Dev nD) (A : Vec Ideal S100000x16 .f32) (W : Vec Ideal S16x16 .f32)
    (G : Vec Ideal S100000x16 .f32) (ha : V c main_v50 = A) (hb : V c main_arg6 = W)
    (hG : ∀ (r : Fin 100000) (q : Fin 16), G (ix2 r q) = ∑ k : Fin 16, A (ix2 r k) * W (ix2 k q)) :
    (dat2 (F := Ideal) V c).arrAt 2 cfg2.N = G :=
  (dat2 (F := Ideal) V c).arrAt_eq_of_cover 2 G (fun t _ => flushed2_of V c t A W G ha hb hG) cover2

end Region2

/-- The reference's second product at row r, column q: the sum over k of its left operand's entry (r, k) times the
    second weight matrix's entry (k, q). -/
theorem ref84_apply (x0 : (⟨Cert.ReferenceIdeal.S100000x64, .f32⟩ : BufTy).Contents (Elt Ideal))
    (x1 : (⟨Cert.ReferenceIdeal.S2x3200000, .i32⟩ : BufTy).Contents (Elt Ideal))
    (x2 : (⟨Cert.ReferenceIdeal.S3200000, .f32⟩ : BufTy).Contents (Elt Ideal))
    (x4 : (⟨Cert.ReferenceIdeal.S64x16, .f32⟩ : BufTy).Contents (Elt Ideal))
    (x5 : (⟨Cert.ReferenceIdeal.S16, .f32⟩ : BufTy).Contents (Elt Ideal))
    (x6 : (⟨Cert.ReferenceIdeal.S16x16, .f32⟩ : BufTy).Contents (Elt Ideal)) (r : Fin 100000) (q : Fin 16) :
    Cert.ReferenceIdeal.Read.val_main_v84 (F := Ideal) x0 x1 x2 x4 x5 x6 (ix2 r q)
      = ∑ k : Fin 16, Cert.ReferenceIdeal.Read.val_main_v52 (F := Ideal) x0 x1 x2 x4 x5 (ix2 r k) * x6 (ix2 k q) := by
  rw [Cert.ReferenceIdeal.Read.val_main_v84_apply]
  generalize Cert.ReferenceIdeal.Read.val_main_v52 (F := Ideal) x0 x1 x2 x4 x5 = A
  refine Finset.sum_congr rfl fun k _ => ?_
  have el : Cert.ReferenceIdeal.Read.lidx_main_v84 (ix2 r q) k = ix2 r k := funext fun a => by
    match a with
    | ⟨0, _⟩ => rfl
    | ⟨1, _⟩ => rfl
  have er : Cert.ReferenceIdeal.Read.ridx_main_v84 (ix2 r q) k = ix2 k q := funext fun a => by
    match a with
    | ⟨0, _⟩ => rfl
    | ⟨1, _⟩ => rfl
  rw [el, er]

/-- The output array of region 2 after its grid: the reference's product of the activation array and the second
    weight matrix. -/
theorem arr2_eq (c : Dev nD) (x0 : (⟨Cert.ReferenceIdeal.S100000x64, .f32⟩ : BufTy).Contents (Elt Ideal))
    (x1 : (⟨Cert.ReferenceIdeal.S2x3200000, .i32⟩ : BufTy).Contents (Elt Ideal))
    (x2 : (⟨Cert.ReferenceIdeal.S3200000, .f32⟩ : BufTy).Contents (Elt Ideal))
    (x4 : (⟨Cert.ReferenceIdeal.S64x16, .f32⟩ : BufTy).Contents (Elt Ideal))
    (x5 : (⟨Cert.ReferenceIdeal.S16, .f32⟩ : BufTy).Contents (Elt Ideal))
    (x6 : (⟨Cert.ReferenceIdeal.S16x16, .f32⟩ : BufTy).Contents (Elt Ideal))
    (ha : V c main_v50 = Cert.ReferenceIdeal.Read.val_main_v52 (F := Ideal) x0 x1 x2 x4 x5) (hb : V c main_arg6 = x6) :
    (dat2 (F := Ideal) V c).arrAt 2 cfg2.N = Cert.ReferenceIdeal.Read.val_main_v84 (F := Ideal) x0 x1 x2 x4 x5 x6 :=
  arr2_of V c _ _ _ ha hb (ref84_apply x0 x1 x2 x4 x5 x6)

end Cert.KernelIdeal.Hand

end
-- ==== Proof.ValBias.lean ====
/-
  The value of the two bias-and-rectifier regions of the idealized kernel program, at the exact instance.
  Region 1 (and region 3, the same text) runs over ten row blocks of 10000 rows: at each point the body leaves in the
  output block the maximum of zero and the point's row block plus the bias row. Here: the payload read at one entry of a
  block; what a point writes back, as the block of ONE whole-array function; the blocks cover the array; so the output
  array after the run is, entry by entry, the maximum of zero and the row-block array's entry plus the bias row's entry
  of the same column, which is the reference's rectified sum read at that entry.
-/
import proofs.«406625_j53764400611916_2_alg».proof.Proof.KI.Reg1
import proofs.«406625_j53764400611916_2_alg».proof.Proof.KI.Reg3
import proofs.«406625_j53764400611916_2_alg».proof.Proof.Gen.ReferenceIdeal.Read
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.ReferenceIdeal.Read (val_main_v48 val_main_v49 val_main_v50 val_main_v51 val_main_v52 val_main_call2_v0 val_main_call2_cst
  val_main_v97 val_main_v98 val_main_v99 val_main_v100 val_main_v101 val_main_call5_v0 val_main_call5_cst)

/-- The whole-buffer rectangles sit at zero offsets. -/
theorem zero_offsets : (![0, 0] : Fin 2 → Nat) = fun _ => 0 := funext fun a => by fin_cases a <;> rfl

/-! ## Region 1: the bias added to a row block, then the maximum with zero -/

/-- The bias row broadcast over the rows of a block reads, at row p and column q, the row's entry q. -/
theorem bias_row1_apply (b : Vec Ideal S1x16 .f32) (p : Fin 10000) (q : Fin 16) :
    broadcastTo (α := Ideal .f32) S10000x16 b broadcasts_S1x16_S10000x16 (ix2 p q) = b (ix2 0 q) := by
  refine broadcastTo_apply (α := Ideal .f32) b broadcasts_S1x16_S10000x16 (ix2 p q) (ix2 0 q) (fun a => ?_)
  match a with
  | ⟨0, _⟩ => show (0 : Nat) = if (1 : Nat) = 1 then 0 else _; rw [if_pos rfl]
  | ⟨1, _⟩ => show q.val = if (16 : Nat) = 1 then 0 else q.val; rw [if_neg (by decide)]

/-- The body's payload at row p, column q of the block: the maximum of zero and the block's entry plus the bias row's entry q. -/
theorem pay1_apply (a : Vec Ideal S10000x16 .f32) (b : Vec Ideal S1x16 .f32) (p : Fin 10000) (q : Fin 16) :
    k1_pay1 (F := Ideal) a b (ix2 p q)
      = FloatOps.maximumf (FloatOps.addf (a (ix2 p q)) (b (ix2 0 q))) (FloatOps.ofBits .f32 0x00000000#32) := by
  unfold k1_pay1
  simp only [shapeCast_self]
  show FloatOps.maximumf (FloatOps.addf (a (ix2 p q)) (broadcastTo (α := Ideal .f32) S10000x16 b broadcasts_S1x16_S10000x16 (ix2 p q))) _ = _
  rw [bias_row1_apply]
  rfl

/-- The same at any index of the block, with the two entries named. -/
theorem pay1_at (a : Vec Ideal S10000x16 .f32) (b : Vec Ideal S1x16 .f32) (j : S10000x16.Idx) (u v : Ideal .f32)
    (hu : a j = u) (hv : b (ix2 0 (j 1)) = v) :
    k1_pay1 (F := Ideal) a b j = FloatOps.maximumf (FloatOps.addf u v) (FloatOps.ofBits .f32 0x00000000#32) := by
  obtain ⟨p, q, rfl⟩ : ∃ (p : Fin 10000) (q : Fin 16), j = ix2 p q := ⟨j 0, j 1, eq_ix2 j⟩
  rw [pay1_apply, ← hu, ← hv]

/-- The block index maps over the grid: the row block and the output move with the point, the bias row stays. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point t writes back is block t of any array G that is, entry by entry, the maximum of zero and
    the row-block array's entry plus the bias row's entry of the same column. -/
theorem flushed1_eq (c : Dev nD) (A G : (⟨S100000x16, .f32⟩ : BufTy).Contents (Elt Ideal)) (B : (⟨S1x16, .f32⟩ : BufTy).Contents (Elt Ideal))
    (ha : V c main_v48 = A) (hb : V c main_v49 = B)
    (hG : ∀ i : S100000x16.Idx, G i = FloatOps.maximumf (F := Ideal) (φ := .f32) (FloatOps.addf (F := Ideal) (φ := .f32) (A i) (B (ix2 0 (i 1)))) (FloatOps.ofBits (F := Ideal) .f32 0x00000000#32))
    (t : Fin cfg1.N) :
    (dat1 (F := Ideal) V c).flushed 2 t = ((cfg1.win 2).blk t).view.read (Elt Ideal) G := by
  show (cfg1.win 2).cut (grid1.coords t) ((dat1 (F := Ideal) V c).after 2 t) = _
  rw [after1_2]
  unfold out1_2
  rw [View.canon_unit_zero zero_offsets]
  simp only [View.ld_unit_zero (S := S10000x16) zero_offsets, View.ld_unit_zero (S := S1x16) zero_offsets]
  obtain ⟨e0, e1, e2, e3, e4, e5⟩ := index_maps1 t
  funext j
  show k1_pay1 (F := Ideal) (iblk1 V c 0 t) (iblk1 V c 1 t) j = G (((cfg1.win 2).blk t).view.emb j)
  rw [hG]
  refine pay1_at _ _ j _ _ ?_ ?_
  · show V c main_v48 (((cfg1.win 0).blk t).view.emb j) = _
    rw [ha]
    refine congrArg A (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * (j 1).val = win1_2.index t (1 : Fin 2) * 16 + 1 * (j 1).val; omega
  · show V c main_v49 (((cfg1.win 1).blk t).view.emb (ix2 0 (j 1))) = _
    rw [hb]
    refine congrArg B (funext fun a => Fin.ext ?_)
    match a with
    | ⟨0, _⟩ => show win1_1.index t (0 : Fin 2) * 1 + 1 * 0 = 0; omega
    | ⟨1, _⟩ => show win1_1.index t (1 : Fin 2) * 16 + 1 * (j 1).val = win1_2.index t (1 : Fin 2) * 16 + 1 * (j 1).val; omega

/-- An index of the array is in point t's block iff each coordinate is in the block's range on its axis. -/
theorem mem_blk1 (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v50).slice (win1_2.rect t)).set ↔ _
  rw [View.set_slice_whole, Rect.mem_set_unit]
  exact Iff.rfl

/-- Every row is in the block of the point its row number divided by the block's height names. -/
theorem cover1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : grid1.N = 10 := N_1
  let t : Fin cfg1.N := ⟨(i 0).val / 10000, by show (i 0).val / 10000 < grid1.N; rw [hN]; omega⟩
  obtain ⟨e0, e1, e2, e3, e4, e5⟩ := index_maps1 t
  have ht : t.val = (i 0).val / 10000 := rfl
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The output array of region 1 after the run is any such G. -/
theorem arr1_of (c : Dev nD) (A G : (⟨S100000x16, .f32⟩ : BufTy).Contents (Elt Ideal)) (B : (⟨S1x16, .f32⟩ : BufTy).Contents (Elt Ideal))
    (ha : V c main_v48 = A) (hb : V c main_v49 = B)
    (hG : ∀ i : S100000x16.Idx, G i = FloatOps.maximumf (F := Ideal) (φ := .f32) (FloatOps.addf (F := Ideal) (φ := .f32) (A i) (B (ix2 0 (i 1)))) (FloatOps.ofBits (F := Ideal) .f32 0x00000000#32)) :
    (dat1 (F := Ideal) V c).arrAt 2 cfg1.N = G :=
  (dat1 (F := Ideal) V c).arrAt_eq_of_cover 2 G (fun t _ => flushed1_eq V c A G B ha hb hG t) (cover1)

/-- The reference's rectified sum, entry by entry. -/
theorem ref1_apply (x0 : (⟨Cert.ReferenceIdeal.S100000x64, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x4 : (⟨Cert.ReferenceIdeal.S64x16, .f32⟩ : BufTy).Contents (Elt Ideal)) (x5 : (⟨Cert.ReferenceIdeal.S16, .f32⟩ : BufTy).Contents (Elt Ideal)) (i : Cert.ReferenceIdeal.S100000x16.Idx) :
    val_main_v52 (F := Ideal) x0 x1 x2 x4 x5 i
      = FloatOps.maximumf (F := Ideal) (φ := .f32) (FloatOps.addf (F := Ideal) (φ := .f32) (val_main_v48 (F := Ideal) x0 x1 x2 x4 i) (val_main_v49 (F := Ideal) x5 (ix2 0 (i 1)))) (FloatOps.ofBits (F := Ideal) .f32 0x00000000#32) := by
  have hidx : Cert.ReferenceIdeal.Read.idx_main_v50 i = ix2 0 (i 1) :=
    funext fun a => Fin.ext (by match a with | ⟨0, _⟩ => rfl | ⟨1, _⟩ => rfl)
  rw [Cert.ReferenceIdeal.Read.val_main_v52_apply, Cert.ReferenceIdeal.Read.val_main_v51_apply, Cert.ReferenceIdeal.Read.val_main_v50_apply,
    Cert.ReferenceIdeal.Read.val_main_call2_v0_apply, Cert.ReferenceIdeal.Read.val_main_call2_cst_apply, hidx]
  generalize val_main_v48 (F := Ideal) x0 x1 x2 x4 i = u
  generalize val_main_v49 (F := Ideal) x5 = B
  rfl

/-- The output array of region 1 after the run is the reference's rectified sum. -/
theorem arr1_eq (c : Dev nD) (x0 : (⟨Cert.ReferenceIdeal.S100000x64, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x4 : (⟨Cert.ReferenceIdeal.S64x16, .f32⟩ : BufTy).Contents (Elt Ideal)) (x5 : (⟨Cert.ReferenceIdeal.S16, .f32⟩ : BufTy).Contents (Elt Ideal))
    (ha : V c main_v48 = val_main_v48 (F := Ideal) x0 x1 x2 x4) (hb : V c main_v49 = val_main_v49 (F := Ideal) x5) :
    (dat1 (F := Ideal) V c).arrAt 2 cfg1.N = val_main_v52 (F := Ideal) x0 x1 x2 x4 x5 := by
  have hG := ref1_apply x0 x1 x2 x4 x5
  generalize val_main_v52 (F := Ideal) x0 x1 x2 x4 x5 = G at hG ⊢
  generalize val_main_v48 (F := Ideal) x0 x1 x2 x4 = A at ha hG
  generalize val_main_v49 (F := Ideal) x5 = B at hb hG
  exact arr1_of V c A G B ha hb hG

end

/-! ## Region 3: the bias added to a row block, then the maximum with zero -/

/-- The bias row broadcast over the rows of a block reads, at row p and column q, the row's entry q. -/
theorem bias_row3_apply (b : Vec Ideal S1x16 .f32) (p : Fin 10000) (q : Fin 16) :
    broadcastTo (α := Ideal .f32) S10000x16 b broadcasts_S1x16_S10000x16 (ix2 p q) = b (ix2 0 q) := by
  refine broadcastTo_apply (α := Ideal .f32) b broadcasts_S1x16_S10000x16 (ix2 p q) (ix2 0 q) (fun a => ?_)
  match a with
  | ⟨0, _⟩ => show (0 : Nat) = if (1 : Nat) = 1 then 0 else _; rw [if_pos rfl]
  | ⟨1, _⟩ => show q.val = if (16 : Nat) = 1 then 0 else q.val; rw [if_neg (by decide)]

/-- The body's payload at row p, column q of the block: the maximum of zero and the block's entry plus the bias row's entry q. -/
theorem pay3_apply (a : Vec Ideal S10000x16 .f32) (b : Vec Ideal S1x16 .f32) (p : Fin 10000) (q : Fin 16) :
    k3_pay1 (F := Ideal) a b (ix2 p q)
      = FloatOps.maximumf (FloatOps.addf (a (ix2 p q)) (b (ix2 0 q))) (FloatOps.ofBits .f32 0x00000000#32) := by
  unfold k3_pay1
  simp only [shapeCast_self]
  show FloatOps.maximumf (FloatOps.addf (a (ix2 p q)) (broadcastTo (α := Ideal .f32) S10000x16 b broadcasts_S1x16_S10000x16 (ix2 p q))) _ = _
  rw [bias_row3_apply]
  rfl

/-- The same at any index of the block, with the two entries named. -/
theorem pay3_at (a : Vec Ideal S10000x16 .f32) (b : Vec Ideal S1x16 .f32) (j : S10000x16.Idx) (u v : Ideal .f32)
    (hu : a j = u) (hv : b (ix2 0 (j 1)) = v) :
    k3_pay1 (F := Ideal) a b j = FloatOps.maximumf (FloatOps.addf u v) (FloatOps.ofBits .f32 0x00000000#32) := by
  obtain ⟨p, q, rfl⟩ : ∃ (p : Fin 10000) (q : Fin 16), j = ix2 p q := ⟨j 0, j 1, eq_ix2 j⟩
  rw [pay3_apply, ← hu, ← hv]

/-- The block index maps over the grid: the row block and the output move with the point, the bias row stays. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What point t writes back is block t of any array G that is, entry by entry, the maximum of zero and
    the row-block array's entry plus the bias row's entry of the same column. -/
theorem flushed3_eq (c : Dev nD) (A G : (⟨S100000x16, .f32⟩ : BufTy).Contents (Elt Ideal)) (B : (⟨S1x16, .f32⟩ : BufTy).Contents (Elt Ideal))
    (ha : V c main_v64 = A) (hb : V c main_v65 = B)
    (hG : ∀ i : S100000x16.Idx, G i = FloatOps.maximumf (F := Ideal) (φ := .f32) (FloatOps.addf (F := Ideal) (φ := .f32) (A i) (B (ix2 0 (i 1)))) (FloatOps.ofBits (F := Ideal) .f32 0x00000000#32))
    (t : Fin cfg3.N) :
    (dat3 (F := Ideal) V c).flushed 2 t = ((cfg3.win 2).blk t).view.read (Elt Ideal) G := by
  show (cfg3.win 2).cut (grid3.coords t) ((dat3 (F := Ideal) V c).after 2 t) = _
  rw [after3_2]
  unfold out3_2
  rw [View.canon_unit_zero zero_offsets]
  simp only [View.ld_unit_zero (S := S10000x16) zero_offsets, View.ld_unit_zero (S := S1x16) zero_offsets]
  obtain ⟨e0, e1, e2, e3, e4, e5⟩ := index_maps3 t
  funext j
  show k3_pay1 (F := Ideal) (iblk3 V c 0 t) (iblk3 V c 1 t) j = G (((cfg3.win 2).blk t).view.emb j)
  rw [hG]
  refine pay3_at _ _ j _ _ ?_ ?_
  · show V c main_v64 (((cfg3.win 0).blk t).view.emb j) = _
    rw [ha]
    refine congrArg A (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 16 + 1 * (j 1).val = win3_2.index t (1 : Fin 2) * 16 + 1 * (j 1).val; omega
  · show V c main_v65 (((cfg3.win 1).blk t).view.emb (ix2 0 (j 1))) = _
    rw [hb]
    refine congrArg B (funext fun a => Fin.ext ?_)
    match a with
    | ⟨0, _⟩ => show win3_1.index t (0 : Fin 2) * 1 + 1 * 0 = 0; omega
    | ⟨1, _⟩ => show win3_1.index t (1 : Fin 2) * 16 + 1 * (j 1).val = win3_2.index t (1 : Fin 2) * 16 + 1 * (j 1).val; omega

/-- An index of the array is in point t's block iff each coordinate is in the block's range on its axis. -/
theorem mem_blk3 (t : Fin cfg3.N) (i : S100000x16.Idx) :
    i ∈ ((cfg3.win 2).blk t).view.set ↔ ∀ a : Fin 2, win3_2.index t a * S10000x16.size a ≤ (i a).val ∧ (i a).val < win3_2.index t a * S10000x16.size a + S10000x16.size a := by
  show i ∈ ((View.whole main_v66).slice (win3_2.rect t)).set ↔ _
  rw [View.set_slice_whole, Rect.mem_set_unit]
  exact Iff.rfl

/-- Every row is in the block of the point its row number divided by the block's height names. -/
theorem cover3 (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hN : grid3.N = 10 := N_3
  let t : Fin cfg3.N := ⟨(i 0).val / 10000, by show (i 0).val / 10000 < grid3.N; rw [hN]; omega⟩
  obtain ⟨e0, e1, e2, e3, e4, e5⟩ := index_maps3 t
  have ht : t.val = (i 0).val / 10000 := rfl
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 16 ≤ (i 1).val ∧ (i 1).val < win3_2.index t (1 : Fin 2) * 16 + 16; omega

/-- The output array of region 3 after the run is any such G. -/
theorem arr3_of (c : Dev nD) (A G : (⟨S100000x16, .f32⟩ : BufTy).Contents (Elt Ideal)) (B : (⟨S1x16, .f32⟩ : BufTy).Contents (Elt Ideal))
    (ha : V c main_v64 = A) (hb : V c main_v65 = B)
    (hG : ∀ i : S100000x16.Idx, G i = FloatOps.maximumf (F := Ideal) (φ := .f32) (FloatOps.addf (F := Ideal) (φ := .f32) (A i) (B (ix2 0 (i 1)))) (FloatOps.ofBits (F := Ideal) .f32 0x00000000#32)) :
    (dat3 (F := Ideal) V c).arrAt 2 cfg3.N = G :=
  (dat3 (F := Ideal) V c).arrAt_eq_of_cover 2 G (fun t _ => flushed3_eq V c A G B ha hb hG t) (cover3)

/-- The reference's rectified sum, entry by entry. -/
theorem ref3_apply (x0 : (⟨Cert.ReferenceIdeal.S100000x64, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x4 : (⟨Cert.ReferenceIdeal.S64x16, .f32⟩ : BufTy).Contents (Elt Ideal)) (x5 : (⟨Cert.ReferenceIdeal.S16, .f32⟩ : BufTy).Contents (Elt Ideal)) (x6 : (⟨Cert.ReferenceIdeal.S16x16, .f32⟩ : BufTy).Contents (Elt Ideal)) (x7 : (⟨Cert.ReferenceIdeal.S16, .f32⟩ : BufTy).Contents (Elt Ideal)) (i : Cert.ReferenceIdeal.S100000x16.Idx) :
    val_main_v101 (F := Ideal) x0 x1 x2 x4 x5 x6 x7 i
      = FloatOps.maximumf (F := Ideal) (φ := .f32) (FloatOps.addf (F := Ideal) (φ := .f32) (val_main_v97 (F := Ideal) x0 x1 x2 x4 x5 x6 i) (val_main_v98 (F := Ideal) x7 (ix2 0 (i 1)))) (FloatOps.ofBits (F := Ideal) .f32 0x00000000#32) := by
  have hidx : Cert.ReferenceIdeal.Read.idx_main_v99 i = ix2 0 (i 1) :=
    funext fun a => Fin.ext (by match a with | ⟨0, _⟩ => rfl | ⟨1, _⟩ => rfl)
  rw [Cert.ReferenceIdeal.Read.val_main_v101_apply, Cert.ReferenceIdeal.Read.val_main_v100_apply, Cert.ReferenceIdeal.Read.val_main_v99_apply,
    Cert.ReferenceIdeal.Read.val_main_call5_v0_apply, Cert.ReferenceIdeal.Read.val_main_call5_cst_apply, hidx]
  generalize val_main_v97 (F := Ideal) x0 x1 x2 x4 x5 x6 i = u
  generalize val_main_v98 (F := Ideal) x7 = B
  rfl

/-- The output array of region 3 after the run is the reference's rectified sum. -/
theorem arr3_eq (c : Dev nD) (x0 : (⟨Cert.ReferenceIdeal.S100000x64, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x4 : (⟨Cert.ReferenceIdeal.S64x16, .f32⟩ : BufTy).Contents (Elt Ideal)) (x5 : (⟨Cert.ReferenceIdeal.S16, .f32⟩ : BufTy).Contents (Elt Ideal)) (x6 : (⟨Cert.ReferenceIdeal.S16x16, .f32⟩ : BufTy).Contents (Elt Ideal)) (x7 : (⟨Cert.ReferenceIdeal.S16, .f32⟩ : BufTy).Contents (Elt Ideal))
    (ha : V c main_v64 = val_main_v97 (F := Ideal) x0 x1 x2 x4 x5 x6) (hb : V c main_v65 = val_main_v98 (F := Ideal) x7) :
    (dat3 (F := Ideal) V c).arrAt 2 cfg3.N = val_main_v101 (F := Ideal) x0 x1 x2 x4 x5 x6 x7 := by
  have hG := ref3_apply x0 x1 x2 x4 x5 x6 x7
  generalize val_main_v101 (F := Ideal) x0 x1 x2 x4 x5 x6 x7 = G at hG ⊢
  generalize val_main_v97 (F := Ideal) x0 x1 x2 x4 x5 x6 = A at ha hG
  generalize val_main_v98 (F := Ideal) x7 = B at hb hG
  exact arr3_of V c A G B ha hb hG

end

end Cert.KernelIdeal.Hand

end
-- ==== Proof.LibScatterLand.lean ====
import Idealize.ShloMosaic.PureOps.Dims

/-!
  Where an update of a `stablehlo.scatter` lands.

  For any scatter dimension numbers, update index `j` lands on operand element `i` exactly when, on every
  operand axis, the start read off the scatter indices (signed, not clamped) plus the window coordinate
  equals `i`'s coordinate. An update whose start plus window coordinate leaves the operand on some axis
  lands on no element.
-/

namespace Idealize.ShloMosaic.ScatterLand

open Idealize.ShloMosaic

variable {s si u : Shape} (d : ScatterDims s si u)

/-- Update index `j` lands on operand element `i` if and only if, on every operand axis `a`, the start of
    the window plus the window coordinate is the coordinate of `i` on `a`. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hh =>
      have hi := congrFun (Option.some.inj h) a
      have hv := congrArg Fin.val hi
      have := hh a
      simp only at hv
      omega
    · cases h
  · intro h
    have hh : ∀ a, 0 ≤ d.start j idx a + d.window j a ∧ d.start j idx a + d.window j a < s.size a := by
      intro a
      have := h a
      have := (i a).isLt
      omega
    rw [dif_pos hh]
    refine congrArg some (funext fun a => Fin.ext ?_)
    have := h a
    show (d.start j idx a + d.window j a).toNat = (i a).val
    omega

/-- An update whose start plus window coordinate is outside the operand on some axis lands nowhere. -/
theorem resultIdx?_eq_none_of_outside {w : Nat} (j : u.Idx) (idx : IVec si w) (a : Fin s.rank)
    (h : d.start j idx a + (d.window j a : Int) < 0 ∨ (s.size a : Int) ≤ d.start j idx a + (d.window j a : Int)) :
    d.resultIdx? j idx = none := by
  unfold ScatterDims.resultIdx?
  rw [dif_neg]
  intro hh
  have := hh a
  omega

end Idealize.ShloMosaic.ScatterLand
-- ==== Proof.PoolSums.lean ====
/-
  Pooling by one-hot products over row blocks is the scatter-add over all rows.

  At the exact values, the kernel pools node features per graph in ten steps: at each step it forms, from a block of ten
  thousand rows' graph words, the one-hot matrix (row, graph) whose entry is one when the row's word is the word of the
  graph's number and zero otherwise, and adds to the running sums the product of its transpose with the block's features,
  and to the running counts the product of its transpose with a column of ones.  The reference scatters every row's
  features, and a one, onto the element its graph word names read as a signed number, dropping the rows whose word names
  no element.  For the 512 graphs the two conditions on a word agree, so after the ten steps the running sums and counts
  are the scattered sums and counts.
-/
import proofs.«406625_j53764400611916_2_alg».proof.Proof.Gen.KernelIdeal.Skeleton
import proofs.«406625_j53764400611916_2_alg».proof.Proof.Gen.ReferenceIdeal.Read
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws
import Idealize.ShloMosaic.Lib.IdealHost
import proofs.«406625_j53764400611916_2_alg».proof.Proof.LibScatterLand

noncomputable section

namespace Cert.PoolSums

open Idealize.ShloMosaic Idealize.ShloMosaic.ValueIdx Idealize.SL.Sem

/-- A column broadcast along the rows, read at an entry: the column's entry on that row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot matrix at an entry: one when the row's word is the word of the column, zero otherwise. -/
theorem onehot_apply (v4 : Vec Ideal Cert.KernelIdeal.S10000x1 .i32) (k : Fin 10000) (g : Fin 512) :
    Cert.KernelIdeal.Gen.k4_pay3 (F := Ideal) v4 (ix2 k g)
      = if v4 (ix2 k (0 : Fin 1)) = BitVec.ofNat 32 g.val then (1 : EReal) else 0 := by
  unfold Cert.KernelIdeal.Gen.k4_pay3
  simp only []
  rw [truncf_apply, sitofp_apply, extui_apply]
  show FloatOps.sitofp (F := Ideal) .f32 ((IntOp.cmpi .eq (broadcastTo _ _ _ (ix2 k g)) (broadcastTo _ _ _ (ix2 k g))).setWidth 32) = _
  rw [broadcastTo_a1_ab_apply, broadcastTo_1b_ab_apply, iota_single_apply, shapeCast_self]
  show FloatOps.sitofp (F := Ideal) .f32 ((IntOp.cmpi .eq (v4 (ix2 k (0 : Fin 1))) (BitVec.ofNat 32 g.val)).setWidth 32) = _
  by_cases h : v4 (ix2 k (0 : Fin 1)) = BitVec.ofNat 32 g.val
  · rw [if_pos h, h]
    have e : IntOp.cmpi .eq (BitVec.ofNat 32 g.val) (BitVec.ofNat 32 g.val) = 1#1 := by simp [IntOp.cmpi]
    rw [e]
    show (((BitVec.setWidth 32 1#1).toInt : ℝ) : EReal) = 1
    have e2 : (BitVec.setWidth 32 1#1).toInt = 1 := by decide
    rw [e2]; simp
  · rw [if_neg h]
    have e : IntOp.cmpi .eq (v4 (ix2 k (0 : Fin 1))) (BitVec.ofNat 32 g.val) = 0#1 := by
      have hb : (v4 (ix2 k (0 : Fin 1)) == BitVec.ofNat 32 g.val) = false := beq_eq_false_iff_ne.mpr h
      simp [IntOp.cmpi, hb]
    rw [e]
    show (((BitVec.setWidth 32 0#1).toInt : ℝ) : EReal) = 0
    have e2 : (BitVec.setWidth 32 0#1).toInt = 0 := by decide
    rw [e2]; simp

/-- The sum product's left index, on the contracted axis: the contraction coordinate. -/
theorem lhs16_0 (j : Cert.KernelIdeal.S512x16.Idx) (q : Cert.KernelIdeal.dot_S10000x512_S10000x16_S512x16_0_0_1_1_n_n.contr.Idx) :
    (Cert.KernelIdeal.dot_S10000x512_S10000x16_S512x16_0_0_1_1_n_n.lhsIdx j q 0).val = (q ⟨0, by decide⟩).val :=
  Cert.KernelIdeal.dot_S10000x512_S10000x16_S512x16_0_0_1_1_n_n.lhsIdx_val_of_single rfl j q
/-- The sum product's left index, on the kept axis: the output's row. -/
theorem lhs16_1 (j : Cert.KernelIdeal.S512x16.Idx) (q : Cert.KernelIdeal.dot_S10000x512_S10000x16_S512x16_0_0_1_1_n_n.contr.Idx) :
    (Cert.KernelIdeal.dot_S10000x512_S10000x16_S512x16_0_0_1_1_n_n.lhsIdx j q 1).val = (j 0).val := by
  unfold DotDims.lhsIdx
  rw [dif_neg (show ¬(1 : Fin Cert.KernelIdeal.S10000x512.rank) ∈ Cert.KernelIdeal.dot_S10000x512_S10000x16_S512x16_0_0_1_1_n_n.lhsBatch by decide), dif_pos (show (1 : Fin Cert.KernelIdeal.S10000x512.rank) ∈ Cert.KernelIdeal.dot_S10000x512_S10000x16_S512x16_0_0_1_1_n_n.lhsNonContracting by decide)]
  rfl
/-- The sum product's right index, on the contracted axis: the contraction coordinate. -/
theorem rhs16_0 (j : Cert.KernelIdeal.S512x16.Idx) (q : Cert.KernelIdeal.dot_S10000x512_S10000x16_S512x16_0_0_1_1_n_n.contr.Idx) :
    (Cert.KernelIdeal.dot_S10000x512_S10000x16_S512x16_0_0_1_1_n_n.rhsIdx j q 0).val = (q ⟨0, by decide⟩).val :=
  Cert.KernelIdeal.dot_S10000x512_S10000x16_S512x16_0_0_1_1_n_n.rhsIdx_val_of_single rfl j q
/-- The sum product's right index, on the kept axis: the output's column. -/
theorem rhs16_1 (j : Cert.KernelIdeal.S512x16.Idx) (q : Cert.KernelIdeal.dot_S10000x512_S10000x16_S512x16_0_0_1_1_n_n.contr.Idx) :
    (Cert.KernelIdeal.dot_S10000x512_S10000x16_S512x16_0_0_1_1_n_n.rhsIdx j q 1).val = (j 1).val := by
  unfold DotDims.rhsIdx
  rw [dif_neg (show ¬(1 : Fin Cert.KernelIdeal.S10000x16.rank) ∈ Cert.KernelIdeal.dot_S10000x512_S10000x16_S512x16_0_0_1_1_n_n.rhsBatch by decide), dif_pos (show (1 : Fin Cert.KernelIdeal.S10000x16.rank) ∈ Cert.KernelIdeal.dot_S10000x512_S10000x16_S512x16_0_0_1_1_n_n.rhsNonContracting by decide)]
  rfl

/-- The product of the transposed left operand with the right operand, into a zero splat, at an entry: the sum over the
    rows of left (row, g) times right (row, f). -/
theorem matmul16_apply (l : FVec Ideal Cert.KernelIdeal.S10000x512 .bf16) (r : FVec Ideal Cert.KernelIdeal.S10000x16 .bf16)
    (g : Fin 512) (f : Fin 16) :
    matmul Cert.KernelIdeal.dot_S10000x512_S10000x16_S512x16_0_0_1_1_n_n none l r (constant Cert.KernelIdeal.S512x16 .f32 0x00000000#32) (ix2 g f)
      = ∑ k : Fin 10000, l (ix2 k g) * r (ix2 k f) := by
  simp only [matmul]
  rw [Ideal.matmul_constant_zero_apply, ← Equiv.sum_comp (contrEquiv1 Cert.KernelIdeal.dot_S10000x512_S10000x16_S512x16_0_0_1_1_n_n 10000 rfl rfl).symm]
  refine Finset.sum_congr rfl fun k _ => ?_
  have hk := contrEquiv1_symm_val Cert.KernelIdeal.dot_S10000x512_S10000x16_S512x16_0_0_1_1_n_n 10000 rfl rfl k
  have el : Cert.KernelIdeal.dot_S10000x512_S10000x16_S512x16_0_0_1_1_n_n.lhsIdx (ix2 g f) ((contrEquiv1 Cert.KernelIdeal.dot_S10000x512_S10000x16_S512x16_0_0_1_1_n_n 10000 rfl rfl).symm k) = ix2 k g := funext fun a => Fin.ext (by
    match a with
    | ⟨0, _⟩ => exact (lhs16_0 _ _).trans hk
    | ⟨1, _⟩ => exact lhs16_1 _ _)
  have er : Cert.KernelIdeal.dot_S10000x512_S10000x16_S512x16_0_0_1_1_n_n.rhsIdx (ix2 g f) ((contrEquiv1 Cert.KernelIdeal.dot_S10000x512_S10000x16_S512x16_0_0_1_1_n_n 10000 rfl rfl).symm k) = ix2 k f := funext fun a => Fin.ext (by
    match a with
    | ⟨0, _⟩ => exact (rhs16_0 _ _).trans hk
    | ⟨1, _⟩ => exact rhs16_1 _ _)
  rw [el, er]

/-- The count product's left index, on the contracted axis: the contraction coordinate. -/
theorem lhs1_0 (j : Cert.KernelIdeal.S512x1.Idx) (q : Cert.KernelIdeal.dot_S10000x512_S10000x1_S512x1_0_0_1_1_n_n.contr.Idx) :
    (Cert.KernelIdeal.dot_S10000x512_S10000x1_S512x1_0_0_1_1_n_n.lhsIdx j q 0).val = (q ⟨0, by decide⟩).val :=
  Cert.KernelIdeal.dot_S10000x512_S10000x1_S512x1_0_0_1_1_n_n.lhsIdx_val_of_single rfl j q
/-- The count product's left index, on the kept axis: the output's row. -/
theorem lhs1_1 (j : Cert.KernelIdeal.S512x1.Idx) (q : Cert.KernelIdeal.dot_S10000x512_S10000x1_S512x1_0_0_1_1_n_n.contr.Idx) :
    (Cert.KernelIdeal.dot_S10000x512_S10000x1_S512x1_0_0_1_1_n_n.lhsIdx j q 1).val = (j 0).val := by
  unfold DotDims.lhsIdx
  rw [dif_neg (show ¬(1 : Fin Cert.KernelIdeal.S10000x512.rank) ∈ Cert.KernelIdeal.dot_S10000x512_S10000x1_S512x1_0_0_1_1_n_n.lhsBatch by decide), dif_pos (show (1 : Fin Cert.KernelIdeal.S10000x512.rank) ∈ Cert.KernelIdeal.dot_S10000x512_S10000x1_S512x1_0_0_1_1_n_n.lhsNonContracting by decide)]
  rfl
/-- The count product's right index, on the contracted axis: the contraction coordinate. -/
theorem rhs1_0 (j : Cert.KernelIdeal.S512x1.Idx) (q : Cert.KernelIdeal.dot_S10000x512_S10000x1_S512x1_0_0_1_1_n_n.contr.Idx) :
    (Cert.KernelIdeal.dot_S10000x512_S10000x1_S512x1_0_0_1_1_n_n.rhsIdx j q 0).val = (q ⟨0, by decide⟩).val :=
  Cert.KernelIdeal.dot_S10000x512_S10000x1_S512x1_0_0_1_1_n_n.rhsIdx_val_of_single rfl j q
/-- The count product's right index, on the kept axis: the output's column. -/
theorem rhs1_1 (j : Cert.KernelIdeal.S512x1.Idx) (q : Cert.KernelIdeal.dot_S10000x512_S10000x1_S512x1_0_0_1_1_n_n.contr.Idx) :
    (Cert.KernelIdeal.dot_S10000x512_S10000x1_S512x1_0_0_1_1_n_n.rhsIdx j q 1).val = (j 1).val := by
  unfold DotDims.rhsIdx
  rw [dif_neg (show ¬(1 : Fin Cert.KernelIdeal.S10000x1.rank) ∈ Cert.KernelIdeal.dot_S10000x512_S10000x1_S512x1_0_0_1_1_n_n.rhsBatch by decide), dif_pos (show (1 : Fin Cert.KernelIdeal.S10000x1.rank) ∈ Cert.KernelIdeal.dot_S10000x512_S10000x1_S512x1_0_0_1_1_n_n.rhsNonContracting by decide)]
  rfl

/-- The product of the transposed left operand with a column, into a zero splat, at an entry: the sum over the rows of
    left (row, g) times the column's entry on that row. -/
theorem matmul1_apply (l : FVec Ideal Cert.KernelIdeal.S10000x512 .bf16) (r : FVec Ideal Cert.KernelIdeal.S10000x1 .bf16)
    (g : Fin 512) (f : Fin 1) :
    matmul Cert.KernelIdeal.dot_S10000x512_S10000x1_S512x1_0_0_1_1_n_n none l r (constant Cert.KernelIdeal.S512x1 .f32 0x00000000#32) (ix2 g f)
      = ∑ k : Fin 10000, l (ix2 k g) * r (ix2 k f) := by
  simp only [matmul]
  rw [Ideal.matmul_constant_zero_apply, ← Equiv.sum_comp (contrEquiv1 Cert.KernelIdeal.dot_S10000x512_S10000x1_S512x1_0_0_1_1_n_n 10000 rfl rfl).symm]
  refine Finset.sum_congr rfl fun k _ => ?_
  have hk := contrEquiv1_symm_val Cert.KernelIdeal.dot_S10000x512_S10000x1_S512x1_0_0_1_1_n_n 10000 rfl rfl k
  have el : Cert.KernelIdeal.dot_S10000x512_S10000x1_S512x1_0_0_1_1_n_n.lhsIdx (ix2 g f) ((contrEquiv1 Cert.KernelIdeal.dot_S10000x512_S10000x1_S512x1_0_0_1_1_n_n 10000 rfl rfl).symm k) = ix2 k g := funext fun a => Fin.ext (by
    match a with
    | ⟨0, _⟩ => exact (lhs1_0 _ _).trans hk
    | ⟨1, _⟩ => exact lhs1_1 _ _)
  have er : Cert.KernelIdeal.dot_S10000x512_S10000x1_S512x1_0_0_1_1_n_n.rhsIdx (ix2 g f) ((contrEquiv1 Cert.KernelIdeal.dot_S10000x512_S10000x1_S512x1_0_0_1_1_n_n 10000 rfl rfl).symm k) = ix2 k f := funext fun a => Fin.ext (by
    match a with
    | ⟨0, _⟩ => exact (rhs1_0 _ _).trans hk
    | ⟨1, _⟩ => exact rhs1_1 _ _)
  rw [el, er]

/-! ## One grid point's payloads at an entry -/

/-- The sums start from zero. -/
theorem pay1_apply (g : Fin 512) (f : Fin 16) : Cert.KernelIdeal.Gen.k4_pay1 (F := Ideal) (ix2 g f) = 0 := by
  unfold Cert.KernelIdeal.Gen.k4_pay1
  rw [shapeCast_self, broadcast_apply]
  exact Ideal.ofBits_zero_f32

/-- The counts start from zero. -/
theorem pay2_apply (g : Fin 512) (f : Fin 1) : Cert.KernelIdeal.Gen.k4_pay2 (F := Ideal) (ix2 g f) = 0 := by
  unfold Cert.KernelIdeal.Gen.k4_pay2
  rw [shapeCast_self, broadcast_apply]
  exact Ideal.ofBits_zero_f32

/-- One point adds to the sum at (g, f) the features, at column f, of the block's rows whose word is the word of g. -/
theorem pay4_apply (v4 : Vec Ideal Cert.KernelIdeal.S10000x1 .i32) (v12 : Vec Ideal Cert.KernelIdeal.S10000x16 .f32)
    (v18 : Vec Ideal Cert.KernelIdeal.S512x16 .f32) (g : Fin 512) (f : Fin 16) :
    Cert.KernelIdeal.Gen.k4_pay4 (F := Ideal) v4 v12 v18 (ix2 g f)
      = v18 (ix2 g f) + ∑ k : Fin 10000, (if v4 (ix2 k (0 : Fin 1)) = BitVec.ofNat 32 g.val then v12 (ix2 k f) else 0) := by
  unfold Cert.KernelIdeal.Gen.k4_pay4
  rw [shapeCast_self, addf_apply, matmul16_apply]
  refine congrArg (v18 (ix2 g f) + ·) (Finset.sum_congr rfl fun k _ => ?_)
  rw [onehot_apply, truncf_apply, shapeCast_self]
  split
  · exact one_mul _
  · exact zero_mul _

/-- One point adds to the count at g the number of the block's rows whose word is the word of g. -/
theorem pay5_apply (v4 : Vec Ideal Cert.KernelIdeal.S10000x1 .i32) (v23 : Vec Ideal Cert.KernelIdeal.S512x1 .f32)
    (g : Fin 512) :
    Cert.KernelIdeal.Gen.k4_pay5 (F := Ideal) v4 v23 (ix2 g (0 : Fin 1))
      = v23 (ix2 g (0 : Fin 1)) + ∑ k : Fin 10000, (if v4 (ix2 k (0 : Fin 1)) = BitVec.ofNat 32 g.val then (1 : EReal) else 0) := by
  unfold Cert.KernelIdeal.Gen.k4_pay5
  rw [shapeCast_self, addf_apply, matmul1_apply]
  refine congrArg (v23 (ix2 g (0 : Fin 1)) + ·) (Finset.sum_congr rfl fun k _ => ?_)
  rw [onehot_apply, broadcast_apply]
  show _ * Ideal.ofBits .bf16 0x3F80#16 = _
  rw [Ideal.ofBits_one_bf16, mul_one]

/-- The sum scatter's start on the operand's row axis is the row's word read signed. -/
theorem start16_0 (B : IVec Cert.ReferenceIdeal.S100000x1 32) (r : Fin 100000) (f' : Fin 16) :
    Cert.ReferenceIdeal.scatter_S512x16_S100000x1_S100000x16_1_0_0_1.start (ix2 r f') B 0 = (B (ix2 r (0 : Fin 1))).toInt := by
  unfold ScatterDims.start
  rw [dif_pos (show (0 : Fin Cert.ReferenceIdeal.S512x16.rank) ∈ Cert.ReferenceIdeal.scatter_S512x16_S100000x1_S100000x16_1_0_0_1.scatterDimsToOperandDims by decide)]
  refine congrArg (fun i => (B i).toInt) (funext fun b => Fin.ext ?_)
  match b with
  | ⟨0, _⟩ => rfl
  | ⟨1, _⟩ => rfl

theorem start16_1 (B : IVec Cert.ReferenceIdeal.S100000x1 32) (r : Fin 100000) (f' : Fin 16) :
    Cert.ReferenceIdeal.scatter_S512x16_S100000x1_S100000x16_1_0_0_1.start (ix2 r f') B 1 = 0 := by
  unfold ScatterDims.start
  rw [dif_neg (show ¬ (1 : Fin Cert.ReferenceIdeal.S512x16.rank) ∈ Cert.ReferenceIdeal.scatter_S512x16_S100000x1_S100000x16_1_0_0_1.scatterDimsToOperandDims by decide)]

theorem window16_0 (r : Fin 100000) (f' : Fin 16) : Cert.ReferenceIdeal.scatter_S512x16_S100000x1_S100000x16_1_0_0_1.window (ix2 r f') 0 = 0 := by
  unfold ScatterDims.window
  rw [dif_neg (show ¬ (0 : Fin Cert.ReferenceIdeal.S512x16.rank) ∈ Cert.ReferenceIdeal.scatter_S512x16_S100000x1_S100000x16_1_0_0_1.sKept by decide)]

theorem window16_1 (r : Fin 100000) (f' : Fin 16) : Cert.ReferenceIdeal.scatter_S512x16_S100000x1_S100000x16_1_0_0_1.window (ix2 r f') 1 = f'.val := by
  unfold ScatterDims.window
  rw [dif_pos (show (1 : Fin Cert.ReferenceIdeal.S512x16.rank) ∈ Cert.ReferenceIdeal.scatter_S512x16_S100000x1_S100000x16_1_0_0_1.sKept by decide)]
  rfl

/-- A word holding a natural number below 2 ^ 31 reads back, signed, as that number. -/
theorem toInt_ofNat_of_lt (n : ℕ) (hn : n < 2 ^ 31) : (BitVec.ofNat 32 n).toInt = (n : ℤ) := by
  have h1 : (BitVec.ofNat 32 n).toNat = n := by rw [BitVec.toNat_ofNat]; omega
  rw [BitVec.toInt_eq_toNat_of_lt (by rw [h1]; omega), h1]

/-- A word read signed is a natural number below 2 ^ 31 exactly when it is that number's word. -/
theorem toInt_eq_iff (w : BitVec 32) (n : ℕ) (hn : n < 2 ^ 31) : w.toInt = (n : ℤ) ↔ w = BitVec.ofNat 32 n := by
  constructor
  · intro h
    have := BitVec.ofInt_toInt (x := w)
    rw [h] at this
    rw [← this]
    exact BitVec.ofInt_natCast 32 n
  · intro h
    rw [h, toInt_ofNat_of_lt n hn]

/-- Where an update of the sum scatter lands: update (r, f') lands on (g, f) exactly when row r's word is the word of
    g and f' is f. -/
theorem land16 (B : IVec Cert.ReferenceIdeal.S100000x1 32) (r : Fin 100000) (f' : Fin 16) (g : Fin 512) (f : Fin 16) :
    Cert.ReferenceIdeal.scatter_S512x16_S100000x1_S100000x16_1_0_0_1.resultIdx? (ix2 r f') B = some (ix2 g f) ↔ (B (ix2 r (0 : Fin 1)) = BitVec.ofNat 32 g.val ∧ f' = f) := by
  rw [ScatterLand.resultIdx?_eq_some_iff, ← toInt_eq_iff _ _ (by have := g.isLt; omega)]
  constructor
  · intro h
    have h0 := h 0
    have h1 := h 1
    rw [start16_0, window16_0] at h0
    rw [start16_1, window16_1] at h1
    refine ⟨by simpa using h0, Fin.ext ?_⟩
    have : ((f'.val : ℕ) : ℤ) = ((f.val : ℕ) : ℤ) := by simpa using h1
    exact_mod_cast this
  · rintro ⟨h0, h1⟩ a
    match a with
    | ⟨0, _⟩ =>
      show Cert.ReferenceIdeal.scatter_S512x16_S100000x1_S100000x16_1_0_0_1.start (ix2 r f') B 0 + ((Cert.ReferenceIdeal.scatter_S512x16_S100000x1_S100000x16_1_0_0_1.window (ix2 r f') 0 : ℕ) : ℤ) = ((g.val : ℕ) : ℤ)
      rw [start16_0, window16_0, h0]; simp
    | ⟨1, _⟩ =>
      show Cert.ReferenceIdeal.scatter_S512x16_S100000x1_S100000x16_1_0_0_1.start (ix2 r f') B 1 + ((Cert.ReferenceIdeal.scatter_S512x16_S100000x1_S100000x16_1_0_0_1.window (ix2 r f') 1 : ℕ) : ℤ) = ((f.val : ℕ) : ℤ)
      rw [start16_1, window16_1, h1]; simp

/-- The sum scatter at an entry: the operand's entry plus the features, at column f, of the rows whose word is the
    word of g. -/
theorem scatter16_apply (x : FVec Ideal Cert.ReferenceIdeal.S512x16 .f32) (B : IVec Cert.ReferenceIdeal.S100000x1 32)
    (H : FVec Ideal Cert.ReferenceIdeal.S100000x16 .f32) (g : Fin 512) (f : Fin 16) :
    Host.scatterAdd (F := Ideal) Cert.ReferenceIdeal.scatter_S512x16_S100000x1_S100000x16_1_0_0_1 x B H (ix2 g f)
      = x (ix2 g f) + ∑ r : Fin 100000, (if B (ix2 r (0 : Fin 1)) = BitVec.ofNat 32 g.val then H (ix2 r f) else 0) := by
  show x (ix2 g f) + ∑ j ∈ Finset.univ.filter (fun j => Cert.ReferenceIdeal.scatter_S512x16_S100000x1_S100000x16_1_0_0_1.resultIdx? j B = some (ix2 g f)), H j = _
  refine congrArg (x (ix2 g f) + ·) ?_
  rw [Finset.sum_filter, sum_idx2]
  refine Finset.sum_congr rfl fun r _ => ?_
  rw [Finset.sum_eq_single f]
  · by_cases h : B (ix2 r (0 : Fin 1)) = BitVec.ofNat 32 g.val
    · rw [if_pos ((land16 B r f g f).2 ⟨h, rfl⟩), if_pos h]
    · rw [if_neg (fun hl => h ((land16 B r f g f).1 hl).1), if_neg h]
  · intro f' _ hne
    exact if_neg (fun hl => hne ((land16 B r f' g f).1 hl).2)
  · intro h
    exact absurd (Finset.mem_univ _) h

/-- The count scatter's start on the operand's one axis is the row's word read signed. -/
theorem start1_0 (B : IVec Cert.ReferenceIdeal.S100000x1 32) (r : Fin 100000) :
    Cert.ReferenceIdeal.scatter_S512_S100000x1_S100000_n_0_0_1.start (ix1 r) B 0 = (B (ix2 r (0 : Fin 1))).toInt := by
  unfold ScatterDims.start
  rw [dif_pos (show (0 : Fin Cert.ReferenceIdeal.S512.rank) ∈ Cert.ReferenceIdeal.scatter_S512_S100000x1_S100000_n_0_0_1.scatterDimsToOperandDims by decide)]
  refine congrArg (fun i => (B i).toInt) (funext fun b => Fin.ext ?_)
  match b with
  | ⟨0, _⟩ => rfl
  | ⟨1, _⟩ => rfl

theorem window1_0 (r : Fin 100000) : Cert.ReferenceIdeal.scatter_S512_S100000x1_S100000_n_0_0_1.window (ix1 r) 0 = 0 := by
  unfold ScatterDims.window
  rw [dif_neg (show ¬ (0 : Fin Cert.ReferenceIdeal.S512.rank) ∈ Cert.ReferenceIdeal.scatter_S512_S100000x1_S100000_n_0_0_1.sKept by decide)]

/-- Where an update of the count scatter lands: update r lands on g exactly when row r's word is the word of g. -/
theorem land1 (B : IVec Cert.ReferenceIdeal.S100000x1 32) (r : Fin 100000) (g : Fin 512) :
    Cert.ReferenceIdeal.scatter_S512_S100000x1_S100000_n_0_0_1.resultIdx? (ix1 r) B = some (ix1 g) ↔ B (ix2 r (0 : Fin 1)) = BitVec.ofNat 32 g.val := by
  rw [ScatterLand.resultIdx?_eq_some_iff, ← toInt_eq_iff _ _ (by have := g.isLt; omega)]
  constructor
  · intro h
    have h0 := h 0
    rw [start1_0, window1_0] at h0
    simpa using h0
  · intro h0 a
    match a with
    | ⟨0, _⟩ =>
      show Cert.ReferenceIdeal.scatter_S512_S100000x1_S100000_n_0_0_1.start (ix1 r) B 0 + ((Cert.ReferenceIdeal.scatter_S512_S100000x1_S100000_n_0_0_1.window (ix1 r) 0 : ℕ) : ℤ) = ((g.val : ℕ) : ℤ)
      rw [start1_0, window1_0, h0]; simp

/-- The count scatter at an entry: the operand's entry plus the updates of the rows whose word is the word of g. -/
theorem scatter1_apply (x : FVec Ideal Cert.ReferenceIdeal.S512 .f32) (B : IVec Cert.ReferenceIdeal.S100000x1 32)
    (W : FVec Ideal Cert.ReferenceIdeal.S100000 .f32) (g : Fin 512) :
    Host.scatterAdd (F := Ideal) Cert.ReferenceIdeal.scatter_S512_S100000x1_S100000_n_0_0_1 x B W (ix1 g)
      = x (ix1 g) + ∑ r : Fin 100000, (if B (ix2 r (0 : Fin 1)) = BitVec.ofNat 32 g.val then W (ix1 r) else 0) := by
  show x (ix1 g) + ∑ j ∈ Finset.univ.filter (fun j => Cert.ReferenceIdeal.scatter_S512_S100000x1_S100000_n_0_0_1.resultIdx? j B = some (ix1 g)), W j = _
  refine congrArg (x (ix1 g) + ·) ?_
  rw [Finset.sum_filter, ← Equiv.sum_comp (idxEquiv1 (n := 100000)).symm]
  refine Finset.sum_congr rfl fun r _ => ?_
  show (if Cert.ReferenceIdeal.scatter_S512_S100000x1_S100000_n_0_0_1.resultIdx? (ix1 r) B = some (ix1 g) then W (ix1 r) else 0) = _
  by_cases h : B (ix2 r (0 : Fin 1)) = BitVec.ofNat 32 g.val
  · rw [if_pos ((land1 B r g).2 h), if_pos h]
  · rw [if_neg (fun hl => h ((land1 B r g).1 hl)), if_neg h]

/-- The reference's zero start of the sums. -/
theorem v102_apply (j : Cert.ReferenceIdeal.S512x16.Idx) : Cert.ReferenceIdeal.Read.val_main_v102 (F := Ideal) j = 0 := by
  rw [Cert.ReferenceIdeal.Read.val_main_v102_apply, Cert.ReferenceIdeal.Read.val_main_cst_24_apply]
  exact Ideal.ofBits_zero_f32

/-- The reference's zero start of the counts. -/
theorem v106_apply (j : Cert.ReferenceIdeal.S512.Idx) : Cert.ReferenceIdeal.Read.val_main_v106 (F := Ideal) j = 0 := by
  rw [Cert.ReferenceIdeal.Read.val_main_v106_apply, Cert.ReferenceIdeal.Read.val_main_cst_26_apply]
  exact Ideal.ofBits_zero_f32

/-- The reference's updates of the counts are ones. -/
theorem v105_apply (j : Cert.ReferenceIdeal.S100000.Idx) : Cert.ReferenceIdeal.Read.val_main_v105 (F := Ideal) j = 1 := by
  rw [Cert.ReferenceIdeal.Read.val_main_v105_apply, Cert.ReferenceIdeal.Read.val_main_cst_25_apply]
  exact Ideal.ofBits_one_f32

/-! ## Ten blocks of ten thousand rows -/

/-- A sum over the hundred thousand rows is the sum, over the ten blocks, of the sums over each block's ten thousand
    rows. -/
theorem sum_blocks {M : Type*} [AddCommMonoid M] (F : Fin 100000 → M) :
    ∑ r, F r = ∑ t : Fin 10, ∑ k : Fin 10000,
      F ⟨t.val * 10000 + k.val, by have := t.isLt; have := k.isLt; omega⟩ := by
  rw [← Equiv.sum_comp (finProdFinEquiv : Fin 10 × Fin 10000 ≃ Fin 100000) F, Fintype.sum_prod_type]
  refine Finset.sum_congr rfl fun t _ => Finset.sum_congr rfl fun k _ => congrArg F (Fin.ext ?_)
  show k.val + 10000 * t.val = t.val * 10000 + k.val
  omega

/-- An accumulator that starts at the first block's term and adds the next block's term at each later point ends at the
    sum of the ten terms. -/
theorem acc_total (acc blk : Fin 10 → EReal) (h0 : acc 0 = blk 0)
    (hs : ∀ (t : Fin 10) (ht : t.val + 1 < 10), acc ⟨t.val + 1, ht⟩ = acc t + blk ⟨t.val + 1, ht⟩) :
    acc 9 = ∑ t, blk t := by
  have key : ∀ (n : ℕ) (hn : n < 10), acc ⟨n, hn⟩ = ∑ s ∈ Finset.range (n + 1), (if h : s < 10 then blk ⟨s, h⟩ else 0) := by
    intro n
    induction n with
    | zero =>
      intro hn
      rw [Finset.sum_range_one, dif_pos hn]
      exact h0
    | succ n ih =>
      intro hn
      rw [Finset.sum_range_succ, dif_pos hn, ← ih (by omega)]
      exact hs ⟨n, by omega⟩ hn
  have h9 := key 9 (by decide)
  rw [show (⟨9, by decide⟩ : Fin 10) = 9 from rfl] at h9
  rw [h9, ← Fin.sum_univ_eq_sum_range (fun s => if h : s < 10 then blk ⟨s, h⟩ else 0) 10]
  exact Finset.sum_congr rfl fun t _ => by rw [dif_pos t.isLt]

/-! ## The ten points' fold is the scatter over all rows -/

/-- Summing the one-hot products over the ten row blocks is the scatter-add over all hundred thousand rows: the sums
    as whole arrays, the counts at every graph. -/
theorem pool_fold
    (B : (⟨Cert.ReferenceIdeal.S100000x1, .i32⟩ : BufTy).Contents (Elt Ideal))
    (H : (⟨Cert.ReferenceIdeal.S100000x16, .f32⟩ : BufTy).Contents (Elt Ideal))
    (bb : Fin 10 → Vec Ideal Cert.KernelIdeal.S10000x1 .i32) (hh : Fin 10 → Vec Ideal Cert.KernelIdeal.S10000x16 .f32)
    (hbb : ∀ (t : Fin 10) (k : Fin 10000), bb t (ix2 k (0 : Fin 1))
      = B (ix2 (⟨t.val * 10000 + k.val, by have := t.isLt; have := k.isLt; omega⟩ : Fin 100000) (0 : Fin 1)))
    (hhh : ∀ (t : Fin 10) (k : Fin 10000) (f : Fin 16), hh t (ix2 k f)
      = H (ix2 (⟨t.val * 10000 + k.val, by have := t.isLt; have := k.isLt; omega⟩ : Fin 100000) f))
    (S : Fin 10 → Vec Ideal Cert.KernelIdeal.S512x16 .f32 × Vec Ideal Cert.KernelIdeal.S512x1 .f32)
    (h0 : S 0 = (Cert.KernelIdeal.Gen.k4_pay4 (F := Ideal) (bb 0) (hh 0) (Cert.KernelIdeal.Gen.k4_pay1 (F := Ideal)),
      Cert.KernelIdeal.Gen.k4_pay5 (F := Ideal) (bb 0) (Cert.KernelIdeal.Gen.k4_pay2 (F := Ideal))))
    (hs : ∀ (t : Fin 10) (ht : t.val + 1 < 10), S ⟨t.val + 1, ht⟩
      = (Cert.KernelIdeal.Gen.k4_pay4 (F := Ideal) (bb ⟨t.val + 1, ht⟩) (hh ⟨t.val + 1, ht⟩) (S t).1,
        Cert.KernelIdeal.Gen.k4_pay5 (F := Ideal) (bb ⟨t.val + 1, ht⟩) (S t).2)) :
    (S 9).1 = Host.scatterAdd (F := Ideal) (φ := .f32) Cert.ReferenceIdeal.scatter_S512x16_S100000x1_S100000x16_1_0_0_1 (Cert.ReferenceIdeal.Read.val_main_v102 (F := Ideal)) B H
    ∧ ∀ g : Fin 512, (S 9).2 (ix2 g (0 : Fin 1))
        = Host.scatterAdd (F := Ideal) (φ := .f32) Cert.ReferenceIdeal.scatter_S512_S100000x1_S100000_n_0_0_1 (Cert.ReferenceIdeal.Read.val_main_v106 (F := Ideal)) B
            (Cert.ReferenceIdeal.Read.val_main_v105 (F := Ideal)) (ix1 g) := by
  constructor
  · funext j
    obtain ⟨g, f, rfl⟩ : ∃ (g : Fin 512) (f : Fin 16), j = ix2 g f := ⟨j 0, j 1, eq_ix2 j⟩
    have e := scatter16_apply (Cert.ReferenceIdeal.Read.val_main_v102 (F := Ideal)) B H g f
    rw [e, v102_apply, zero_add, sum_blocks]
    refine (acc_total (fun t => (S t).1 (ix2 g f))
      (fun t => ∑ k : Fin 10000, (if bb t (ix2 k (0 : Fin 1)) = BitVec.ofNat 32 g.val then hh t (ix2 k f) else 0)) ?_ ?_).trans ?_
    · show (S 0).1 (ix2 g f) = _
      rw [h0]
      show Cert.KernelIdeal.Gen.k4_pay4 (F := Ideal) (bb 0) (hh 0) (Cert.KernelIdeal.Gen.k4_pay1 (F := Ideal)) (ix2 g f) = _
      rw [pay4_apply, pay1_apply, zero_add]
    · intro t ht
      show (S ⟨t.val + 1, ht⟩).1 (ix2 g f) = (S t).1 (ix2 g f) + _
      rw [hs t ht]
      exact pay4_apply _ _ _ g f
    · refine Finset.sum_congr rfl fun t _ => Finset.sum_congr rfl fun k _ => ?_
      beta_reduce
      rw [hbb, hhh]
  · intro g
    have e := scatter1_apply (Cert.ReferenceIdeal.Read.val_main_v106 (F := Ideal)) B (Cert.ReferenceIdeal.Read.val_main_v105 (F := Ideal)) g
    rw [e, v106_apply, zero_add, sum_blocks]
    refine (acc_total (fun t => (S t).2 (ix2 g (0 : Fin 1)))
      (fun t => ∑ k : Fin 10000, (if bb t (ix2 k (0 : Fin 1)) = BitVec.ofNat 32 g.val then (1 : EReal) else 0)) ?_ ?_).trans ?_
    · show (S 0).2 (ix2 g (0 : Fin 1)) = _
      rw [h0]
      show Cert.KernelIdeal.Gen.k4_pay5 (F := Ideal) (bb 0) (Cert.KernelIdeal.Gen.k4_pay2 (F := Ideal)) (ix2 g (0 : Fin 1)) = _
      rw [pay5_apply, pay2_apply, zero_add]
    · intro t ht
      show (S ⟨t.val + 1, ht⟩).2 (ix2 g (0 : Fin 1)) = (S t).2 (ix2 g (0 : Fin 1)) + _
      rw [hs t ht]
      exact pay5_apply _ _ g
    · refine Finset.sum_congr rfl fun t _ => Finset.sum_congr rfl fun k _ => ?_
      beta_reduce
      rw [hbb, v105_apply]

end Cert.PoolSums
-- ==== Proof.Tail.lean ====
import proofs.«406625_j53764400611916_2_alg».proof.Proof.Gen.KernelIdeal.Skeleton
import proofs.«406625_j53764400611916_2_alg».proof.Proof.Gen.ReferenceIdeal.Read
import Idealize.ShloMosaic.Lib.ValueLayout
import Idealize.ShloMosaic.PureOps.Ideal.Laws

/-!
# The pooling kernel's last payload against the reference's last stages

At the extended reals: the mean of a segment is its sum divided by `max count 1`; the logits are the
mean times a `[16, 2]` matrix plus a bias; the result is the logits' log-softmax over the two columns,
`(l - m) - log (∑ exp (l - m))` with `m` the row's maximum. The kernel's payload and the reference's
last stages are this same expression, stage by stage.
-/

noncomputable section

namespace Cert.Tail

open Idealize.ShloMosaic Idealize.ShloMosaic.ValueIdx

/-! ## Layout operations read at coordinates -/

section Layout
variable {α : Type}

/-- A column `[a, 1]` broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A reduced row index `g` with the column `k` put back is `(g, k)`. -/
theorem lift_axis1_ix2 {m n : ℕ} (h : (⟨2, ![m, n]⟩ : Shape).Reduces [1] (⟨1, ![m]⟩ : Shape)) (g : Fin m)
    (k : Fin ((⟨2, ![m, n]⟩ : Shape).size 1)) : h.lift (ix1 g) k = ix2 g (⟨k.val, k.isLt⟩ : Fin n) := by
  funext c; apply Fin.ext
  fin_cases c <;> rfl

end Layout

/-- The pattern of `-∞` is the bottom of the extended reals: the maximum against it is the other operand. -/
theorem max_negInf (y : Ideal .f32) : max (Ideal.ofBits .f32 0xFF800000#32) y = y := by
  simp [Ideal.ofBits, Ideal.ieee]

/-! ## The kernel's payload, stage by stage -/

section Kernel
open Cert.KernelIdeal Cert.KernelIdeal.Gen

/-- The segment's count, at least one. -/
def kCount (cnt : Vec Ideal S512x1 .f32) : FVec Ideal S512x1 .f32 :=
  maximumf cnt (broadcast S512x1 (Scalar.ofBits .f32 0x3F800000#32))

/-- The segment's mean: its sum over its count. -/
def kMean (cnt : Vec Ideal S512x1 .f32) (sm : Vec Ideal S512x16 .f32) : FVec Ideal S512x16 .f32 :=
  divf sm (broadcastTo S512x16 (kCount cnt) broadcasts_S512x1_S512x16)

/-- The logits: the mean times the weights, plus the bias. -/
def kLogit (cnt : Vec Ideal S512x1 .f32) (sm : Vec Ideal S512x16 .f32) (w : Vec Ideal S16x2 .f32)
    (b2 : Vec Ideal S1x2 .f32) : FVec Ideal S512x2 .f32 :=
  addf (matmul dot_S512x16_S16x2_S512x2_1_0_0_1_n_n none (truncf .bf16 (kMean cnt sm) bitsLt_bf16_f32)
      (truncf .bf16 w bitsLt_bf16_f32) (constant S512x2 .f32 0x00000000#32))
    (broadcastTo S512x2 (shapeCast S1x2 b2 shapeCasts_S1x2_S1x2) broadcasts_S1x2_S512x2)

/-- A row minus its maximum. -/
def kShift (L : FVec Ideal S512x2 .f32) : FVec Ideal S512x2 .f32 :=
  subf L (broadcastTo S512x2 (shapeCast S512x1
    (multiReduction .maximumf [1] S512 L 0xFF800000#32 reduces_S512x2_S512 (.inl rfl) rfl)
    shapeCasts_S512_S512x1) broadcasts_S512x1_S512x2)

/-- A row minus the logarithm of the sum of its exponentials. -/
def kLse (Z : FVec Ideal S512x2 .f32) : FVec Ideal S512x2 .f32 :=
  subf Z (broadcastTo S512x2 (log (shapeCast S512x1
    (multiReduction .add [1] S512 (exp Z) 0x00000000#32 reduces_S512x2_S512 (.inl rfl) rfl)
    shapeCasts_S512_S512x1)) broadcasts_S512x1_S512x2)

/-- The payload is the composition of the stages. -/
theorem k4_pay6_eq (cnt : Vec Ideal S512x1 .f32) (sm : Vec Ideal S512x16 .f32) (w : Vec Ideal S16x2 .f32)
    (b2 : Vec Ideal S1x2 .f32) :
    k4_pay6 (F := Ideal) cnt sm w b2 = kLse (kShift (kLogit cnt sm w b2)) := rfl

/-! ### Each stage read at coordinates -/

/-- The mean at `(g, f)`: the sum there over the clamped count of segment `g`. -/
theorem kMean_apply (cnt : Vec Ideal S512x1 .f32) (sm : Vec Ideal S512x16 .f32) (g : Fin 512) (f : Fin 16) :
    kMean cnt sm (ix2 g f)
      = Ideal.div (sm (ix2 g f)) (max (cnt (ix2 g (0 : Fin 1))) (Ideal.ofBits .f32 0x3F800000#32)) := by
  unfold kMean
  show Ideal.div (sm (ix2 g f)) (broadcastTo S512x16 (kCount cnt) broadcasts_S512x1_S512x16 (ix2 g f)) = _
  exact congrArg (Ideal.div (sm (ix2 g f))) (broadcastTo_a1_ab_apply (kCount cnt) broadcasts_S512x1_S512x16 g f)

/-- The left operand's row coordinate is the output's. -/
theorem k_lhs_0 (i : S512x2.Idx) (q : dot_S512x16_S16x2_S512x2_1_0_0_1_n_n.contr.Idx) :
    (dot_S512x16_S16x2_S512x2_1_0_0_1_n_n.lhsIdx i q 0).val = (i 0).val := by
  unfold DotDims.lhsIdx
  rw [dif_neg (show ¬(0 : Fin S512x16.rank) ∈ dot_S512x16_S16x2_S512x2_1_0_0_1_n_n.lhsBatch by decide), dif_pos (show (0 : Fin S512x16.rank) ∈ dot_S512x16_S16x2_S512x2_1_0_0_1_n_n.lhsNonContracting by decide)]
  rfl
/-- The left operand's column coordinate is the contraction's. -/
theorem k_lhs_1 (i : S512x2.Idx) (q : dot_S512x16_S16x2_S512x2_1_0_0_1_n_n.contr.Idx) :
    (dot_S512x16_S16x2_S512x2_1_0_0_1_n_n.lhsIdx i q 1).val = (q ⟨0, by decide⟩).val :=
  dot_S512x16_S16x2_S512x2_1_0_0_1_n_n.lhsIdx_val_of_single rfl i q
/-- The right operand's row coordinate is the contraction's. -/
theorem k_rhs_0 (i : S512x2.Idx) (q : dot_S512x16_S16x2_S512x2_1_0_0_1_n_n.contr.Idx) :
    (dot_S512x16_S16x2_S512x2_1_0_0_1_n_n.rhsIdx i q 0).val = (q ⟨0, by decide⟩).val :=
  dot_S512x16_S16x2_S512x2_1_0_0_1_n_n.rhsIdx_val_of_single rfl i q
/-- The right operand's column coordinate is the output's. -/
theorem k_rhs_1 (i : S512x2.Idx) (q : dot_S512x16_S16x2_S512x2_1_0_0_1_n_n.contr.Idx) :
    (dot_S512x16_S16x2_S512x2_1_0_0_1_n_n.rhsIdx i q 1).val = (i 1).val := by
  unfold DotDims.rhsIdx
  rw [dif_neg (show ¬(1 : Fin S16x2.rank) ∈ dot_S512x16_S16x2_S512x2_1_0_0_1_n_n.rhsBatch by decide), dif_pos (show (1 : Fin S16x2.rank) ∈ dot_S512x16_S16x2_S512x2_1_0_0_1_n_n.rhsNonContracting by decide)]
  rfl

/-- The product into the zero accumulator at `(g, j)`: the sum over the sixteen features. -/
theorem kMatmul_apply (A : FVec Ideal S512x16 .bf16) (B : FVec Ideal S16x2 .bf16) (g : Fin 512) (j : Fin 2) :
    matmul dot_S512x16_S16x2_S512x2_1_0_0_1_n_n none A B (constant (F := Ideal) S512x2 .f32 0x00000000#32) (ix2 g j)
      = ∑ k : Fin 16, A (ix2 g k) * B (ix2 k j) := by
  refine (Ideal.matmul_constant_zero_apply dot_S512x16_S16x2_S512x2_1_0_0_1_n_n none A B (ix2 g j)).trans ?_
  rw [← Equiv.sum_comp (ValueIdx.contrEquiv1 dot_S512x16_S16x2_S512x2_1_0_0_1_n_n 16 rfl rfl).symm]
  refine Finset.sum_congr rfl fun k _ => ?_
  have hk := ValueIdx.contrEquiv1_symm_val dot_S512x16_S16x2_S512x2_1_0_0_1_n_n 16 rfl rfl k
  have el : dot_S512x16_S16x2_S512x2_1_0_0_1_n_n.lhsIdx (ix2 g j) ((ValueIdx.contrEquiv1 dot_S512x16_S16x2_S512x2_1_0_0_1_n_n 16 rfl rfl).symm k) = ix2 g k := funext fun a => Fin.ext (by
    match a with
    | ⟨0, _⟩ => exact k_lhs_0 _ _
    | ⟨1, _⟩ => exact (k_lhs_1 _ _).trans hk)
  have er : dot_S512x16_S16x2_S512x2_1_0_0_1_n_n.rhsIdx (ix2 g j) ((ValueIdx.contrEquiv1 dot_S512x16_S16x2_S512x2_1_0_0_1_n_n 16 rfl rfl).symm k) = ix2 k j := funext fun a => Fin.ext (by
    match a with
    | ⟨0, _⟩ => exact (k_rhs_0 _ _).trans hk
    | ⟨1, _⟩ => exact k_rhs_1 _ _)
  rw [el, er]

/-- The logit at `(g, j)`. -/
theorem kLogit_apply (cnt : Vec Ideal S512x1 .f32) (sm : Vec Ideal S512x16 .f32) (w : Vec Ideal S16x2 .f32)
    (b2 : Vec Ideal S1x2 .f32) (g : Fin 512) (j : Fin 2) :
    kLogit cnt sm w b2 (ix2 g j)
      = (∑ k : Fin 16, Ideal.div (sm (ix2 g k)) (max (cnt (ix2 g (0 : Fin 1))) (Ideal.ofBits .f32 0x3F800000#32)) * w (ix2 k j))
        + b2 (ix2 (0 : Fin 1) j) := by
  unfold kLogit
  refine congrArg₂ (· + ·) ?_ ?_
  · refine (kMatmul_apply _ _ g j).trans (Finset.sum_congr rfl fun k _ => ?_)
    show kMean cnt sm (ix2 g k) * w (ix2 k j) = _
    rw [kMean_apply]
  · refine (broadcastTo_1b_ab_apply _ broadcasts_S1x2_S512x2 g j).trans ?_
    exact congrFun (shapeCast_self b2 shapeCasts_S1x2_S1x2) _

/-- A shifted row at `(g, j)`: the entry minus the maximum of the row's two entries. -/
theorem kShift_apply (L : FVec Ideal S512x2 .f32) (g : Fin 512) (j : Fin 2) :
    kShift L (ix2 g j)
      = L (ix2 g j) - (Finset.univ : Finset (Fin 2)).fold max (Ideal.ofBits .f32 0xFF800000#32) (fun k => L (ix2 g k)) := by
  unfold kShift
  refine congrArg (fun t => L (ix2 g j) - t) ?_
  refine (broadcastTo_a1_ab_apply _ broadcasts_S512x1_S512x2 g j).trans ?_
  refine (shapeCast_a_a1_apply _ shapeCasts_S512_S512x1 g 0).trans ?_
  refine (Ideal.multiReduction_maximumf_single L _ reduces_S512x2_S512 _ _ (ix1 g)).trans ?_
  have hf : (L ∘ reduces_S512x2_S512.lift (ix1 g)) = fun k : Fin 2 => L (ix2 g k) :=
    funext fun k => congrArg L (lift_axis1_ix2 reduces_S512x2_S512 g k)
  exact congrArg (fun f => Finset.fold max (Ideal.ofBits .f32 0xFF800000#32) f (Finset.univ : Finset (Fin 2))) hf

/-- The last stage at `(g, j)`: the entry minus the logarithm of the sum of the row's two exponentials. -/
theorem kLse_apply (Z : FVec Ideal S512x2 .f32) (g : Fin 512) (j : Fin 2) :
    kLse Z (ix2 g j) = Z (ix2 g j) - Ideal.log (∑ k : Fin 2, Ideal.exp (Z (ix2 g k))) := by
  unfold kLse
  refine congrArg (fun t => Z (ix2 g j) - t) ?_
  refine (broadcastTo_a1_ab_apply _ broadcasts_S512x1_S512x2 g j).trans ?_
  refine congrArg Ideal.log ?_
  refine (shapeCast_a_a1_apply _ shapeCasts_S512_S512x1 g 0).trans ?_
  refine (Ideal.multiReduction_add_single (exp Z) _ reduces_S512x2_S512 _ _ (ix1 g)).trans ?_
  refine Finset.sum_congr rfl fun k _ => ?_
  exact congrArg (fun i => Ideal.exp (Z i)) (lift_axis1_ix2 reduces_S512x2_S512 g k)

end Kernel

/-! ## The reference's last stages read at coordinates -/

section Reference
open Cert.ReferenceIdeal Cert.ReferenceIdeal.Gen Cert.ReferenceIdeal.Read

variable (x0 : (⟨S100000x64, .f32⟩ : BufTy).Contents (Elt Ideal)) (x1 : (⟨S2x3200000, .i32⟩ : BufTy).Contents (Elt Ideal))
  (x2 : (⟨S3200000, .f32⟩ : BufTy).Contents (Elt Ideal)) (x3 : (⟨S100000, .i32⟩ : BufTy).Contents (Elt Ideal))
  (x4 : (⟨S64x16, .f32⟩ : BufTy).Contents (Elt Ideal)) (x5 : (⟨S16, .f32⟩ : BufTy).Contents (Elt Ideal))
  (x6 : (⟨S16x16, .f32⟩ : BufTy).Contents (Elt Ideal)) (x7 : (⟨S16, .f32⟩ : BufTy).Contents (Elt Ideal))
  (x8 : (⟨S16x2, .f32⟩ : BufTy).Contents (Elt Ideal)) (x9 : (⟨S2, .f32⟩ : BufTy).Contents (Elt Ideal))

/-- The clamped count broadcast over the features, at `(g, f)`. -/
theorem rCount_apply (g : Fin 512) (f : Fin 16) :
    val_main_v112 (F := Ideal) x3 (ix2 g f)
      = max (val_main_v108 (F := Ideal) x3 (ix1 g)) (Ideal.ofBits .f32 0x3F800000#32) := by
  rw [val_main_v112_apply, val_main_v111_apply, val_main_v110_apply, val_main_v109_apply, val_main_cst_27_apply]
  have e : idx_main_v111 (idx_main_v112 (ix2 g f)) = ix1 g :=
    funext fun a => Fin.ext (by match a with | ⟨0, _⟩ => rfl)
  rw [e, Ideal.maximumf_def, Ideal.ofBits_def]

/-- The reference's logit at `(g, j)`. -/
theorem rLogit_apply (g : Fin 512) (j : Fin 2) :
    val_main_v117 (F := Ideal) x0 x1 x2 x3 x4 x5 x6 x7 x8 x9 (ix2 g j)
      = (∑ k : Fin 16, Ideal.div (val_main_v104 (F := Ideal) x0 x1 x2 x3 x4 x5 x6 x7 (ix2 g k))
            (max (val_main_v108 (F := Ideal) x3 (ix1 g)) (Ideal.ofBits .f32 0x3F800000#32)) * x8 (ix2 k j))
        + x9 (ix1 j) := by
  rw [val_main_v117_apply, val_main_v114_apply, val_main_v116_apply, val_main_v115_apply, Ideal.addf_def]
  refine congrArg₂ (· + ·) (Finset.sum_congr rfl fun k _ => ?_) ?_
  · have el : lidx_main_v114 (ix2 g j) k = ix2 g k :=
      funext fun a => Fin.ext (by match a with | ⟨0, _⟩ => rfl | ⟨1, _⟩ => rfl)
    have er : ridx_main_v114 (ix2 g j) k = ix2 k j :=
      funext fun a => Fin.ext (by match a with | ⟨0, _⟩ => rfl | ⟨1, _⟩ => rfl)
    rw [el, er, val_main_v113_apply, rCount_apply, Ideal.hostDivf_def]
  · exact congrArg x9 (funext fun a => Fin.ext (by match a with | ⟨0, _⟩ => rfl))

/-- The reference's shifted row at `(g, j)`. -/
theorem rShift_apply (g : Fin 512) (j : Fin 2) :
    val_main_call6_v5 (F := Ideal) x0 x1 x2 x3 x4 x5 x6 x7 x8 x9 (ix2 g j)
      = val_main_v117 (F := Ideal) x0 x1 x2 x3 x4 x5 x6 x7 x8 x9 (ix2 g j)
        - (Finset.univ : Finset (Fin 2)).fold max (Ideal.ofBits .f32 0xFF800000#32)
            (fun k => val_main_v117 (F := Ideal) x0 x1 x2 x3 x4 x5 x6 x7 x8 x9 (ix2 g k)) := by
  rw [val_main_call6_v5_apply, val_main_call6_v4_apply, val_main_call6_v3_apply, val_main_call6_v2_apply,
    val_main_call6_v1_apply, val_main_call6_cst_0_apply]
  have e : idx_main_call6_v3 (idx_main_call6_v4 (ix2 g j)) = ix1 g :=
    funext fun a => Fin.ext (by match a with | ⟨0, _⟩ => rfl)
  rw [e, Ideal.subf_def, Ideal.maximumf_def, Ideal.ofBits_def, max_negInf]
  unfold val_main_call6_v0
  generalize (val_main_v117 (F := Ideal) x0 x1 x2 x3 x4 x5 x6 x7 x8 x9 : FVec Ideal S512x2 .f32) = y
  refine congrArg (fun t => y (ix2 g j) - t) ?_
  have h : S512x2.Reduces [1] S512 := by decide
  refine (Host.reduce_eq_fold_single (α := Ideal .f32) (FloatOps.maximumf (F := Ideal) (φ := .f32)) y
    (val_main_call6_cst (F := Ideal)) reducesTo_S512x2_S512_d1 h h_S_ (ix1 g)).trans ?_
  have hf : (y ∘ h.lift (ix1 g)) = fun k : Fin 2 => y (ix2 g k) :=
    funext fun k => congrArg y (lift_axis1_ix2 h g k)
  exact congrArg (fun f => Finset.fold max (Ideal.ofBits .f32 0xFF800000#32) f (Finset.univ : Finset (Fin 2))) hf

/-- The reference's result at `(g, j)`. -/
theorem rLse_apply (g : Fin 512) (j : Fin 2) :
    val_main_v118 (F := Ideal) x0 x1 x2 x3 x4 x5 x6 x7 x8 x9 (ix2 g j)
      = val_main_call6_v5 (F := Ideal) x0 x1 x2 x3 x4 x5 x6 x7 x8 x9 (ix2 g j)
        - Ideal.log (∑ k : Fin 2, Ideal.exp (val_main_call6_v5 (F := Ideal) x0 x1 x2 x3 x4 x5 x6 x7 x8 x9 (ix2 g k))) := by
  rw [val_main_v118_apply, val_main_call6_v10_apply, val_main_call6_v9_apply, val_main_call6_v8_apply,
    val_main_call6_v7_apply, val_main_call6_cst_1_apply]
  have e : idx_main_call6_v8 (idx_main_call6_v10 (ix2 g j)) = ix1 g :=
    funext fun a => Fin.ext (by match a with | ⟨0, _⟩ => rfl)
  rw [e, Ideal.subf_def, Ideal.hostUnary_log_def, Ideal.ofBits_def, Ideal.ofBits_zero_f32, zero_add]
  refine congrArg (fun t => val_main_call6_v5 (F := Ideal) x0 x1 x2 x3 x4 x5 x6 x7 x8 x9 (ix2 g j) - Ideal.log t) ?_
  refine Finset.sum_congr rfl fun k _ => ?_
  have ek : idx_main_call6_v7 (ix1 g) k = ix2 g k :=
    funext fun a => Fin.ext (by match a with | ⟨0, _⟩ => rfl | ⟨1, _⟩ => rfl)
  rw [ek, val_main_call6_v6_apply, Ideal.hostUnary_exp_def]

end Reference

/-! ## The two agree -/

/-- The kernel's last payload, fed the reference's pooled sums, counts, weights and bias, is the
reference's result at every `(g, j)`. -/
theorem tail_eq
    (x0 : (⟨Cert.ReferenceIdeal.S100000x64, .f32⟩ : BufTy).Contents (Elt Ideal))
    (x1 : (⟨Cert.ReferenceIdeal.S2x3200000, .i32⟩ : BufTy).Contents (Elt Ideal))
    (x2 : (⟨Cert.ReferenceIdeal.S3200000, .f32⟩ : BufTy).Contents (Elt Ideal))
    (x3 : (⟨Cert.ReferenceIdeal.S100000, .i32⟩ : BufTy).Contents (Elt Ideal))
    (x4 : (⟨Cert.ReferenceIdeal.S64x16, .f32⟩ : BufTy).Contents (Elt Ideal))
    (x5 : (⟨Cert.ReferenceIdeal.S16, .f32⟩ : BufTy).Contents (Elt Ideal))
    (x6 : (⟨Cert.ReferenceIdeal.S16x16, .f32⟩ : BufTy).Contents (Elt Ideal))
    (x7 : (⟨Cert.ReferenceIdeal.S16, .f32⟩ : BufTy).Contents (Elt Ideal))
    (x8 : (⟨Cert.ReferenceIdeal.S16x2, .f32⟩ : BufTy).Contents (Elt Ideal))
    (x9 : (⟨Cert.ReferenceIdeal.S2, .f32⟩ : BufTy).Contents (Elt Ideal))
    (cnt : Vec Ideal Cert.KernelIdeal.S512x1 .f32) (sm : Vec Ideal Cert.KernelIdeal.S512x16 .f32)
    (w : Vec Ideal Cert.KernelIdeal.S16x2 .f32) (b2 : Vec Ideal Cert.KernelIdeal.S1x2 .f32)
    (hs : ∀ (g : Fin 512) (f : Fin 16), sm (ix2 g f) = Cert.ReferenceIdeal.Read.val_main_v104 (F := Ideal) x0 x1 x2 x3 x4 x5 x6 x7 (ix2 g f))
    (hc : ∀ g : Fin 512, cnt (ix2 g (0 : Fin 1)) = Cert.ReferenceIdeal.Read.val_main_v108 (F := Ideal) x3 (ix1 g))
    (hw : ∀ (k : Fin 16) (j : Fin 2), w (ix2 k j) = x8 (ix2 k j))
    (hb : ∀ j : Fin 2, b2 (ix2 (0 : Fin 1) j) = x9 (ix1 j)) :
    ∀ (g : Fin 512) (j : Fin 2),
      Cert.KernelIdeal.Gen.k4_pay6 (F := Ideal) cnt sm w b2 (ix2 g j)
        = Cert.ReferenceIdeal.Read.val_main_v118 (F := Ideal) x0 x1 x2 x3 x4 x5 x6 x7 x8 x9 (ix2 g j) := by
  intro g j
  have hL : ∀ j' : Fin 2, kLogit cnt sm w b2 (ix2 g j')
      = Cert.ReferenceIdeal.Read.val_main_v117 (F := Ideal) x0 x1 x2 x3 x4 x5 x6 x7 x8 x9 (ix2 g j') := by
    intro j'
    rw [kLogit_apply, rLogit_apply, hc g, hb j']
    refine congrArg (· + x9 (ix1 j')) (Finset.sum_congr rfl fun k _ => ?_)
    rw [hs g k, hw k j']
  have hZ : ∀ j' : Fin 2, kShift (kLogit cnt sm w b2) (ix2 g j')
      = Cert.ReferenceIdeal.Read.val_main_call6_v5 (F := Ideal) x0 x1 x2 x3 x4 x5 x6 x7 x8 x9 (ix2 g j') := by
    intro j'
    rw [kShift_apply, rShift_apply, hL j']
    refine congrArg (fun t => Cert.ReferenceIdeal.Read.val_main_v117 (F := Ideal) x0 x1 x2 x3 x4 x5 x6 x7 x8 x9 (ix2 g j') - t) ?_
    exact congrArg (fun f => Finset.fold max (Ideal.ofBits .f32 0xFF800000#32) f (Finset.univ : Finset (Fin 2)))
      (funext fun k => hL k)
  rw [k4_pay6_eq, kLse_apply, rLse_apply, hZ j]
  refine congrArg (fun t => Cert.ReferenceIdeal.Read.val_main_call6_v5 (F := Ideal) x0 x1 x2 x3 x4 x5 x6 x7 x8 x9 (ix2 g j) - Ideal.log t)
    (Finset.sum_congr rfl fun k _ => ?_)
  rw [hZ k]

end Cert.Tail
-- ==== Proof.PoolBlocks.lean ====
import proofs.«406625_j53764400611916_2_alg».proof.Proof.KI.Reg4
import proofs.«406625_j53764400611916_2_alg».proof.Proof.Gen.ReferenceIdeal.Read
import Idealize.ShloMosaic.Lib.Pipeline.Value
import Idealize.ShloMosaic.Lib.ValueIdx

/-!
# Region 4's blocks read off their arrays

Window 0 and window 1 cut their arrays into ten blocks of 10000 rows: the block at point `t` holds rows
`10000 t … 10000 t + 9999`. Windows 2, 3 and 4 are their whole arrays at every point; window 4 is written back
at the last point only, and that one block covers its array.
-/

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The printed index maps over the grid: windows 0 and 1 step one block of rows per point, windows 2, 3 and 4 stay. -/
theorem poolIdx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- A row of a block of 10000 rows is a row of the array. -/
theorem poolRow_lt (t : Fin cfg4.N) (k : Fin 10000) : t.val * 10000 + k.val < 100000 := by
  have ht : t.val < 10 := Nat.lt_of_lt_of_eq t.isLt N_4
  have hk := k.isLt
  omega

/-- Window 0's block at point `t`: rows `10000 t + k` of its array. -/
theorem blk4_0 (c : Dev nD) (t : Fin cfg4.N) (k : Fin 10000) :
    iblk4 V c 0 t (ix2 k (0 : Fin 1))
      = V c main_v67 (ix2 (⟨t.val * 10000 + k.val, poolRow_lt t k⟩ : Fin 100000) (0 : Fin 1)) := by
  obtain ⟨e0, e1, -⟩ := poolIdx4 t
  unfold iblk4
  rw [View.read_apply]
  show V c main_v67 _ = V c main_v67 _
  congr 1
  funext a
  apply Fin.ext
  match a with
  | ⟨0, _⟩ => show win4_0.index t (0 : Fin 2) * 10000 + 1 * k.val = t.val * 10000 + k.val; rw [e0]; omega
  | ⟨1, _⟩ => show win4_0.index t (1 : Fin 2) * 1 + 1 * 0 = 0; rw [e1]

/-- Window 1's block at point `t`: rows `10000 t + k` of its array, every feature. -/
theorem blk4_1 (c : Dev nD) (t : Fin cfg4.N) (k : Fin 10000) (f : Fin 16) :
    iblk4 V c 1 t (ix2 k f)
      = V c main_v66 (ix2 (⟨t.val * 10000 + k.val, poolRow_lt t k⟩ : Fin 100000) f) := by
  obtain ⟨-, -, e2, e3, -⟩ := poolIdx4 t
  unfold iblk4
  rw [View.read_apply]
  show V c main_v66 _ = V c main_v66 _
  congr 1
  funext a
  apply Fin.ext
  match a with
  | ⟨0, _⟩ => show win4_1.index t (0 : Fin 2) * 10000 + 1 * k.val = t.val * 10000 + k.val; rw [e2]; omega
  | ⟨1, _⟩ => show win4_1.index t (1 : Fin 2) * 16 + 1 * f.val = f.val; rw [e3]; omega

/-- Window 2's block at every point is its whole array. -/
theorem blk4_2 (c : Dev nD) (t : Fin cfg4.N) (k : Fin 16) (j : Fin 2) :
    iblk4 V c 2 t (ix2 k j) = V c main_arg8 (ix2 k j) := by
  obtain ⟨-, -, -, -, e4, e5, -⟩ := poolIdx4 t
  unfold iblk4
  rw [View.read_apply]
  show V c main_arg8 _ = V c main_arg8 _
  congr 1
  funext a
  apply Fin.ext
  match a with
  | ⟨0, _⟩ => show win4_2.index t (0 : Fin 2) * 16 + 1 * k.val = k.val; rw [e4]; omega
  | ⟨1, _⟩ => show win4_2.index t (1 : Fin 2) * 2 + 1 * j.val = j.val; rw [e5]; omega

/-- Window 3's block at every point is its whole array. -/
theorem blk4_3 (c : Dev nD) (t : Fin cfg4.N) (j : Fin 2) :
    iblk4 V c 3 t (ix2 (0 : Fin 1) j) = V c main_v68 (ix2 (0 : Fin 1) j) := by
  obtain ⟨-, -, -, -, -, -, e6, e7, -⟩ := poolIdx4 t
  unfold iblk4
  rw [View.read_apply]
  show V c main_v68 _ = V c main_v68 _
  congr 1
  funext a
  apply Fin.ext
  match a with
  | ⟨0, _⟩ => show win4_3.index t (0 : Fin 2) * 1 + 1 * 0 = 0; rw [e6]
  | ⟨1, _⟩ => show win4_3.index t (1 : Fin 2) * 2 + 1 * j.val = j.val; rw [e7]; omega

/-- Window 4's block at every point, read back, is its whole array. -/
theorem read4_4 (c : Dev nD) (t : Fin cfg4.N) (G : Buf (Elt Ideal) ((cfg4.win 4).arr.view.loc (c.tc : Thread nD τ))) :
    ((cfg4.win 4).blk t).view.read (Elt Ideal) G = G := by
  obtain ⟨-, -, -, -, -, -, -, -, e8, e9⟩ := poolIdx4 t
  have hz : (fun a => win4_4.index t a * main_v69.ty.shape.size a) = fun _ => 0 := funext fun a => by
    match a with
    | ⟨0, _⟩ => show win4_4.index t (0 : Fin 2) * 512 = 0; rw [e8]
    | ⟨1, _⟩ => show win4_4.index t (1 : Fin 2) * 2 = 0; rw [e9]
  exact Memref.read_access_unit_zero (Elt Ideal) main_v69 hz (fun a => by rw [congrFun hz a]; simp) G

/-- The last point writes window 4 back, and its block there covers the array. -/
theorem cover4_4 (c : Dev nD) : ∀ i : ((cfg4.win 4).arr.view.loc (c.tc : Thread nD τ)).2.ty.Idx,
    ∃ t : Fin cfg4.N, (cfg4.win 4).flush t = true ∧ i ∈ ((cfg4.win 4).blk t).view.set := by
  intro i
  refine ⟨t4_9, (flush4_4 t4_9).mpr rfl, ?_⟩
  obtain ⟨-, -, -, -, -, -, -, -, e8, e9⟩ := poolIdx4 t4_9
  show i ∈ ((View.whole main_v69).slice (win4_4.rect t4_9)).set
  rw [View.set_slice_whole, Rect.mem_set_unit]
  intro a
  have h0 : (i 0 : Nat) < 512 := (i 0).isLt
  have h1 : (i 1 : Nat) < 2 := (i 1).isLt
  match a with
  | ⟨0, _⟩ =>
    show win4_4.index t4_9 (0 : Fin 2) * 512 ≤ (i 0 : Nat) ∧ (i 0 : Nat) < win4_4.index t4_9 (0 : Fin 2) * 512 + 512
    rw [e8]; omega
  | ⟨1, _⟩ =>
    show win4_4.index t4_9 (1 : Fin 2) * 2 ≤ (i 1 : Nat) ∧ (i 1 : Nat) < win4_4.index t4_9 (1 : Fin 2) * 2 + 2
    rw [e9]; omega

/-! ## The reference's bias row -/

/-- The bias as a row `[1, 2]` reads, at `(0, j)`, the bias's entry `j`. -/
theorem v115_at (x9 : (⟨Cert.ReferenceIdeal.S2, .f32⟩ : BufTy).Contents (Elt Ideal)) (j : Fin 2) :
    Cert.ReferenceIdeal.Read.val_main_v115 (F := Ideal) x9 (ix2 (0 : Fin 1) j) = x9 (ix1 j) := by
  rw [Cert.ReferenceIdeal.Read.val_main_v115_apply]
  exact congrArg x9 (funext fun a => Fin.ext (by match a with | ⟨0, _⟩ => rfl))

end Cert.KernelIdeal.Hand
-- ==== Proof.ValPool.lean ====
/-
  The value the pooling region leaves, at the exact instance.  The pieces the body's run found are the payloads: the
  accumulators after a point are the point's one-hot products added to what they held (zero at the first point), and
  the result buffer at the last point is the final payload of the accumulators, the weights and the bias.  Over the
  ten points the accumulators therefore end at the scatter-adds of the features and of ones by graph id, and the
  result array — one block, written back at the last point — at the reference's last stage.
-/
import proofs.«406625_j53764400611916_2_alg».proof.Proof.KI.Reg4
import proofs.«406625_j53764400611916_2_alg».proof.Proof.PoolSums
import proofs.«406625_j53764400611916_2_alg».proof.Proof.Tail
import proofs.«406625_j53764400611916_2_alg».proof.Proof.PoolBlocks

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

section Pieces

variable {F : FTy → Type} [FloatOps F]

theorem hz2 : (![0, 0] : Fin 2 → Nat) = fun _ => 0 := funext fun a => by fin_cases a <;> rfl

/-! ## The pieces the runs found are the payloads -/

theorem sA0 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : cond4_0 i) (hc1 : ¬cond4_1 i) (x0 : Vec F S10000x1 .i32) (x1 : Vec F S10000x16 .f32) (x2 : Vec F S16x2 .f32) (x3 : Vec F S1x2 .f32) :
    sout4_A_0 c i arg1 harg1 arg2 harg2 arg3 harg3 arg4 harg4 arg5 harg5 arg6 harg6 arg7 harg7 hc0 hc1 x0 x1 x2 x3 = k4_pay4 x0 x1 (k4_pay1 (F := F)) := by
  unfold sout4_A_0
  rw [View.read_writes_eq_canon _ _ _ (scover4_A_0 c)]
  unfold kernelRun4_A
  dsimp only
  sl_unfold_words
  rw [View.canon_cons_unit_zero (S := S512x16) hz2, View.readCov_unit_zero (S := S512x16) _ hz2]
  simp only [View.readAt_eq_ld, harg1.read_unread, harg2.read_unread, View.ld_unit_zero (S := S10000x1) hz2, View.ld_unit_zero (S := S10000x16) hz2]

theorem sA1 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : cond4_0 i) (hc1 : ¬cond4_1 i) (x0 : Vec F S10000x1 .i32) (x1 : Vec F S10000x16 .f32) (x2 : Vec F S16x2 .f32) (x3 : Vec F S1x2 .f32) :
    sout4_A_1 c i arg1 harg1 arg2 harg2 arg3 harg3 arg4 harg4 arg5 harg5 arg6 harg6 arg7 harg7 hc0 hc1 x0 x1 x2 x3 = k4_pay5 x0 (k4_pay2 (F := F)) := by
  unfold sout4_A_1
  rw [View.read_writes_eq_canon _ _ _ (scover4_A_1 c)]
  unfold kernelRun4_A
  dsimp only
  sl_unfold_words
  rw [View.canon_cons_unit_zero (S := S512x1) hz2, View.readCov_unit_zero (S := S512x1) _ hz2]
  simp only [View.readAt_eq_ld, harg1.read_unread, View.ld_unit_zero (S := S10000x1) hz2]

theorem sB0 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : ¬cond4_1 i) (x0 : Vec F S10000x1 .i32) (x1 : Vec F S10000x16 .f32) (x2 : Vec F S16x2 .f32) (x3 : Vec F S1x2 .f32) (xs0 : Vec F S512x16 .f32) (xs1 : Vec F S512x1 .f32) :
    sout4_B_0 c i arg1 harg1 arg2 harg2 arg3 harg3 arg4 harg4 arg5 harg5 arg6 harg6 arg7 harg7 hc0 hc1 x0 x1 x2 x3 xs0 xs1 = k4_pay4 x0 x1 xs0 := by
  unfold sout4_B_0
  rw [View.read_writes_eq_canon _ _ _ (scover4_B_0 c)]
  unfold kernelRun4_B
  dsimp only
  sl_unfold_words
  rw [View.canon_unit_zero (S := S512x16) hz2]
  simp only [View.readAt_eq_ld, harg1.read_unread, harg2.read_unread, harg6.read_unread, View.ld_unit_zero (S := S10000x1) hz2, View.ld_unit_zero (S := S10000x16) hz2, View.ld_unit_zero (S := S512x16) hz2]

theorem sB1 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : ¬cond4_1 i) (x0 : Vec F S10000x1 .i32) (x1 : Vec F S10000x16 .f32) (x2 : Vec F S16x2 .f32) (x3 : Vec F S1x2 .f32) (xs0 : Vec F S512x16 .f32) (xs1 : Vec F S512x1 .f32) :
    sout4_B_1 c i arg1 harg1 arg2 harg2 arg3 harg3 arg4 harg4 arg5 harg5 arg6 harg6 arg7 harg7 hc0 hc1 x0 x1 x2 x3 xs0 xs1 = k4_pay5 x0 xs1 := by
  unfold sout4_B_1
  rw [View.read_writes_eq_canon _ _ _ (scover4_B_1 c)]
  unfold kernelRun4_B
  dsimp only
  sl_unfold_words
  rw [View.canon_unit_zero (S := S512x1) hz2]
  simp only [View.readAt_eq_ld, harg1.read_unread, harg7.read_unread, View.ld_unit_zero (S := S10000x1) hz2, View.ld_unit_zero (S := S512x1) hz2]

theorem sC0 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : cond4_1 i) (x0 : Vec F S10000x1 .i32) (x1 : Vec F S10000x16 .f32) (x2 : Vec F S16x2 .f32) (x3 : Vec F S1x2 .f32) (xs0 : Vec F S512x16 .f32) (xs1 : Vec F S512x1 .f32) :
    sout4_C_0 c i arg1 harg1 arg2 harg2 arg3 harg3 arg4 harg4 arg5 harg5 arg6 harg6 arg7 harg7 hc0 hc1 x0 x1 x2 x3 xs0 xs1 = k4_pay4 x0 x1 xs0 := by
  unfold sout4_C_0
  rw [View.read_writes_eq_canon _ _ _ (scover4_C_0 c)]
  unfold kernelRun4_C
  dsimp only
  sl_unfold_words
  rw [View.canon_unit_zero (S := S512x16) hz2]
  simp only [View.readAt_eq_ld, harg1.read_unread, harg2.read_unread, harg6.read_unread, View.ld_unit_zero (S := S10000x1) hz2, View.ld_unit_zero (S := S10000x16) hz2, View.ld_unit_zero (S := S512x16) hz2]

theorem sC1 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : cond4_1 i) (x0 : Vec F S10000x1 .i32) (x1 : Vec F S10000x16 .f32) (x2 : Vec F S16x2 .f32) (x3 : Vec F S1x2 .f32) (xs0 : Vec F S512x16 .f32) (xs1 : Vec F S512x1 .f32) :
    sout4_C_1 c i arg1 harg1 arg2 harg2 arg3 harg3 arg4 harg4 arg5 harg5 arg6 harg6 arg7 harg7 hc0 hc1 x0 x1 x2 x3 xs0 xs1 = k4_pay5 x0 xs1 := by
  unfold sout4_C_1
  rw [View.read_writes_eq_canon _ _ _ (scover4_C_1 c)]
  unfold kernelRun4_C
  dsimp only
  sl_unfold_words
  rw [View.canon_unit_zero (S := S512x1) hz2]
  simp only [View.readAt_eq_ld, harg1.read_unread, harg7.read_unread, View.ld_unit_zero (S := S10000x1) hz2, View.ld_unit_zero (S := S512x1) hz2]

theorem oC4 (c : Dev nD) (i : grid4.Coords) (arg1 : Memref sig .tc .vmem S10000x1 .i32) (harg1 : arg1.IsWhole) (arg2 : Memref sig .tc .vmem S10000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x16 .f32) (harg6 : arg6.IsWhole) (arg7 : Memref sig .tc .vmem S512x1 .f32) (harg7 : arg7.IsWhole) (hc0 : ¬cond4_0 i) (hc1 : cond4_1 i) (x0 : Vec F S10000x1 .i32) (x1 : Vec F S10000x16 .f32) (x2 : Vec F S16x2 .f32) (x3 : Vec F S1x2 .f32) (xs0 : Vec F S512x16 .f32) (xs1 : Vec F S512x1 .f32) :
    out4_C_4 c i arg1 harg1 arg2 harg2 arg3 harg3 arg4 harg4 arg5 harg5 arg6 harg6 arg7 harg7 hc0 hc1 x0 x1 x2 x3 xs0 xs1 = k4_pay6 (k4_pay5 x0 xs1) (k4_pay4 x0 x1 xs0) x2 x3 := by
  unfold out4_C_4
  rw [View.read_writes_eq_canon _ _ _ (cover4_C_4 c)]
  unfold kernelRun4_C
  dsimp only
  sl_unfold_words
  rw [View.canon_unit_zero (S := S512x2) hz2, View.readCov_unit_zero (S := S512x1) _ hz2, View.readCov_unit_zero (S := S512x16) _ hz2]
  simp only [View.readAt_eq_ld, harg1.read_unread, harg2.read_unread, harg3.read_unread, harg4.read_unread, harg6.read_unread, harg7.read_unread,
    View.ld_unit_zero (S := S10000x1) hz2, View.ld_unit_zero (S := S10000x16) hz2, View.ld_unit_zero (S := S512x16) hz2, View.ld_unit_zero (S := S512x1) hz2,
    View.ld_unit_zero (S := S16x2) hz2, View.ld_unit_zero (S := S1x2) hz2]

end Pieces

/-! ## The accumulators over the ten points -/

variable (V : (c : Dev nD) → (b : Ref sig .tc) → Buf (Elt Ideal) ((c : Thread nD τ).loc b)) (c : Dev nD)

/-- The grid's points, numbered. -/
abbrev pt (t : Fin 10) : Fin cfg4.N := ⟨t.val, lt_of_lt_of_eq t.isLt (show (10 : ℕ) = cfg4.N from N_4.symm)⟩
/-- The point's block of graph ids and its block of features. -/
abbrev idsAt (t : Fin 10) : Vec Ideal S10000x1 .i32 := iblk4 V c 0 (pt t)
abbrev featAt (t : Fin 10) : Vec Ideal S10000x16 .f32 := iblk4 V c 1 (pt t)
/-- What the two accumulators hold after point t. -/
def accAfter (t : Fin 10) : Vec Ideal S512x16 .f32 × Vec Ideal S512x1 .f32 :=
  ((outsAt4 V c (pt t).val (pt t).isLt).2.1, (outsAt4 V c (pt t).val (pt t).isLt).2.2)

set_option maxHeartbeats 2000000 in
theorem accAfter_zero : accAfter V c 0 = (k4_pay4 (F := Ideal) (idsAt V c 0) (featAt V c 0) (k4_pay1 (F := Ideal)), k4_pay5 (F := Ideal) (idsAt V c 0) (k4_pay2 (F := Ideal))) := by
  unfold accAfter
  rw [outsAt4_A V c (pt 0) (show (0 : ℕ) % 10 = 0 from rfl) (show ¬ (0 : ℕ) % 10 = 9 by decide)]
  dsimp only
  rw [sA0, sA1]

set_option maxHeartbeats 4000000 in
theorem accAfter_succ (t : Fin 10) (ht : t.val + 1 < 10) :
    accAfter V c ⟨t.val + 1, ht⟩ = (k4_pay4 (F := Ideal) (idsAt V c ⟨t.val + 1, ht⟩) (featAt V c ⟨t.val + 1, ht⟩) (accAfter V c t).1, k4_pay5 (F := Ideal) (idsAt V c ⟨t.val + 1, ht⟩) (accAfter V c t).2) := by
  have h0 : ¬ (pt ⟨t.val + 1, ht⟩).val % 10 = 0 := by show ¬ (t.val + 1) % 10 = 0; omega
  unfold accAfter
  by_cases h1 : (pt ⟨t.val + 1, ht⟩).val % 10 = 9
  · rw [outsAt4_C V c (pt ⟨t.val + 1, ht⟩) h0 h1]
    dsimp only
    rw [sC0, sC1]
    rfl
  · rw [outsAt4_B V c (pt ⟨t.val + 1, ht⟩) h0 h1]
    dsimp only
    rw [sB0, sB1]
    rfl

set_option maxHeartbeats 4000000 in
/-- What the last point leaves in the result buffer: the final payload of the accumulators after it. -/
theorem out_last : (outsAt4 V c (pt 9).val (pt 9).isLt).1
    = k4_pay6 (F := Ideal) (accAfter V c 9).2 (accAfter V c 9).1 (iblk4 V c 2 (pt 9)) (iblk4 V c 3 (pt 9)) := by
  rw [show accAfter V c 9 = accAfter V c ⟨(8 : Fin 10).val + 1, by decide⟩ from rfl, accAfter_succ V c 8 (by decide)]
  dsimp only
  rw [outsAt4_C V c (pt 9) (show ¬ (9 : ℕ) % 10 = 0 by decide) (show (9 : ℕ) % 10 = 9 from rfl)]
  dsimp only
  rw [oC4]
  rfl

/-! ## The region's result -/

set_option maxHeartbeats 4000000 in
/-- Region 4 leaves the reference's last stage, given that its input arrays hold the reference's stages. -/
theorem arr4_eq (x0 x1 x2 x3 x4 x5 x6 x7 x8 x9)
    (h66 : V c main_v66 = Cert.ReferenceIdeal.Read.val_main_v101 (F := Ideal) x0 x1 x2 x4 x5 x6 x7) (h67 : V c main_v67 = Cert.ReferenceIdeal.Read.val_main_v103 (F := Ideal) x3)
    (h8 : V c main_arg8 = x8) (h68 : V c main_v68 = Cert.ReferenceIdeal.Read.val_main_v115 (F := Ideal) x9) :
    (dat4 (F := Ideal) V c).arrAt 4 cfg4.N = Cert.ReferenceIdeal.Read.val_main_v118 (F := Ideal) x0 x1 x2 x3 x4 x5 x6 x7 x8 x9 := by
  have hfold := Cert.PoolSums.pool_fold (Cert.ReferenceIdeal.Read.val_main_v103 (F := Ideal) x3) (Cert.ReferenceIdeal.Read.val_main_v101 (F := Ideal) x0 x1 x2 x4 x5 x6 x7)
    (idsAt V c) (featAt V c)
    (fun t k => (blk4_0 V c (pt t) k).trans (by rw [h67]))
    (fun t k f => (blk4_1 V c (pt t) k f).trans (by rw [h66]))
    (accAfter V c) (accAfter_zero V c) (accAfter_succ V c)
  refine (dat4 V c).arrAt_eq_of_cover 4 _ (fun t hf => ?_) (cover4_4 c)
  have h9 : t.val % 10 = 9 := (flush4_4 t).mp hf
  obtain ⟨n, hn⟩ := t
  have hn10 : n < 10 := lt_of_lt_of_eq hn N_4
  have hn9 : n = 9 := by simp only at h9; omega
  subst hn9
  rw [read4_4 c ⟨9, hn⟩]
  refine Eq.trans (show _ = (outsAt4 V c (pt 9).val (pt 9).isLt).1 from after4_4 V c ⟨9, hn⟩) ((out_last V c).trans ?_)
  funext y
  obtain ⟨g, j, rfl⟩ : ∃ (g : Fin 512) (j : Fin 2), y = ix2 g j := ⟨y 0, y 1, eq_ix2 y⟩
  refine Cert.Tail.tail_eq x0 x1 x2 x3 x4 x5 x6 x7 x8 x9 (accAfter V c 9).2 (accAfter V c 9).1 (iblk4 V c 2 (pt 9)) (iblk4 V c 3 (pt 9)) ?_ ?_ ?_ ?_ g j
  · intro g f
    rw [hfold.1]; unfold Cert.ReferenceIdeal.Read.val_main_v104; rfl
  · intro g
    rw [hfold.2 g]; unfold Cert.ReferenceIdeal.Read.val_main_v108 Cert.ReferenceIdeal.Read.val_main_v107 Cert.ReferenceIdeal.Read.val_main_v103; rfl
  · intro k j
    rw [blk4_2 V c (pt 9) k j, h8]
  · intro j
    rw [blk4_3 V c (pt 9) j, h68]
    exact v115_at x9 j

end Cert.KernelIdeal.Hand

end
-- ==== Proof.KValue.lean ====
/-
  The value of the idealized kernel program's result at the exact instance.  Boundary by boundary the buffers the
  next item reads hold the reference program's own stage functions of the arguments: the first host stretch leaves
  the normalised edge weights and the two index vectors; region 0 the first product; the next stretch the first
  aggregation; region 1 the first layer's output; region 2 the second product; the next stretch the second
  aggregation (the reference recomputes the normalisation there: the same function of the same arguments); region 3
  the second layer's output; region 4 the pooled, projected and normalised result.  So the result array ends at the
  reference's last stage of the arguments.
-/
import proofs.«406625_j53764400611916_2_alg».proof.Proof.KI.Run
import proofs.«406625_j53764400611916_2_alg».proof.Proof.KHostA
import proofs.«406625_j53764400611916_2_alg».proof.Proof.KHostB
import proofs.«406625_j53764400611916_2_alg».proof.Proof.ValMat
import proofs.«406625_j53764400611916_2_alg».proof.Proof.ValBias
import proofs.«406625_j53764400611916_2_alg».proof.Proof.ValPool

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- An argument's contents at launch. -/
abbrev arg (r : Ref sig .tc) : Buf (Elt Ideal) ((c.tc : Thread nD τ).loc r) := m ((c.tc : Thread nD τ).loc r)

/-- A buffer the first five host stretches do not write is, at region 0's entry, as launched. -/
theorem V5_arg (r : Ref sig .tc) (h1 : r ∉ hostOps0_W) (h2 : r ∉ hostOps0_1_W) (h3 : r ∉ hostOps0_2_W) (h4 : r ∉ hostOps0_3_W) (h5 : r ∉ hostOps0_4_W) :
    V5 m c r = m ((c.tc : Thread nD τ).loc r) :=
  (V5_of m c r h5).trans <| (V4_of m c r h4).trans <| (V3_of m c r h3).trans <| (V2_of m c r h2).trans (V1_of m c r h1)

/-- Region 0 leaves the first product. -/
theorem o35_eq : o35 m c = Cert.ReferenceIdeal.Read.val_main_v35 (F := Ideal) (arg m c main_arg0) (arg m c main_arg4) := by
  unfold o35
  refine (arr0_eq (WR5 m) c).trans ?_
  exact congrArg₂ (Cert.ReferenceIdeal.Read.val_main_v35 (F := Ideal)) (V5_arg m c main_arg0 (by decide) (by decide) (by decide) (by decide) (by decide))
    (V5_arg m c main_arg4 (by decide) (by decide) (by decide) (by decide) (by decide))

theorem h35 : outsF m 6 main_v35 c = Cert.ReferenceIdeal.Read.val_main_v35 (F := Ideal) (arg m c main_arg0) (arg m c main_arg4) :=
  (outsF_35 m 6 c).trans (o35_eq m c)

/-- The second host stretch leaves the first aggregation and the first bias row. -/
theorem w7_agg : WR7 m c main_v48 = Cert.ReferenceIdeal.Read.val_main_v48 (F := Ideal) (arg m c main_arg0) (arg m c main_arg1) (arg m c main_arg2) (arg m c main_arg4) :=
  (congrFun (V7_eq m c) _).symm.trans (v7_agg m (outsF m) c (v5_norm m c) (v5_row m c) (v5_col m c) (h35 m c))
theorem w7_bias : WR7 m c main_v49 = Cert.ReferenceIdeal.Read.val_main_v49 (F := Ideal) (arg m c main_arg5) :=
  (congrFun (V7_eq m c) _).symm.trans (v7_bias m (outsF m) c)

/-- Region 1 leaves the first layer's output. -/
theorem o50_eq : o50 m c = Cert.ReferenceIdeal.Read.val_main_v52 (F := Ideal) (arg m c main_arg0) (arg m c main_arg1) (arg m c main_arg2) (arg m c main_arg4) (arg m c main_arg5) := by
  unfold o50
  exact arr1_eq (WR7 m) c _ _ _ _ _ (w7_agg m c) (w7_bias m c)

theorem w8_out : WR8 m c main_v50 = Cert.ReferenceIdeal.Read.val_main_v52 (F := Ideal) (arg m c main_arg0) (arg m c main_arg1) (arg m c main_arg2) (arg m c main_arg4) (arg m c main_arg5) := by
  show Function.update (W7 m c) main_v50 (o50 m c) (Proc.devRef .tc main_v50) = _
  rw [Function.update_self]; exact o50_eq m c
theorem w8_w : WR8 m c main_arg6 = arg m c main_arg6 := by
  show Function.update (W7 m c) main_v50 (o50 m c) (Proc.devRef .tc main_arg6) = _
  rw [Function.update_of_ne (StableHlo.devRef_ne_of_ne (by decide))]
  exact (congrFun (V7_eq m c) _).symm.trans ((V7_of m (outsF m) c main_arg6 (by decide)).trans (V6_arg m (outsF m) c main_arg6 (by decide) (by decide) (by decide) (by decide) (by decide) (by decide)))

/-- Region 2 leaves the second product. -/
theorem o51_eq : o51 m c = Cert.ReferenceIdeal.Read.val_main_v84 (F := Ideal) (arg m c main_arg0) (arg m c main_arg1) (arg m c main_arg2) (arg m c main_arg4) (arg m c main_arg5) (arg m c main_arg6) := by
  unfold o51
  exact arr2_eq (WR8 m) c _ _ _ _ _ _ (w8_out m c) (w8_w m c)

theorem h51 : outsF m 9 main_v51 c = Cert.ReferenceIdeal.Read.val_main_v84 (F := Ideal) (arg m c main_arg0) (arg m c main_arg1) (arg m c main_arg2) (arg m c main_arg4) (arg m c main_arg5) (arg m c main_arg6) :=
  (outsF_51 m 9 c).trans (o51_eq m c)

/-- The third host stretch leaves the second aggregation and the second bias row. -/
theorem w10_agg : WR10 m c main_v64 = Cert.ReferenceIdeal.Read.val_main_v97 (F := Ideal) (arg m c main_arg0) (arg m c main_arg1) (arg m c main_arg2) (arg m c main_arg4) (arg m c main_arg5) (arg m c main_arg6) :=
  (congrFun (V10_eq m c) _).symm.trans (v10_agg m (outsF m) c (v5_norm m c) (v5_row m c) (v5_col m c) (h51 m c))
theorem w10_bias : WR10 m c main_v65 = Cert.ReferenceIdeal.Read.val_main_v98 (F := Ideal) (arg m c main_arg7) :=
  (congrFun (V10_eq m c) _).symm.trans (v10_bias m (outsF m) c)

/-- Region 3 leaves the second layer's output. -/
theorem o66_eq : o66 m c = Cert.ReferenceIdeal.Read.val_main_v101 (F := Ideal) (arg m c main_arg0) (arg m c main_arg1) (arg m c main_arg2) (arg m c main_arg4) (arg m c main_arg5) (arg m c main_arg6) (arg m c main_arg7) := by
  unfold o66
  exact arr3_eq (WR10 m) c _ _ _ _ _ _ _ (w10_agg m c) (w10_bias m c)

/-- The last host stretch keeps region 3's output and the final weights, and lays the graph ids and the final bias out. -/
theorem w12_h : WR12 m c main_v66 = Cert.ReferenceIdeal.Read.val_main_v101 (F := Ideal) (arg m c main_arg0) (arg m c main_arg1) (arg m c main_arg2) (arg m c main_arg4) (arg m c main_arg5) (arg m c main_arg6) (arg m c main_arg7) := by
  refine (congrFun (V12_eq m c) _).symm.trans ((V12_of m (outsF m) c main_v66 (by decide)).trans ?_)
  show Function.update (V10 m (outsF m) c) main_v66 (outsF m 11 main_v66 c) (Proc.devRef .tc main_v66) = _
  rw [Function.update_self, outsF_66]; exact o66_eq m c
theorem w12_ids : WR12 m c main_v67 = Cert.ReferenceIdeal.Read.val_main_v103 (F := Ideal) (arg m c main_arg3) :=
  (congrFun (V12_eq m c) _).symm.trans (v12_batch m (outsF m) c)
theorem w12_bfc : WR12 m c main_v68 = Cert.ReferenceIdeal.Read.val_main_v115 (F := Ideal) (arg m c main_arg9) :=
  (congrFun (V12_eq m c) _).symm.trans (v12_bfc m (outsF m) c)
theorem w12_w : WR12 m c main_arg8 = arg m c main_arg8 :=
  (congrFun (V12_eq m c) _).symm.trans ((V12_of m (outsF m) c main_arg8 (by decide)).trans ((V11_old m (outsF m) c main_arg8 (by decide) (by decide)).trans ((V9_old m (outsF m) c main_arg8 (by decide) (by decide) (by decide)).trans (V6_arg m (outsF m) c main_arg8 (by decide) (by decide) (by decide) (by decide) (by decide) (by decide)))))

/-- Region 4 leaves the reference's last stage. -/
theorem o69_eq : o69 m c = Cert.ReferenceIdeal.Read.val_main_v118 (F := Ideal) (arg m c main_arg0) (arg m c main_arg1) (arg m c main_arg2) (arg m c main_arg3) (arg m c main_arg4) (arg m c main_arg5) (arg m c main_arg6) (arg m c main_arg7) (arg m c main_arg8) (arg m c main_arg9) := by
  unfold o69
  exact arr4_eq (WR12 m) c _ _ _ _ _ _ _ _ _ _ (w12_h m c) (w12_ids m c) (w12_w m c) (w12_bfc m c)

/-- THE RESULT: after the run the result array holds the reference's last stage of the launch arguments. -/
theorem result_eq : V13 m (outsF m) c main_v69 = Cert.ReferenceIdeal.Read.val_main_v118 (F := Ideal) (arg m c main_arg0) (arg m c main_arg1) (arg m c main_arg2) (arg m c main_arg3) (arg m c main_arg4) (arg m c main_arg5) (arg m c main_arg6) (arg m c main_arg7) (arg m c main_arg8) (arg m c main_arg9) := by
  show Function.update (V12 m (outsF m) c) main_v69 (outsF m 13 main_v69 c) (Proc.devRef .tc main_v69) = _
  rw [Function.update_self, outsF_69]; exact o69_eq m c

end Cert.KernelIdeal.Hand

end
-- ==== Proof.lean ====
/-
  The certificate of a two-layer graph convolution with mean pooling, a final linear layer and a log-softmax, computed
  by five pipelined kernels among host operations, against its plain reference.

  Frames.  The kernel program, as printed and idealized, is a list of host stretches and five kernel regions; each
  region's body is run symbolically on its staging buffers, the pooling region in three cases (first, middle and last
  grid point) with its two accumulators carried from point to point; the launch theorem for several regions then gives
  termination without fault and every unscoped buffer at the last boundary's contents, among them the arguments
  unchanged.  The reference's frame is its run.

  Values, at the exact instance.  The matrix-product regions leave x·W row block by row block, which is the whole
  product; the bias-and-rectifier regions leave max(a + b, 0) entry by entry; the host stretches between them are the
  reference's own operations on equal operands (the reference recomputes the edge normalisation in its second layer:
  the same function of the same arguments).  The pooling region sums, over ten row blocks, the products of the blocks'
  one-hot graph-membership matrices with the features and with a column of ones; these are the reference's
  scatter-adds of the features and of ones by graph id, since a row contributes to graph g exactly when its id is g and
  ids outside the table contribute nowhere on either side.  The quotient by max(count, 1), the final product, the
  bias and the log-softmax are the same expressions on the extended reals.  Only commutativity and associativity of the
  sums and 0·x = 0, 1·x = x are used, so the precondition is not opened.
-/
import proofs.«406625_j53764400611916_2_alg».proof.Defs
import proofs.«406625_j53764400611916_2_alg».proof.Proof.Gen.Kernel
import proofs.«406625_j53764400611916_2_alg».proof.Proof.Gen.KernelIdeal
import proofs.«406625_j53764400611916_2_alg».proof.Proof.Gen.ReferenceIdeal
import proofs.«406625_j53764400611916_2_alg».proof.Proof.Gen.Pre_finite_inputs
import proofs.«406625_j53764400611916_2_alg».proof.Proof.Gen.ReferenceIdeal.Run
import proofs.«406625_j53764400611916_2_alg».proof.Proof.Gen.ReferenceIdeal.Read
import proofs.«406625_j53764400611916_2_alg».proof.Proof.K.Run
import proofs.«406625_j53764400611916_2_alg».proof.Proof.KI.Run
import proofs.«406625_j53764400611916_2_alg».proof.Proof.KValue

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the result array at the reference's
    last stage of the arguments. -/
theorem algebraic : Cert.algebraic_KernelIdeal_ReferenceIdeal := by
  intro m ρ m' ρ' _ hagree
  refine ⟨fun c => Cert.KernelIdeal.Gen.V13 m (Cert.KernelIdeal.Hand.outsF m) c Cert.KernelIdeal.main_v69, ?_, ?_⟩
  · exact (θ_run Cert.KernelIdeal.defs _ _).mono (fun r h c =>
      ⟨h c _ (Cert.KernelIdeal.Hand.mem_uc Cert.KernelIdeal.main_v69 (by decide)),
        (h c _ (Cert.KernelIdeal.Hand.mem_uc Cert.KernelIdeal.main_arg0 (by decide))).trans (Cert.KernelIdeal.Gen.V13_main_arg0 m (Cert.KernelIdeal.Hand.outsF m) c),
        (h c _ (Cert.KernelIdeal.Hand.mem_uc Cert.KernelIdeal.main_arg1 (by decide))).trans (Cert.KernelIdeal.Gen.V13_main_arg1 m (Cert.KernelIdeal.Hand.outsF m) c),
        (h c _ (Cert.KernelIdeal.Hand.mem_uc Cert.KernelIdeal.main_arg2 (by decide))).trans (Cert.KernelIdeal.Gen.V13_main_arg2 m (Cert.KernelIdeal.Hand.outsF m) c),
        (h c _ (Cert.KernelIdeal.Hand.mem_uc Cert.KernelIdeal.main_arg3 (by decide))).trans (Cert.KernelIdeal.Gen.V13_main_arg3 m (Cert.KernelIdeal.Hand.outsF m) c),
        (h c _ (Cert.KernelIdeal.Hand.mem_uc Cert.KernelIdeal.main_arg4 (by decide))).trans (Cert.KernelIdeal.Gen.V13_main_arg4 m (Cert.KernelIdeal.Hand.outsF m) c),
        (h c _ (Cert.KernelIdeal.Hand.mem_uc Cert.KernelIdeal.main_arg5 (by decide))).trans (Cert.KernelIdeal.Gen.V13_main_arg5 m (Cert.KernelIdeal.Hand.outsF m) c),
        (h c _ (Cert.KernelIdeal.Hand.mem_uc Cert.KernelIdeal.main_arg6 (by decide))).trans (Cert.KernelIdeal.Gen.V13_main_arg6 m (Cert.KernelIdeal.Hand.outsF m) c),
        (h c _ (Cert.KernelIdeal.Hand.mem_uc Cert.KernelIdeal.main_arg7 (by decide))).trans (Cert.KernelIdeal.Gen.V13_main_arg7 m (Cert.KernelIdeal.Hand.outsF m) c),
        (h c _ (Cert.KernelIdeal.Hand.mem_uc Cert.KernelIdeal.main_arg8 (by decide))).trans (Cert.KernelIdeal.Gen.V13_main_arg8 m (Cert.KernelIdeal.Hand.outsF m) c),
        (h c _ (Cert.KernelIdeal.Hand.mem_uc Cert.KernelIdeal.main_arg9 (by decide))).trans (Cert.KernelIdeal.Gen.V13_main_arg9 m (Cert.KernelIdeal.Hand.outsF m) c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v118_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]
    exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
